-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x37x2048 : Shape := ⟨3, ![128, 37, 2048]⟩
abbrev S128x8 : Shape := ⟨2, ![128, 8]⟩
abbrev S128x2048 : Shape := ⟨2, ![128, 2048]⟩
abbrev S74x256 : Shape := ⟨2, ![74, 256]⟩
abbrev S256 : Shape := ⟨1, ![256]⟩
abbrev S1x256 : Shape := ⟨2, ![1, 256]⟩
abbrev S8x8 : Shape := ⟨2, ![8, 8]⟩
abbrev S8 : Shape := ⟨1, ![8]⟩
abbrev S264x264 : Shape := ⟨2, ![264, 264]⟩
abbrev S264 : Shape := ⟨1, ![264]⟩
abbrev S264x2 : Shape := ⟨2, ![264, 2]⟩
abbrev S2 : Shape := ⟨1, ![2]⟩
abbrev S_ : Shape := ⟨0, ![]⟩

class Facts : Prop where
  bcast_S_S128x37x2048 : S_.BroadcastsInDim S128x37x2048 (![] : Fin 0 → Fin S128x37x2048.rank)
  reducesTo_S128x37x2048_S_d0_1_2 : S128x37x2048.ReducesTo [0, 1, 2] S_
  h_S_ : 0 < S_.numel
  bcast_S_S128x8 : S_.BroadcastsInDim S128x8 (![] : Fin 0 → Fin S128x8.rank)
  reducesTo_S128x8_S_d0_1 : S128x8.ReducesTo [0, 1] S_
  bcast_S_S128x2048 : S_.BroadcastsInDim S128x2048 (![] : Fin 0 → Fin S128x2048.rank)
  reducesTo_S128x2048_S_d0_1 : S128x2048.ReducesTo [0, 1] S_
  bcast_S_S74x256 : S_.BroadcastsInDim S74x256 (![] : Fin 0 → Fin S74x256.rank)
  reducesTo_S74x256_S_d0_1 : S74x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S264x264 : S_.BroadcastsInDim S264x264 (![] : Fin 0 → Fin S264x264.rank)
  reducesTo_S264x264_S_d0_1 : S264x264.ReducesTo [0, 1] S_
  bcast_S_S264 : S_.BroadcastsInDim S264 (![] : Fin 0 → Fin S264.rank)
  reducesTo_S264_S_d0 : S264.ReducesTo [0] S_
  bcast_S_S264x2 : S_.BroadcastsInDim S264x2 (![] : Fin 0 → Fin S264x2.rank)
  reducesTo_S264x2_S_d0_1 : S264x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S264x2 .f32) (main_arg13 : FVec F S2 .f32) (main_v48 : IVec S_ 1) (main_v49 : FVec F S264 .f32) (main_v50 : FVec F S264 .f32) : IVec S_ 1 :=
  let main_v51 : IVec S264 1 := cmpf .olt main_v49 main_v50
  let main_c_19 : IVec S_ 1 := constantI S_ 1 1#1
  let main_v52 : IVec S_ 1 := (fun x v => Host.reduce IntOp.andi x v reducesTo_S264_S_d0 h_S_) main_v51 main_c_19
  let main_v53 : IVec S_ 1 := andi main_v48 main_v52
  let main_v54 : FVec F S264x2 .f32 := Host.absf main_arg12
  let main_cst_20 : FVec F S_ .f32 := constant S_ .f32 0x7F800000#32
  let main_v55 : FVec F S264x2 .f32 := broadcastInDim S264x2 ![] bcast_S_S264x2 main_cst_20
  let main_v56 : IVec S264x2 1 := cmpf .olt main_v54 main_v55
  let main_c_21 : IVec S_ 1 := constantI S_ 1 1#1
  let main_v57 : IVec S_ 1 := (fun x v => Host.reduce IntOp.andi x v reducesTo_S264x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg8 : FVec F S8x8 .f32) (main_arg9 : FVec F S8 .f32) (main_arg10 : FVec F S264x264 .f32) (main_arg11 : FVec F S264 .f32) (main_arg12 : FVec F S264x2 .f32) (main_arg13 : FVec F S2 .f32) (main_v33 : IVec S_ 1) : IVec S_ 1 :=
  let main_v34 : FVec F S8x8 .f32 := Host.absf main_arg8
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S264x264 .f32 := Host.absf main_arg10
  let main_cst_16 : FVec F S_ .f32 := constant S_ .f32 0x7F800000#32
  let main_v45 : FVec F S264x264 .f32 := broadcastInDim S264x264 ![] bcast_S_S264x264 main_cst_16
  let main_v46 : IVec S264x264 1 := cmpf .olt main_v44 main_v45
  let main_c_17 : IVec S_ 1 := constantI S_ 1 1#1
  let main_v47 : IVec S_ 1 := (fun x v => Host.reduce IntOp.andi x v reducesTo_S264x264_S_d0_1 h_S_) main_v46 main_c_17
  let main_v48 : IVec S_ 1 := andi main_v43 main_v47
  let main_v49 : FVec F S264 .f32 := Host.absf main_arg11
  let main_cst_18 : FVec F S_ .f32 := constant S_ .f32 0x7F800000#32
  let main_v50 : FVec F S264 .f32 := broadcastInDim S264 ![] bcast_S_S264 main_cst_18
  fn_part3 (F := F) main_arg12 main_arg13 main_v48 main_v49 main_v50

def fn_part1 {F : FTy → Type} [FloatOps F] (main_arg5 : FVec F S256 .f32) (main_arg6 : FVec F S1x256 .f32) (main_arg7 : FVec F S256 .f32) (main_arg8 : FVec F S8x8 .f32) (main_arg9 : FVec F S8 .f32) (main_arg10 : FVec F S264x264 .f32) (main_arg11 : FVec F S264 .f32) (main_arg12 : FVec F S264x2 .f32) (main_arg13 : FVec F S2 .f32) (main_v13 : IVec S_ 1) (main_v16 : IVec S74x256 1) : IVec S_ 1 :=
  let main_c_5 : IVec S_ 1 := constantI S_ 1 1#1
  let main_v17 : IVec S_ 1 := (fun x v => Host.reduce IntOp.andi x v reducesTo_S74x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1x256 .f32 := Host.absf main_arg6
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S128x37x2048 .f32) (main_arg1 : FVec F S128x8 .f32) (main_arg2 : FVec F S128x2048 .f32) (main_arg3 : IVec S128x37x2048 32) (main_arg4 : FVec F S74x256 .f32) (main_arg5 : FVec F S256 .f32) (main_arg6 : FVec F S1x256 .f32) (main_arg7 : FVec F S256 .f32) (main_arg8 : FVec F S8x8 .f32) (main_arg9 : FVec F S8 .f32) (main_arg10 : FVec F S264x264 .f32) (main_arg11 : FVec F S264 .f32) (main_arg12 : FVec F S264x2 .f32) (main_arg13 : FVec F S2 .f32) : IVec S_ 1 :=
  let main_v0 : FVec F S128x37x2048 .f32 := Host.absf main_arg0
  let main_cst : FVec F S_ .f32 := constant S_ .f32 0x7F800000#32
  let main_v1 : FVec F S128x37x2048 .f32 := broadcastInDim S128x37x2048 ![] bcast_S_S128x37x2048 main_cst
  let main_v2 : IVec S128x37x2048 1 := cmpf .olt main_v0 main_v1
  let main_c : IVec S_ 1 := constantI S_ 1 1#1
  let main_v3 : IVec S_ 1 := (fun x v => Host.reduce IntOp.andi x v reducesTo_S128x37x2048_S_d0_1_2 h_S_) main_v2 main_c
  let main_v4 : FVec F S128x8 .f32 := Host.absf main_arg1
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S74x256 .f32 := Host.absf main_arg4
  let main_cst_4 : FVec F S_ .f32 := constant S_ .f32 0x7F800000#32
  let main_v15 : FVec F S74x256 .f32 := broadcastInDim S74x256 ![] bcast_S_S74x256 main_cst_4
  let main_v16 : IVec S74x256 1 := cmpf .olt main_v14 main_v15
  fn_part1 (F := F) main_arg5 main_arg6 main_arg7 main_arg8 main_arg9 main_arg10 main_arg11 main_arg12 main_arg13 main_v13 main_v16
-- ==== Kernel.lean ====
abbrev S128x37x2048 : Shape := ⟨3, ![128, 37, 2048]⟩
abbrev S128x8 : Shape := ⟨2, ![128, 8]⟩
abbrev S128x2048 : Shape := ⟨2, ![128, 2048]⟩
abbrev S74x256 : Shape := ⟨2, ![74, 256]⟩
abbrev S256 : Shape := ⟨1, ![256]⟩
abbrev S1x256 : Shape := ⟨2, ![1, 256]⟩
abbrev S8x8 : Shape := ⟨2, ![8, 8]⟩
abbrev S8 : Shape := ⟨1, ![8]⟩
abbrev S264x264 : Shape := ⟨2, ![264, 264]⟩
abbrev S264 : Shape := ⟨1, ![264]⟩
abbrev S264x2 : Shape := ⟨2, ![264, 2]⟩
abbrev S2 : Shape := ⟨1, ![2]⟩
abbrev S128x2 : Shape := ⟨2, ![128, 2]⟩
abbrev S32x37x1024 : Shape := ⟨3, ![32, 37, 1024]⟩
abbrev S32x1024 : Shape := ⟨2, ![32, 1024]⟩
abbrev S32x8 : Shape := ⟨2, ![32, 8]⟩
abbrev S32x2 : Shape := ⟨2, ![32, 2]⟩
abbrev S32x37 : Shape := ⟨2, ![32, 37]⟩
abbrev S32x1 : Shape := ⟨2, ![32, 1]⟩
abbrev S32x1x1024 : Shape := ⟨3, ![32, 1, 1024]⟩
abbrev S32 : Shape := ⟨1, ![32]⟩
abbrev S32x74 : Shape := ⟨2, ![32, 74]⟩
abbrev S32x256 : Shape := ⟨2, ![32, 256]⟩
abbrev S1x8 : Shape := ⟨2, ![1, 8]⟩
abbrev S32x264 : Shape := ⟨2, ![32, 264]⟩
abbrev S1x264 : Shape := ⟨2, ![1, 264]⟩
abbrev S1x2 : Shape := ⟨2, ![1, 2]⟩

abbrev nBuf : Space → Nat
  | .hbm => 15
  | .vmem => 24
  | .smem => 0
  | _ => 0

abbrev bufTy : (tb : Table) → Fin (tcTables nBuf tb) → BufTy
  | .hbm, ⟨0, _⟩ => ⟨S128x37x2048, .f32⟩
  | .hbm, ⟨1, _⟩ => ⟨S128x8, .f32⟩
  | .hbm, ⟨2, _⟩ => ⟨S128x2048, .f32⟩
  | .hbm, ⟨3, _⟩ => ⟨S128x37x2048, .i32⟩
  | .hbm, ⟨4, _⟩ => ⟨S74x256, .f32⟩
  | .hbm, ⟨5, _⟩ => ⟨S256, .f32⟩
  | .hbm, ⟨6, _⟩ => ⟨S1x256, .f32⟩
  | .hbm, ⟨7, _⟩ => ⟨S256, .f32⟩
  | .hbm, ⟨8, _⟩ => ⟨S8x8, .f32⟩
  | .hbm, ⟨9, _⟩ => ⟨S8, .f32⟩
  | .hbm, ⟨10, _⟩ => ⟨S264x264, .f32⟩
  | .hbm, ⟨11, _⟩ => ⟨S264, .f32⟩
  | .hbm, ⟨12, _⟩ => ⟨S264x2, .f32⟩
  | .hbm, ⟨13, _⟩ => ⟨S2, .f32⟩
  | .hbm, ⟨14, _⟩ => ⟨S128x2, .f32⟩
  | .local _ .vmem, ⟨0, _⟩ => ⟨S32x37x1024, .f32⟩
  | .local _ .vmem, ⟨1, _⟩ => ⟨S32x37x1024, .f32⟩
  | .local _ .vmem, ⟨2, _⟩ => ⟨S32x37x1024, .i32⟩
  | .local _ .vmem, ⟨3, _⟩ => ⟨S32x37x1024, .i32⟩
  | .local _ .vmem, ⟨4, _⟩ => ⟨S32x1024, .f32⟩
  | .local _ .vmem, ⟨5, _⟩ => ⟨S32x1024, .f32⟩
  | .local _ .vmem, ⟨6, _⟩ => ⟨S32x8, .f32⟩
  | .local _ .vmem, ⟨7, _⟩ => ⟨S32x8, .f32⟩
  | .local _ .vmem, ⟨8, _⟩ => ⟨S74x256, .f32⟩
  | .local _ .vmem, ⟨9, _⟩ => ⟨S256, .f32⟩
  | .local _ .vmem, ⟨10, _⟩ => ⟨S1x256, .f32⟩
  | .local _ .vmem, ⟨11, _⟩ => ⟨S256, .f32⟩
  | .local _ .vmem, ⟨12, _⟩ => ⟨S8x8, .f32⟩
  | .local _ .vmem, ⟨13, _⟩ => ⟨S8, .f32⟩
  | .local _ .vmem, ⟨14, _⟩ => ⟨S264x264, .f32⟩
  | .local _ .vmem, ⟨15, _⟩ => ⟨S264, .f32⟩
  | .local _ .vmem, ⟨16, _⟩ => ⟨S264x2, .f32⟩
  | .local _ .vmem, ⟨17, _⟩ => ⟨S2, .f32⟩
  | .local _ .vmem, ⟨18, _⟩ => ⟨S32x2, .f32⟩
  | .local _ .vmem, ⟨19, _⟩ => ⟨S32x2, .f32⟩
  | .local _ .vmem, ⟨20, _⟩ => ⟨S32x37, .f32⟩
  | .local _ .vmem, ⟨21, _⟩ => ⟨S32x37, .f32⟩
  | .local _ .vmem, ⟨22, _⟩ => ⟨S32x1, .f32⟩
  | .local _ .vmem, ⟨23, _⟩ => ⟨S32x1, .f32⟩
  | _, _ => ⟨S128x37x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v51 : BitVec 1 := Scalar.cmpi .eq arg1 c1_i32
  let v52 : BitVec 32 := Scalar.extui v51
  let c0_i32_31 : BitVec 32 := 0#32
  let v53 : BitVec 1 := Scalar.cmpi .ne v52 c0_i32_31
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x37x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x37x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S74x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S264x264 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S264 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S264x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S32x2 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

class Facts₀ : Prop where
  inb_S32x37_S32x37_0_0 : ∀ a, (![0, 0] : Fin 2 → Nat) a + S32x37.size a ≤ S32x37.size a
  h_S32x37 : 0 < S32x37.numel
  shapeCasts_S32x37_S32x37 : S32x37.ShapeCasts S32x37
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x37x1024_S32x37x1024_0_0_0 : ∀ a, (![0, 0, 0] : Fin 3 → Nat) a + S32x37x1024.size a ≤ S32x37x1024.size a
  h_S32x37x1024 : 0 < S32x37x1024.numel
  inb_S32x1024_S32x1024_0_0 : ∀ a, (![0, 0] : Fin 2 → Nat) a + S32x1024.size a ≤ S32x1024.size a
  h_S32x1024 : 0 < S32x1024.numel
  natLt_1_32 : 1 < 32
  reduces_S32x37x1024_S32x1024 : S32x37x1024.Reduces [1] S32x1024
  shapeCasts_S32x1024_S32x1x1024 : S32x1024.ShapeCasts S32x1x1024
  broadcasts_S32x1x1024_S32x37x1024 : S32x1x1024.Broadcasts S32x37x1024
  reduces_S32x37x1024_S32x37 : S32x37x1024.Reduces [2] S32x37
  reduces_S32x1024_S32 : S32x1024.Reduces [1] S32
  shapeCasts_S32_S32x1 : S32.ShapeCasts S32x1
  concatenates_S32x37_S32x37_S32x74_d1 : Shape.Concatenates [S32x37, S32x37] S32x74 1
  inb_S74x256_S74x256_0_0 : ∀ a, (![0, 0] : Fin 2 → Nat) a + S74x256.size a ≤ S74x256.size a
  h_S74x256 : 0 < S74x256.numel
  inb_S1x256_S1x256_0_0 : ∀ a, (![0, 0] : Fin 2 → Nat) a + S1x256.size a ≤ S1x256.size a
  h_S1x256 : 0 < S1x256.numel
  shapeCasts_S1x256_S256 : S1x256.ShapeCasts S256
  broadcasts_S32x1_S32x256 : S32x1.Broadcasts S32x256
  inb_S256_S256_0 : ∀ a, (![0] : Fin 1 → Nat) a + S256.size a ≤ S256.size a
  h_S256 : 0 < S256.numel
  shapeCasts_S256_S1x256 : S256.ShapeCasts S1x256
  broadcasts_S1x256_S32x256 : S1x256.Broadcasts S32x256
  inb_S32x8_S32x8_0_0 : ∀ a, (![0, 0] : Fin 2 → Nat) a + S32x8.size a ≤ S32x8.size a
  h_S32x8 : 0 < S32x8.numel
  inb_S8x8_S8x8_0_0 : ∀ a, (![0, 0] : Fin 2 → Nat) a + S8x8.size a ≤ S8x8.size a
  h_S8x8 : 0 < S8x8.numel
  inb_S8_S8_0 : ∀ a, (![0] : Fin 1 → Nat) a + S8.size a ≤ S8.size a
  h_S8 : 0 < S8.numel
  shapeCasts_S8_S1x8 : S8.ShapeCasts S1x8
  broadcasts_S1x8_S32x8 : S1x8.Broadcasts S32x8
  concatenates_S32x256_S32x8_S32x264_d1 : Shape.Concatenates [S32x256, S32x8] S32x264 1
  inb_S264x264_S264x264_0_0 : ∀ a, (![0, 0] : Fin 2 → Nat) a + S264x264.size a ≤ S264x264.size a
  h_S264x264 : 0 < S264x264.numel
  inb_S264_S264_0 : ∀ a, (![0] : Fin 1 → Nat) a + S264.size a ≤ S264.size a
  h_S264 : 0 < S264.numel
  shapeCasts_S264_S1x264 : S264.ShapeCasts S1x264
  broadcasts_S1x264_S32x264 : S1x264.Broadcasts S32x264
  inb_S264x2_S264x2_0_0 : ∀ a, (![0, 0] : Fin 2 → Nat) a + S264x2.size a ≤ S264x2.size a
  h_S264x2 : 0 < S264x2.numel
  inb_S2_S2_0 : ∀ a, (![0] : Fin 1 → Nat) a + S2.size a ≤ S2.size a
  h_S2 : 0 < S2.numel
  shapeCasts_S2_S1x2 : S2.ShapeCasts S1x2
  broadcasts_S1x2_S32x2 : S1x2.Broadcasts S32x2
  inb_S32x2_S32x2_0_0 : ∀ a, (![0, 0] : Fin 2 → Nat) a + S32x2.size a ≤ S32x2.size a
  h_S32x2 : 0 < S32x2.numel
  dot_S32x74_S74x256_S32x256_1_0_0_1_n_n_wf : DotDims.WF S32x74 S74x256 S32x256 [1] [0] [0] [1] [] []
  dot_S32x8_S8x8_S32x8_1_0_0_1_n_n_wf : DotDims.WF S32x8 S8x8 S32x8 [1] [0] [0] [1] [] []
  dot_S32x264_S264x264_S32x264_1_0_0_1_n_n_wf : DotDims.WF S32x264 S264x264 S32x264 [1] [0] [0] [1] [] []
  dot_S32x264_S264x2_S32x2_1_0_0_1_n_n_wf : DotDims.WF S32x264 S264x2 S32x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x37x1024.size a ≤ S128x37x2048.size a
  hwx0_0 : ∀ i : grid0.Coords, EltTy.bits .f32 = 32 ∨ (Rect.block (s := S128x37x2048) S32x37x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x37x1024.size a ≤ S128x37x2048.size a
  hwx0_1 : ∀ i : grid0.Coords, EltTy.bits .i32 = 32 ∨ (Rect.block (s := S128x37x2048) S32x37x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S128x2048.size a
  hwx0_2 : ∀ i : grid0.Coords, EltTy.bits .f32 = 32 ∨ (Rect.block (s := S128x2048) S32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x8.size a ≤ S128x8.size a
  hwx0_3 : ∀ i : grid0.Coords, EltTy.bits .f32 = 32 ∨ (Rect.block (s := S128x8) S32x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S74x256.size a ≤ S74x256.size a
  hwx0_4 : ∀ i : grid0.Coords, EltTy.bits .f32 = 32 ∨ (Rect.block (s := S74x256) S74x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x8.size a ≤ S8x8.size a
  hwx0_8 : ∀ i : grid0.Coords, EltTy.bits .f32 = 32 ∨ (Rect.block (s := S8x8) S8x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8.size a ≤ S8.size a
  hwx0_9 : ∀ i : grid0.Coords, EltTy.bits .f32 = 32 ∨ (Rect.block (s := S8) S8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S264x264.size a ≤ S264x264.size a
  hwx0_10 : ∀ i : grid0.Coords, EltTy.bits .f32 = 32 ∨ (Rect.block (s := S264x264) S264x264.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S264.size a ≤ S264.size a
  hwx0_11 : ∀ i : grid0.Coords, EltTy.bits .f32 = 32 ∨ (Rect.block (s := S264) S264.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S264x2.size a ≤ S264x2.size a
  hwx0_12 : ∀ i : grid0.Coords, EltTy.bits .f32 = 32 ∨ (Rect.block (s := S264x2) S264x2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2.size a ≤ S2.size a
  hwx0_13 : ∀ i : grid0.Coords, EltTy.bits .f32 = 32 ∨ (Rect.block (s := S2) S2.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S32x2.size a ≤ S128x2.size a
  hwx0_14 : ∀ i : grid0.Coords, EltTy.bits .f32 = 32 ∨ (Rect.block (s := S128x2) S32x2.size (cc0_transform_14 i) (hinb0_14 i)).WholeWords (EltTy.packing .f32)

variable [Facts₀]

def dot_S32x74_S74x256_S32x256_1_0_0_1_n_n : DotDims S32x74 S74x256 S32x256 where
  lhsContracting := [1]
  rhsContracting := [0]
  lhsNonContracting := [0]
  rhsNonContracting := [1]
  lhsBatch := []
  rhsBatch := []
  wf := dot_S32x74_S74x256_S32x256_1_0_0_1_n_n_wf
def dot_S32x8_S8x8_S32x8_1_0_0_1_n_n : DotDims S32x8 S8x8 S32x8 where
  lhsContracting := [1]
  rhsContracting := [0]
  lhsNonContracting := [0]
  rhsNonContracting := [1]
  lhsBatch := []
  rhsBatch := []
  wf := dot_S32x8_S8x8_S32x8_1_0_0_1_n_n_wf
def dot_S32x264_S264x264_S32x264_1_0_0_1_n_n : DotDims S32x264 S264x264 S32x264 where
  lhsContracting := [1]
  rhsContracting := [0]
  lhsNonContracting := [0]
  rhsNonContracting := [1]
  lhsBatch := []
  rhsBatch := []
  wf := dot_S32x264_S264x264_S32x264_1_0_0_1_n_n_wf
def dot_S32x264_S264x2_S32x2_1_0_0_1_n_n : DotDims S32x264 S264x2 S32x2 where
  lhsContracting := [1]
  rhsContracting := [0]
  lhsNonContracting := [0]
  rhsNonContracting := [1]
  lhsBatch := []
  rhsBatch := []
  wf := dot_S32x264_S264x2_S32x2_1_0_0_1_n_n_wf

abbrev win0_0 : Pipeline.Window sig grid0 :=
  Pipeline.Window.ofSpec (Memref.whole main_arg0) S32x37x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x37x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S32x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S74x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S264x264.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S264.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S264x2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0) S32x2.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | ⟨_ + 15, h⟩ => absurd h (Nat.not_lt.2 (Nat.le_add_left _ _))

class Facts : Prop extends Facts₀ where

variable [Facts]
-- ==== ReferenceIdeal.lean ====
abbrev S128x37x2048 : Shape := ⟨3, ![128, 37, 2048]⟩
abbrev S128x8 : Shape := ⟨2, ![128, 8]⟩
abbrev S128x2048 : Shape := ⟨2, ![128, 2048]⟩
abbrev S74x256 : Shape := ⟨2, ![74, 256]⟩
abbrev S256 : Shape := ⟨1, ![256]⟩
abbrev S1x256 : Shape := ⟨2, ![1, 256]⟩
abbrev S8x8 : Shape := ⟨2, ![8, 8]⟩
abbrev S8 : Shape := ⟨1, ![8]⟩
abbrev S264x264 : Shape := ⟨2, ![264, 264]⟩
abbrev S264 : Shape := ⟨1, ![264]⟩
abbrev S264x2 : Shape := ⟨2, ![264, 2]⟩
abbrev S2 : Shape := ⟨1, ![2]⟩
abbrev S128x2048x37 : Shape := ⟨3, ![128, 2048, 37]⟩
abbrev S128x2048x74 : Shape := ⟨3, ![128, 2048, 74]⟩
abbrev S_ : Shape := ⟨0, ![]⟩
abbrev S128x2048x256 : Shape := ⟨3, ![128, 2048, 256]⟩
abbrev S1x1x256 : Shape := ⟨3, ![1, 1, 256]⟩
abbrev S128x2048x1 : Shape := ⟨3, ![128, 2048, 1]⟩
abbrev S128 : Shape := ⟨1, ![128]⟩
abbrev S128x1 : Shape := ⟨2, ![128, 1]⟩
abbrev S128x256 : Shape := ⟨2, ![128, 256]⟩
abbrev S1x8 : Shape := ⟨2, ![1, 8]⟩
abbrev S128x264 : Shape := ⟨2, ![128, 264]⟩
abbrev S1x264 : Shape := ⟨2, ![1, 264]⟩
abbrev S128x2 : Shape := ⟨2, ![128, 2]⟩
abbrev S1x2 : Shape := ⟨2, ![1, 2]⟩

abbrev nBuf : Space → Nat
  | .hbm => 72
  | .vmem => 0
  | .smem => 0
  | _ => 0

abbrev bufTy : (tb : Table) → Fin (tcTables nBuf tb) → BufTy
  | .hbm, ⟨0, _⟩ => ⟨S128x37x2048, .f32⟩
  | .hbm, ⟨1, _⟩ => ⟨S128x8, .f32⟩
  | .hbm, ⟨2, _⟩ => ⟨S128x2048, .f32⟩
  | .hbm, ⟨3, _⟩ => ⟨S128x37x2048, .i32⟩
  | .hbm, ⟨4, _⟩ => ⟨S74x256, .f32⟩
  | .hbm, ⟨5, _⟩ => ⟨S256, .f32⟩
  | .hbm, ⟨6, _⟩ => ⟨S1x256, .f32⟩
  | .hbm, ⟨7, _⟩ => ⟨S256, .f32⟩
  | .hbm, ⟨8, _⟩ => ⟨S8x8, .f32⟩
  | .hbm, ⟨9, _⟩ => ⟨S8, .f32⟩
  | .hbm, ⟨10, _⟩ => ⟨S264x264, .f32⟩
  | .hbm, ⟨11, _⟩ => ⟨S264, .f32⟩
  | .hbm, ⟨12, _⟩ => ⟨S264x2, .f32⟩
  | .hbm, ⟨13, _⟩ => ⟨S2, .f32⟩
  | .hbm, ⟨14, _⟩ => ⟨S128x2048x37, .f32⟩
  | .hbm, ⟨15, _⟩ => ⟨S128x2048x37, .i32⟩
  | .hbm, ⟨16, _⟩ => ⟨S128x2048x37, .f32⟩
  | .hbm, ⟨17, _⟩ => ⟨S128x2048x74, .f32⟩
  | .hbm, ⟨18, _⟩ => ⟨S_, .f32⟩
  | .hbm, ⟨19, _⟩ => ⟨S128x2048x74, .f32⟩
  | .hbm, ⟨20, _⟩ => ⟨S128x2048x74, .i1⟩
  | .hbm, ⟨21, _⟩ => ⟨S128x2048x74, .i32⟩
  | .hbm, ⟨22, _⟩ => ⟨S_, .i32⟩
  | .hbm, ⟨23, _⟩ => ⟨S128x2048, .i32⟩
  | .hbm, ⟨24, _⟩ => ⟨S_, .i32⟩
  | .hbm, ⟨25, _⟩ => ⟨S128x2048, .i32⟩
  | .hbm, ⟨26, _⟩ => ⟨S128x2048, .i1⟩
  | .hbm, ⟨27, _⟩ => ⟨S128x2048, .f32⟩
  | .hbm, ⟨28, _⟩ => ⟨S128x2048x256, .f32⟩
  | .hbm, ⟨29, _⟩ => ⟨S1x1x256, .f32⟩
  | .hbm, ⟨30, _⟩ => ⟨S128x2048x256, .f32⟩
  | .hbm, ⟨31, _⟩ => ⟨S128x2048x256, .f32⟩
  | .hbm, ⟨32, _⟩ => ⟨S128x2048x1, .f32⟩
  | .hbm, ⟨33, _⟩ => ⟨S256, .f32⟩
  | .hbm, ⟨34, _⟩ => ⟨S1x1x256, .f32⟩
  | .hbm, ⟨35, _⟩ => ⟨S128x2048x256, .f32⟩
  | .hbm, ⟨36, _⟩ => ⟨S128x2048x256, .f32⟩
  | .hbm, ⟨37, _⟩ => ⟨S128x2048x256, .f32⟩
  | .hbm, ⟨38, _⟩ => ⟨S128x2048x256, .f32⟩
  | .hbm, ⟨39, _⟩ => ⟨S1x1x256, .f32⟩
  | .hbm, ⟨40, _⟩ => ⟨S128x2048x256, .f32⟩
  | .hbm, ⟨41, _⟩ => ⟨S128x2048x256, .f32⟩
  | .hbm, ⟨42, _⟩ => ⟨S_, .f32⟩
  | .hbm, ⟨43, _⟩ => ⟨S128, .f32⟩
  | .hbm, ⟨44, _⟩ => ⟨S_, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128x1, .f32⟩
  | .hbm, ⟨49, _⟩ => ⟨S128x2048x1, .f32⟩
  | .hbm, ⟨50, _⟩ => ⟨S128x2048x256, .f32⟩
  | .hbm, ⟨51, _⟩ => ⟨S128x2048x256, .f32⟩
  | .hbm, ⟨52, _⟩ => ⟨S_, .f32⟩
  | .hbm, ⟨53, _⟩ => ⟨S128x256, .f32⟩
  | .hbm, ⟨54, _⟩ => ⟨S128x256, .f32⟩
  | .hbm, ⟨55, _⟩ => ⟨S128x256, .f32⟩
  | .hbm, ⟨56, _⟩ => ⟨S128x8, .f32⟩
  | .hbm, ⟨57, _⟩ => ⟨S1x8, .f32⟩
  | .hbm, ⟨58, _⟩ => ⟨S128x8, .f32⟩
  | .hbm, ⟨59, _⟩ => ⟨S128x8, .f32⟩
  | .hbm, ⟨60, _⟩ => ⟨S128x264, .f32⟩
  | .hbm, ⟨61, _⟩ => ⟨S128x264, .f32⟩
  | .hbm, ⟨62, _⟩ => ⟨S1x264, .f32⟩
  | .hbm, ⟨63, _⟩ => ⟨S128x264, .f32⟩
  | .hbm, ⟨64, _⟩ => ⟨S128x264, .f32⟩
  | .hbm, ⟨65, _⟩ => ⟨S_, .f32⟩
  | .hbm, ⟨66, _⟩ => ⟨S128x264, .f32⟩
  | .hbm, ⟨67, _⟩ => ⟨S128x264, .f32⟩
  | .hbm, ⟨68, _⟩ => ⟨S128x2, .f32⟩
  | .hbm, ⟨69, _⟩ => ⟨S1x2, .f32⟩
  | .hbm, ⟨70, _⟩ => ⟨S128x2, .f32⟩
  | .hbm, ⟨71, _⟩ => ⟨S128x2, .f32⟩
  | _, _ => ⟨S128x37x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_cst : Ref sig .tc := ⟨.hbm, 65, rfl⟩
abbrev main_call1_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]

class Facts₀ : Prop where
  transposes_S128x37x2048_S128x2048x37_0_2_1 : S128x37x2048.Transposes [0, 2, 1] S128x2048x37
  concatenates_S128x2048x37_S128x2048x37_S128x2048x74_d2 : Shape.Concatenates [S128x2048x37, S128x2048x37] S128x2048x74 2
  bcast_S_S128x2048x74 : S_.BroadcastsInDim S128x2048x74 (![] : Fin 0 → Fin S128x2048x74.rank)
  natLt_1_32 : 1 < 32
  reducesTo_S128x2048x74_S128x2048_d2 : S128x2048x74.ReducesTo [2] S128x2048
  h_S_ : 0 < S_.numel
  bcast_S_S128x2048 : S_.BroadcastsInDim S128x2048 (![] : Fin 0 → Fin S128x2048.rank)
  bcast_S256_S1x1x256_2 : S256.BroadcastsInDim S1x1x256 (![2] : Fin 1 → Fin S1x1x256.rank)
  bcast_S1x1x256_S128x2048x256_0_1_2 : S1x1x256.BroadcastsInDim S128x2048x256 (![0, 1, 2] : Fin 3 → Fin S128x2048x256.rank)
  bcast_S128x2048_S128x2048x1_0_1 : S128x2048.BroadcastsInDim S128x2048x1 (![0, 1] : Fin 2 → Fin S128x2048x1.rank)
  shapeCasts_S1x256_S256 : S1x256.ShapeCasts S256
  bcast_S128x2048x1_S128x2048x256_0_1_2 : S128x2048x1.BroadcastsInDim S128x2048x256 (![0, 1, 2] : Fin 3 → Fin S128x2048x256.rank)
  reducesTo_S128x2048_S128_d1 : S128x2048.ReducesTo [1] S128
  bcast_S_S128 : S_.BroadcastsInDim S128 (![] : Fin 0 → Fin S128.rank)
  bcast_S128_S128x1_0 : S128.BroadcastsInDim S128x1 (![0] : Fin 1 → Fin S128x1.rank)
  reducesTo_S128x2048x256_S128x256_d1 : S128x2048x256.ReducesTo [1] S128x256
  bcast_S128x1_S128x256_0_1 : S128x1.BroadcastsInDim S128x256 (![0, 1] : Fin 2 → Fin S128x256.rank)
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  concatenates_S128x256_S128x8_S128x264_d1 : Shape.Concatenates [S128x256, S128x8] S128x264 1
  bcast_S264_S1x264_1 : S264.BroadcastsInDim S1x264 (![1] : Fin 1 → Fin S1x264.rank)
  bcast_S1x264_S128x264_0_1 : S1x264.BroadcastsInDim S128x264 (![0, 1] : Fin 2 → Fin S128x264.rank)
  bcast_S_S128x264 : S_.BroadcastsInDim S128x264 (![] : Fin 0 → Fin S128x264.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  dot_S128x2048x74_S74x256_S128x2048x256_2_0_01_1_n_n_wf : DotDims.WF S128x2048x74 S74x256 S128x2048x256 [2] [0] [0, 1] [1] [] []
  dot_S128x8_S8x8_S128x8_1_0_0_1_n_n_wf : DotDims.WF S128x8 S8x8 S128x8 [1] [0] [0] [1] [] []
  dot_S128x264_S264x264_S128x264_1_0_0_1_n_n_wf : DotDims.WF S128x264 S264x264 S128x264 [1] [0] [0] [1] [] []
  dot_S128x264_S264x2_S128x2_1_0_0_1_n_n_wf : DotDims.WF S128x264 S264x2 S128x2 [1] [0] [0] [1] [] []

variable [Facts₀]

def dot_S128x2048x74_S74x256_S128x2048x256_2_0_01_1_n_n : DotDims S128x2048x74 S74x256 S128x2048x256 where
  lhsContracting := [2]
  rhsContracting := [0]
  lhsNonContracting := [0, 1]
  rhsNonContracting := [1]
  lhsBatch := []
  rhsBatch := []
  wf := dot_S128x2048x74_S74x256_S128x2048x256_2_0_01_1_n_n_wf
def dot_S128x8_S8x8_S128x8_1_0_0_1_n_n : DotDims S128x8 S8x8 S128x8 where
  lhsContracting := [1]
  rhsContracting := [0]
  lhsNonContracting := [0]
  rhsNonContracting := [1]
  lhsBatch := []
  rhsBatch := []
  wf := dot_S128x8_S8x8_S128x8_1_0_0_1_n_n_wf
def dot_S128x264_S264x264_S128x264_1_0_0_1_n_n : DotDims S128x264 S264x264 S128x264 where
  lhsContracting := [1]
  rhsContracting := [0]
  lhsNonContracting := [0]
  rhsNonContracting := [1]
  lhsBatch := []
  rhsBatch := []
  wf := dot_S128x264_S264x264_S128x264_1_0_0_1_n_n_wf
def dot_S128x264_S264x2_S128x2_1_0_0_1_n_n : DotDims S128x264 S264x2 S128x2 where
  lhsContracting := [1]
  rhsContracting := [0]
  lhsNonContracting := [0]
  rhsNonContracting := [1]
  lhsBatch := []
  rhsBatch := []
  wf := dot_S128x264_S264x2_S128x2_1_0_0_1_n_n_wf

class Facts : Prop extends Facts₀ where

variable [Facts]
-- ==== Proof.KernelPieces.lean ====
/-
  What the body leaves behind, as pure terms of what it read.

  At a first time tile each of the four running sums is zeroed and then takes the tile's contribution; at a second
  time tile the output block is the epilogue applied to the sums the tile before left, each advanced by this tile's
  contribution. The terms are the body's own arithmetic (its payload terms), generic in the float family.
-/
import proofs.«402645_j23527830847742_3_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

/-- At a first time tile, scratch 0 is reset and then takes the tile's masked sum: what it holds afterwards. -/
theorem sout0_A_0_eq (c : Dev nD) (i : grid0.Coords) (arg2 : Memref sig .tc .vmem S32x37x1024 .f32) (harg2 : arg2.IsWhole) (arg3 : Memref sig .tc .vmem S32x37x1024 .i32) (harg3 : arg3.IsWhole) (arg4 : Memref sig .tc .vmem S32x1024 .f32) (harg4 : arg4.IsWhole) (arg5 : Memref sig .tc .vmem S32x8 .f32) (harg5 : arg5.IsWhole) (arg6 : Memref sig .tc .vmem S74x256 .f32) (harg6 : arg6.IsWhole) (arg7 : Memref sig .tc .vmem S256 .f32) (harg7 : arg7.IsWhole) (arg8 : Memref sig .tc .vmem S1x256 .f32) (harg8 : arg8.IsWhole) (arg9 : Memref sig .tc .vmem S256 .f32) (harg9 : arg9.IsWhole) (arg10 : Memref sig .tc .vmem S8x8 .f32) (harg10 : arg10.IsWhole) (arg11 : Memref sig .tc .vmem S8 .f32) (harg11 : arg11.IsWhole) (arg12 : Memref sig .tc .vmem S264x264 .f32) (harg12 : arg12.IsWhole) (arg13 : Memref sig .tc .vmem S264 .f32) (harg13 : arg13.IsWhole) (arg14 : Memref sig .tc .vmem S264x2 .f32) (harg14 : arg14.IsWhole) (arg15 : Memref sig .tc .vmem S2 .f32) (harg15 : arg15.IsWhole) (arg16 : Memref sig .tc .vmem S32x2 .f32) (harg16 : arg16.IsWhole) (arg17 : Memref sig .tc .vmem S32x37 .f32) (harg17 : arg17.IsWhole) (arg18 : Memref sig .tc .vmem S32x37 .f32) (harg18 : arg18.IsWhole) (arg19 : Memref sig .tc .vmem S32x1 .f32) (harg19 : arg19.IsWhole) (arg20 : Memref sig .tc .vmem S32x1 .f32) (harg20 : arg20.IsWhole) (hc0 : cond0_0 i) (hc1 : ¬cond0_1 i)
    (x0 : Vec F S32x37x1024 .f32) (x1 : Vec F S32x37x1024 .i32) (x2 : Vec F S32x1024 .f32) (x3 : Vec F S32x8 .f32) (x4 : Vec F S74x256 .f32) (x5 : Vec F S256 .f32) (x6 : Vec F S1x256 .f32) (x7 : Vec F S256 .f32) (x8 : Vec F S8x8 .f32) (x9 : Vec F S8 .f32) (x10 : Vec F S264x264 .f32) (x11 : Vec F S264 .f32) (x12 : Vec F S264x2 .f32) (x13 : Vec F S2 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 = k0_pay13 x0 x1 k0_pay6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  unfold kernelRun0_A
  dsimp only
  sl_unfold_words
  rw [View.canon_cons_unit_zero (S := S32x37) hz2]
  simp only [View.readAt_eq_ld, Memref.IsWhole.read_unread, View.ld_unit_zero (S := S32x37x1024) hz3, View.ld_unit_zero (S := S32x1024) hz2, View.ld_unit_zero (S := S32x8) hz2, View.ld_unit_zero (S := S74x256) hz2, View.ld_unit_zero (S := S256) hz1, View.ld_unit_zero (S := S1x256) hz2, View.ld_unit_zero (S := S8x8) hz2, View.ld_unit_zero (S := S8) hz1, View.ld_unit_zero (S := S264x264) hz2, View.ld_unit_zero (S := S264) hz1, View.ld_unit_zero (S := S264x2) hz2, View.ld_unit_zero (S := S2) hz1, View.ld_unit_zero (S := S32x37) hz2, View.ld_unit_zero (S := S32x1) hz2, View.ld_unit_zero (S := S32x2) hz2, View.readCov_unit_zero (S := S32x37) _ hz2, View.readCov_unit_zero (S := S32x1) _ hz2]

/-- At a first time tile, scratch 1 is reset and then takes the tile's masked sum: what it holds afterwards. -/
theorem sout0_A_1_eq (c : Dev nD) (i : grid0.Coords) (arg2 : Memref sig .tc .vmem S32x37x1024 .f32) (harg2 : arg2.IsWhole) (arg3 : Memref sig .tc .vmem S32x37x1024 .i32) (harg3 : arg3.IsWhole) (arg4 : Memref sig .tc .vmem S32x1024 .f32) (harg4 : arg4.IsWhole) (arg5 : Memref sig .tc .vmem S32x8 .f32) (harg5 : arg5.IsWhole) (arg6 : Memref sig .tc .vmem S74x256 .f32) (harg6 : arg6.IsWhole) (arg7 : Memref sig .tc .vmem S256 .f32) (harg7 : arg7.IsWhole) (arg8 : Memref sig .tc .vmem S1x256 .f32) (harg8 : arg8.IsWhole) (arg9 : Memref sig .tc .vmem S256 .f32) (harg9 : arg9.IsWhole) (arg10 : Memref sig .tc .vmem S8x8 .f32) (harg10 : arg10.IsWhole) (arg11 : Memref sig .tc .vmem S8 .f32) (harg11 : arg11.IsWhole) (arg12 : Memref sig .tc .vmem S264x264 .f32) (harg12 : arg12.IsWhole) (arg13 : Memref sig .tc .vmem S264 .f32) (harg13 : arg13.IsWhole) (arg14 : Memref sig .tc .vmem S264x2 .f32) (harg14 : arg14.IsWhole) (arg15 : Memref sig .tc .vmem S2 .f32) (harg15 : arg15.IsWhole) (arg16 : Memref sig .tc .vmem S32x2 .f32) (harg16 : arg16.IsWhole) (arg17 : Memref sig .tc .vmem S32x37 .f32) (harg17 : arg17.IsWhole) (arg18 : Memref sig .tc .vmem S32x37 .f32) (harg18 : arg18.IsWhole) (arg19 : Memref sig .tc .vmem S32x1 .f32) (harg19 : arg19.IsWhole) (arg20 : Memref sig .tc .vmem S32x1 .f32) (harg20 : arg20.IsWhole) (hc0 : cond0_0 i) (hc1 : ¬cond0_1 i)
    (x0 : Vec F S32x37x1024 .f32) (x1 : Vec F S32x37x1024 .i32) (x2 : Vec F S32x1024 .f32) (x3 : Vec F S32x8 .f32) (x4 : Vec F S74x256 .f32) (x5 : Vec F S256 .f32) (x6 : Vec F S1x256 .f32) (x7 : Vec F S256 .f32) (x8 : Vec F S8x8 .f32) (x9 : Vec F S8 .f32) (x10 : Vec F S264x264 .f32) (x11 : Vec F S264 .f32) (x12 : Vec F S264x2 .f32) (x13 : Vec F S2 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 = k0_pay1 (k0_pay14 x0 x1 k0_pay7) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  unfold kernelRun0_A
  dsimp only
  sl_unfold_words
  rw [View.canon_cons_unit_zero (S := S32x37) hz2]
  simp only [View.readAt_eq_ld, Memref.IsWhole.read_unread, View.ld_unit_zero (S := S32x37x1024) hz3, View.ld_unit_zero (S := S32x1024) hz2, View.ld_unit_zero (S := S32x8) hz2, View.ld_unit_zero (S := S74x256) hz2, View.ld_unit_zero (S := S256) hz1, View.ld_unit_zero (S := S1x256) hz2, View.ld_unit_zero (S := S8x8) hz2, View.ld_unit_zero (S := S8) hz1, View.ld_unit_zero (S := S264x264) hz2, View.ld_unit_zero (S := S264) hz1, View.ld_unit_zero (S := S264x2) hz2, View.ld_unit_zero (S := S2) hz1, View.ld_unit_zero (S := S32x37) hz2, View.ld_unit_zero (S := S32x1) hz2, View.ld_unit_zero (S := S32x2) hz2, View.readCov_unit_zero (S := S32x37) _ hz2, View.readCov_unit_zero (S := S32x1) _ hz2]

/-- At a first time tile, scratch 2 is reset and then takes the tile's masked sum: what it holds afterwards. -/
theorem sout0_A_2_eq (c : Dev nD) (i : grid0.Coords) (arg2 : Memref sig .tc .vmem S32x37x1024 .f32) (harg2 : arg2.IsWhole) (arg3 : Memref sig .tc .vmem S32x37x1024 .i32) (harg3 : arg3.IsWhole) (arg4 : Memref sig .tc .vmem S32x1024 .f32) (harg4 : arg4.IsWhole) (arg5 : Memref sig .tc .vmem S32x8 .f32) (harg5 : arg5.IsWhole) (arg6 : Memref sig .tc .vmem S74x256 .f32) (harg6 : arg6.IsWhole) (arg7 : Memref sig .tc .vmem S256 .f32) (harg7 : arg7.IsWhole) (arg8 : Memref sig .tc .vmem S1x256 .f32) (harg8 : arg8.IsWhole) (arg9 : Memref sig .tc .vmem S256 .f32) (harg9 : arg9.IsWhole) (arg10 : Memref sig .tc .vmem S8x8 .f32) (harg10 : arg10.IsWhole) (arg11 : Memref sig .tc .vmem S8 .f32) (harg11 : arg11.IsWhole) (arg12 : Memref sig .tc .vmem S264x264 .f32) (harg12 : arg12.IsWhole) (arg13 : Memref sig .tc .vmem S264 .f32) (harg13 : arg13.IsWhole) (arg14 : Memref sig .tc .vmem S264x2 .f32) (harg14 : arg14.IsWhole) (arg15 : Memref sig .tc .vmem S2 .f32) (harg15 : arg15.IsWhole) (arg16 : Memref sig .tc .vmem S32x2 .f32) (harg16 : arg16.IsWhole) (arg17 : Memref sig .tc .vmem S32x37 .f32) (harg17 : arg17.IsWhole) (arg18 : Memref sig .tc .vmem S32x37 .f32) (harg18 : arg18.IsWhole) (arg19 : Memref sig .tc .vmem S32x1 .f32) (harg19 : arg19.IsWhole) (arg20 : Memref sig .tc .vmem S32x1 .f32) (harg20 : arg20.IsWhole) (hc0 : cond0_0 i) (hc1 : ¬cond0_1 i)
    (x0 : Vec F S32x37x1024 .f32) (x1 : Vec F S32x37x1024 .i32) (x2 : Vec F S32x1024 .f32) (x3 : Vec F S32x8 .f32) (x4 : Vec F S74x256 .f32) (x5 : Vec F S256 .f32) (x6 : Vec F S1x256 .f32) (x7 : Vec F S256 .f32) (x8 : Vec F S8x8 .f32) (x9 : Vec F S8 .f32) (x10 : Vec F S264x264 .f32) (x11 : Vec F S264 .f32) (x12 : Vec F S264x2 .f32) (x13 : Vec F S2 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 = k0_pay2 x2 (k0_pay11 x0 x1) k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  unfold kernelRun0_A
  dsimp only
  sl_unfold_words
  rw [View.canon_cons_unit_zero (S := S32x1) hz2]
  simp only [View.readAt_eq_ld, Memref.IsWhole.read_unread, View.ld_unit_zero (S := S32x37x1024) hz3, View.ld_unit_zero (S := S32x1024) hz2, View.ld_unit_zero (S := S32x8) hz2, View.ld_unit_zero (S := S74x256) hz2, View.ld_unit_zero (S := S256) hz1, View.ld_unit_zero (S := S1x256) hz2, View.ld_unit_zero (S := S8x8) hz2, View.ld_unit_zero (S := S8) hz1, View.ld_unit_zero (S := S264x264) hz2, View.ld_unit_zero (S := S264) hz1, View.ld_unit_zero (S := S264x2) hz2, View.ld_unit_zero (S := S2) hz1, View.ld_unit_zero (S := S32x37) hz2, View.ld_unit_zero (S := S32x1) hz2, View.ld_unit_zero (S := S32x2) hz2, View.readCov_unit_zero (S := S32x37) _ hz2, View.readCov_unit_zero (S := S32x1) _ hz2]

/-- At a first time tile, scratch 3 is reset and then takes the tile's masked sum: what it holds afterwards. -/
theorem sout0_A_3_eq (c : Dev nD) (i : grid0.Coords) (arg2 : Memref sig .tc .vmem S32x37x1024 .f32) (harg2 : arg2.IsWhole) (arg3 : Memref sig .tc .vmem S32x37x1024 .i32) (harg3 : arg3.IsWhole) (arg4 : Memref sig .tc .vmem S32x1024 .f32) (harg4 : arg4.IsWhole) (arg5 : Memref sig .tc .vmem S32x8 .f32) (harg5 : arg5.IsWhole) (arg6 : Memref sig .tc .vmem S74x256 .f32) (harg6 : arg6.IsWhole) (arg7 : Memref sig .tc .vmem S256 .f32) (harg7 : arg7.IsWhole) (arg8 : Memref sig .tc .vmem S1x256 .f32) (harg8 : arg8.IsWhole) (arg9 : Memref sig .tc .vmem S256 .f32) (harg9 : arg9.IsWhole) (arg10 : Memref sig .tc .vmem S8x8 .f32) (harg10 : arg10.IsWhole) (arg11 : Memref sig .tc .vmem S8 .f32) (harg11 : arg11.IsWhole) (arg12 : Memref sig .tc .vmem S264x264 .f32) (harg12 : arg12.IsWhole) (arg13 : Memref sig .tc .vmem S264 .f32) (harg13 : arg13.IsWhole) (arg14 : Memref sig .tc .vmem S264x2 .f32) (harg14 : arg14.IsWhole) (arg15 : Memref sig .tc .vmem S2 .f32) (harg15 : arg15.IsWhole) (arg16 : Memref sig .tc .vmem S32x2 .f32) (harg16 : arg16.IsWhole) (arg17 : Memref sig .tc .vmem S32x37 .f32) (harg17 : arg17.IsWhole) (arg18 : Memref sig .tc .vmem S32x37 .f32) (harg18 : arg18.IsWhole) (arg19 : Memref sig .tc .vmem S32x1 .f32) (harg19 : arg19.IsWhole) (arg20 : Memref sig .tc .vmem S32x1 .f32) (harg20 : arg20.IsWhole) (hc0 : cond0_0 i) (hc1 : ¬cond0_1 i)
    (x0 : Vec F S32x37x1024 .f32) (x1 : Vec F S32x37x1024 .i32) (x2 : Vec F S32x1024 .f32) (x3 : Vec F S32x8 .f32) (x4 : Vec F S74x256 .f32) (x5 : Vec F S256 .f32) (x6 : Vec F S1x256 .f32) (x7 : Vec F S256 .f32) (x8 : Vec F S8x8 .f32) (x9 : Vec F S8 .f32) (x10 : Vec F S264x264 .f32) (x11 : Vec F S264 .f32) (x12 : Vec F S264x2 .f32) (x13 : Vec F S2 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 = k0_pay3 (k0_pay11 x0 x1) k0_pay9 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  unfold kernelRun0_A
  dsimp only
  sl_unfold_words
  rw [View.canon_cons_unit_zero (S := S32x1) hz2]
  simp only [View.readAt_eq_ld, Memref.IsWhole.read_unread, View.ld_unit_zero (S := S32x37x1024) hz3, View.ld_unit_zero (S := S32x1024) hz2, View.ld_unit_zero (S := S32x8) hz2, View.ld_unit_zero (S := S74x256) hz2, View.ld_unit_zero (S := S256) hz1, View.ld_unit_zero (S := S1x256) hz2, View.ld_unit_zero (S := S8x8) hz2, View.ld_unit_zero (S := S8) hz1, View.ld_unit_zero (S := S264x264) hz2, View.ld_unit_zero (S := S264) hz1, View.ld_unit_zero (S := S264x2) hz2, View.ld_unit_zero (S := S2) hz1, View.ld_unit_zero (S := S32x37) hz2, View.ld_unit_zero (S := S32x1) hz2, View.ld_unit_zero (S := S32x2) hz2, View.readCov_unit_zero (S := S32x37) _ hz2, View.readCov_unit_zero (S := S32x1) _ hz2]

/-- At a second time tile the output block is the epilogue on the advanced sums (`xs·`: what the tile before left). -/
theorem out0_B_14_eq (c : Dev nD) (i : grid0.Coords) (arg2 : Memref sig .tc .vmem S32x37x1024 .f32) (harg2 : arg2.IsWhole) (arg3 : Memref sig .tc .vmem S32x37x1024 .i32) (harg3 : arg3.IsWhole) (arg4 : Memref sig .tc .vmem S32x1024 .f32) (harg4 : arg4.IsWhole) (arg5 : Memref sig .tc .vmem S32x8 .f32) (harg5 : arg5.IsWhole) (arg6 : Memref sig .tc .vmem S74x256 .f32) (harg6 : arg6.IsWhole) (arg7 : Memref sig .tc .vmem S256 .f32) (harg7 : arg7.IsWhole) (arg8 : Memref sig .tc .vmem S1x256 .f32) (harg8 : arg8.IsWhole) (arg9 : Memref sig .tc .vmem S256 .f32) (harg9 : arg9.IsWhole) (arg10 : Memref sig .tc .vmem S8x8 .f32) (harg10 : arg10.IsWhole) (arg11 : Memref sig .tc .vmem S8 .f32) (harg11 : arg11.IsWhole) (arg12 : Memref sig .tc .vmem S264x264 .f32) (harg12 : arg12.IsWhole) (arg13 : Memref sig .tc .vmem S264 .f32) (harg13 : arg13.IsWhole) (arg14 : Memref sig .tc .vmem S264x2 .f32) (harg14 : arg14.IsWhole) (arg15 : Memref sig .tc .vmem S2 .f32) (harg15 : arg15.IsWhole) (arg16 : Memref sig .tc .vmem S32x2 .f32) (harg16 : arg16.IsWhole) (arg17 : Memref sig .tc .vmem S32x37 .f32) (harg17 : arg17.IsWhole) (arg18 : Memref sig .tc .vmem S32x37 .f32) (harg18 : arg18.IsWhole) (arg19 : Memref sig .tc .vmem S32x1 .f32) (harg19 : arg19.IsWhole) (arg20 : Memref sig .tc .vmem S32x1 .f32) (harg20 : arg20.IsWhole) (hc0 : ¬cond0_0 i) (hc1 : cond0_1 i)
    (x0 : Vec F S32x37x1024 .f32) (x1 : Vec F S32x37x1024 .i32) (x2 : Vec F S32x1024 .f32) (x3 : Vec F S32x8 .f32) (x4 : Vec F S74x256 .f32) (x5 : Vec F S256 .f32) (x6 : Vec F S1x256 .f32) (x7 : Vec F S256 .f32) (x8 : Vec F S8x8 .f32) (x9 : Vec F S8 .f32) (x10 : Vec F S264x264 .f32) (x11 : Vec F S264 .f32) (x12 : Vec F S264x2 .f32) (x13 : Vec F S2 .f32) (xs0 : Vec F S32x37 .f32) (xs1 : Vec F S32x37 .f32) (xs2 : Vec F S32x1 .f32) (xs3 : Vec F S32x1 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3 = k0_pay4 (k0_pay5 (k0_pay3 (k0_pay11 x0 x1) xs3) (k0_pay13 x0 x1 xs0) (k0_pay1 (k0_pay14 x0 x1 xs1)) (k0_pay2 x2 (k0_pay11 x0 x1) xs2) x4 x6 x5 x7 x3 x8 x9) x10 x11 x12 x13 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3)]
  unfold kernelRun0_B
  dsimp only
  sl_unfold_words
  rw [View.canon_unit_zero (S := S32x2) hz2]
  simp only [View.readAt_eq_ld, Memref.IsWhole.read_unread, View.ld_unit_zero (S := S32x37x1024) hz3, View.ld_unit_zero (S := S32x1024) hz2, View.ld_unit_zero (S := S32x8) hz2, View.ld_unit_zero (S := S74x256) hz2, View.ld_unit_zero (S := S256) hz1, View.ld_unit_zero (S := S1x256) hz2, View.ld_unit_zero (S := S8x8) hz2, View.ld_unit_zero (S := S8) hz1, View.ld_unit_zero (S := S264x264) hz2, View.ld_unit_zero (S := S264) hz1, View.ld_unit_zero (S := S264x2) hz2, View.ld_unit_zero (S := S2) hz1, View.ld_unit_zero (S := S32x37) hz2, View.ld_unit_zero (S := S32x1) hz2, View.ld_unit_zero (S := S32x2) hz2, View.readCov_unit_zero (S := S32x37) _ hz2, View.readCov_unit_zero (S := S32x1) _ hz2]

end Cert.KernelIdeal.Gen

end
-- ==== Proof.KernelBlock.lean ====
/-
  The output block of one batch tile as ONE pure function of what the body reads at the tile's two time tiles.

  At the first time tile the four running sums start from zero and take the tile's masked sums; at the second they add
  the second tile's masked sums, and the epilogue maps the finished sums through the weights. Written over the body's
  own arithmetic terms: `A` marks the first time tile's blocks, `B` the second's.
-/
import proofs.«402645_j23527830847742_3_alg».proof.Proof.Gen.KernelIdeal.Skeleton

noncomputable section

namespace Cert.KernelIdeal.Blk

open Idealize.ShloMosaic Cert.KernelIdeal Cert.KernelIdeal.Gen

variable {F : FTy → Type} [FloatOps F]

/-- Row `r` of batch tile `bi`, as a row of the whole batch. -/
def row (bi : Fin 4) (r : Fin 32) : Fin 128 := ⟨32 * bi.val + r.val, by have := bi.isLt; have := r.isLt; omega⟩

/-- Step `q` of the first time tile, as a step of the whole axis. -/
def lo (q : Fin 1024) : Fin 2048 := ⟨q.val, by have := q.isLt; omega⟩

/-- Step `q` of the second time tile, as a step of the whole axis. -/
def hi (q : Fin 1024) : Fin 2048 := ⟨1024 + q.val, by have := q.isLt; omega⟩

/-- The sum of the readings over the valid steps of both time tiles, from zero. -/
def sumX (xA : Vec F S32x37x1024 .f32) (mA : Vec F S32x37x1024 .i32) (xB : Vec F S32x37x1024 .f32) (mB : Vec F S32x37x1024 .i32) :
    FVec F S32x37 .f32 := k0_pay13 xB mB (k0_pay13 xA mA k0_pay6)

/-- The sum of the flags over the valid steps of both time tiles, from zero. -/
def sumM (xA : Vec F S32x37x1024 .f32) (mA : Vec F S32x37x1024 .i32) (xB : Vec F S32x37x1024 .f32) (mB : Vec F S32x37x1024 .i32) :
    FVec F S32x37 .f32 := k0_pay1 (k0_pay14 xB mB (k0_pay1 (k0_pay14 xA mA k0_pay7)))

/-- The sum of the times over the valid steps of both time tiles, from zero. -/
def sumT (xA : Vec F S32x37x1024 .f32) (mA : Vec F S32x37x1024 .i32) (tA : Vec F S32x1024 .f32)
    (xB : Vec F S32x37x1024 .f32) (mB : Vec F S32x37x1024 .i32) (tB : Vec F S32x1024 .f32) :
    FVec F S32x1 .f32 := k0_pay2 tB (k0_pay11 xB mB) (k0_pay2 tA (k0_pay11 xA mA) k0_pay8)

/-- The number of valid steps of both time tiles, from zero. -/
def sumN (xA : Vec F S32x37x1024 .f32) (mA : Vec F S32x37x1024 .i32) (xB : Vec F S32x37x1024 .f32) (mB : Vec F S32x37x1024 .i32) :
    FVec F S32x1 .f32 := k0_pay3 (k0_pay11 xB mB) (k0_pay3 (k0_pay11 xA mA) k0_pay9)

/-- The output block: the epilogue on the finished sums. -/
def blockOut (xA : Vec F S32x37x1024 .f32) (mA : Vec F S32x37x1024 .i32) (tA : Vec F S32x1024 .f32)
    (xB : Vec F S32x37x1024 .f32) (mB : Vec F S32x37x1024 .i32) (tB : Vec F S32x1024 .f32)
    (st : Vec F S32x8 .f32) (ws : Vec F S74x256 .f32) (bs : Vec F S256 .f32) (wt : Vec F S1x256 .f32) (bt : Vec F S256 .f32)
    (wst : Vec F S8x8 .f32) (bst : Vec F S8 .f32) (wm : Vec F S264x264 .f32) (bm : Vec F S264 .f32)
    (wc : Vec F S264x2 .f32) (bc : Vec F S2 .f32) : FVec F S32x2 .f32 :=
  k0_pay4 (k0_pay5 (sumN xA mA xB mB) (sumX xA mA xB mB) (sumM xA mA xB mB) (sumT xA mA tA xB mB tB) ws wt bs bt st wst bst)
    wm bm wc bc

end Cert.KernelIdeal.Blk

end
-- ==== Proof.KernelFlushed.lean ====
/-
  What a second time tile writes back: the output block as one pure function of the input blocks of the batch
  tile's two time tiles. The running sums the second tile reads are what the first tile left (it is the point just
  before), and what the first tile left is its reset-and-add terms.
-/
import proofs.«402645_j23527830847742_3_alg».proof.Proof.Gen.KernelIdeal.Value
import proofs.«402645_j23527830847742_3_alg».proof.Proof.KernelPieces
import proofs.«402645_j23527830847742_3_alg».proof.Proof.KernelBlock

noncomputable section

namespace Cert.KernelIdeal.Out

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The point before an odd point. -/
def prev (t : Fin cfg0.N) : Fin cfg0.N := ⟨t.val - 1, Nat.lt_of_le_of_lt (Nat.sub_le _ _) t.isLt⟩

/-- The block a batch tile's second time tile writes back, from the input blocks at its two points. -/
def blockAt (c : Dev nD) (t : Fin cfg0.N) : Vec F S32x2 .f32 :=
  Blk.blockOut (iblk m c 0 (prev t)) (iblk m c 1 (prev t)) (iblk m c 2 (prev t))
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t)

theorem flushed_odd (c : Dev nD) (t : Fin cfg0.N) (h1 : t.val % 2 = 1) :
    (dats m 0 c).flushed 14 t = (cfg0.win 14).cut (grid0.coords t) (blockAt m c t) := by
  have h0 : ¬t.val % 2 = 0 := by omega
  have h0' : (prev t).val % 2 = 0 := by show (t.val - 1) % 2 = 0; omega
  have h1' : ¬(prev t).val % 2 = 1 := by show ¬(t.val - 1) % 2 = 1; omega
  rw [Value.flushed14_B m c t h0 h1]
  refine congrArg _ ?_
  rw [out0_B_14_eq]
  have e := outsAt0_A m c (prev t) h0' h1'
  change outsAt0 m c (t.val - 1) _ = _ at e
  rw [e]
  dsimp only
  rw [sout0_A_0_eq, sout0_A_1_eq, sout0_A_2_eq, sout0_A_3_eq]
  rfl

end Cert.KernelIdeal.Out

end
-- ==== Proof.KernelReads.lean ====
/-
  Which entries of the argument arrays a grid point's input blocks hold.

  Point `t` of the 4 × 2 grid is batch tile `t / 2`, time tile `t % 2`. The readings' and the flags' block holds rows
  32·(t/2) … +31, all sensors, steps 1024·(t%2) … +1023; the times' block the same rows and steps; the static block
  the same rows; every weight and bias window is its whole array at every point.
-/
import proofs.«402645_j23527830847742_3_alg».proof.Proof.Gen.KernelIdeal.Frame
import Idealize.ShloMosaic.Lib.ValueIdx

noncomputable section

namespace Cert.KernelIdeal.Out

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the moving windows, decided over the eight points. -/
theorem idx_moving : ∀ t : Fin cfg0.N,
    win0_0.index t (0 : Fin 3) = t.val / 2 ∧ win0_0.index t (1 : Fin 3) = 0 ∧ win0_0.index t (2 : Fin 3) = t.val % 2
    ∧ win0_1.index t (0 : Fin 3) = t.val / 2 ∧ win0_1.index t (1 : Fin 3) = 0 ∧ win0_1.index t (2 : Fin 3) = t.val % 2
    ∧ win0_2.index t (0 : Fin 2) = t.val / 2 ∧ win0_2.index t (1 : Fin 2) = t.val % 2
    ∧ win0_3.index t (0 : Fin 2) = t.val / 2 ∧ win0_3.index t (1 : Fin 2) = 0
    ∧ win0_14.index t (0 : Fin 2) = t.val / 2 ∧ win0_14.index t (1 : Fin 2) = 0 :=
  (by decide +kernel : ∀ t : Fin grid0.N, _)

/-- The block indices of the weight and bias windows are zero at every point. -/
theorem idx_fixed : ∀ t : Fin cfg0.N,
    win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0
    ∧ win0_10.index t (0 : Fin 2) = 0 ∧ win0_10.index t (1 : Fin 2) = 0 ∧ win0_11.index t (0 : Fin 1) = 0
    ∧ win0_12.index t (0 : Fin 2) = 0 ∧ win0_12.index t (1 : Fin 2) = 0 ∧ win0_13.index t (0 : Fin 1) = 0 :=
  (by decide +kernel : ∀ t : Fin grid0.N, _)

theorem tdiv_lt (t : Fin cfg0.N) : t.val / 2 < 4 := by
  have h : t.val < 8 := lt_of_lt_of_eq t.isLt (show cfg0.N = 8 from N_0); omega

/-- Row `r` of point `t`'s batch tile. -/
def rowAt (t : Fin cfg0.N) (r : Fin 32) : Fin 128 := ⟨32 * (t.val / 2) + r.val, by have := tdiv_lt t; have := r.isLt; omega⟩

/-- Step `q` of point `t`'s time tile. -/
def stepAt (t : Fin cfg0.N) (q : Fin 1024) : Fin 2048 := ⟨1024 * (t.val % 2) + q.val, by have := Nat.mod_lt t.val (by decide : 0 < 2); have := q.isLt; omega⟩

theorem read0 (c : Dev nD) (t : Fin cfg0.N) (r : Fin 32) (s : Fin 37) (q : Fin 1024) :
    iblk m c 0 t (ix3 r s q) = V m c main_arg0 (ix3 (rowAt t r) s (stepAt t q)) := by
  obtain ⟨e0, e1, e2, -⟩ := idx_moving t
  show V m c main_arg0 (((cfg0.win 0).blk t).view.emb (ix3 r s q)) = V m c main_arg0 _
  refine congrArg _ ?_
  funext a; apply Fin.ext
  match a with
  | ⟨0, _⟩ => show win0_0.index t (0 : Fin 3) * 32 + 1 * r.val = 32 * (t.val / 2) + r.val; omega
  | ⟨1, _⟩ => show win0_0.index t (1 : Fin 3) * 37 + 1 * s.val = s.val; omega
  | ⟨2, _⟩ => show win0_0.index t (2 : Fin 3) * 1024 + 1 * q.val = 1024 * (t.val % 2) + q.val; omega

theorem read1 (c : Dev nD) (t : Fin cfg0.N) (r : Fin 32) (s : Fin 37) (q : Fin 1024) :
    iblk m c 1 t (ix3 r s q) = V m c main_arg3 (ix3 (rowAt t r) s (stepAt t q)) := by
  obtain ⟨-, -, -, e0, e1, e2, -⟩ := idx_moving t
  show V m c main_arg3 (((cfg0.win 1).blk t).view.emb (ix3 r s q)) = V m c main_arg3 _
  refine congrArg _ ?_
  funext a; apply Fin.ext
  match a with
  | ⟨0, _⟩ => show win0_1.index t (0 : Fin 3) * 32 + 1 * r.val = 32 * (t.val / 2) + r.val; omega
  | ⟨1, _⟩ => show win0_1.index t (1 : Fin 3) * 37 + 1 * s.val = s.val; omega
  | ⟨2, _⟩ => show win0_1.index t (2 : Fin 3) * 1024 + 1 * q.val = 1024 * (t.val % 2) + q.val; omega

theorem read2 (c : Dev nD) (t : Fin cfg0.N) (r : Fin 32) (q : Fin 1024) :
    iblk m c 2 t (ix2 r q) = V m c main_arg2 (ix2 (rowAt t r) (stepAt t q)) := by
  obtain ⟨-, -, -, -, -, -, e0, e1, -⟩ := idx_moving t
  show V m c main_arg2 (((cfg0.win 2).blk t).view.emb (ix2 r q)) = V m c main_arg2 _
  refine congrArg _ ?_
  funext a; apply Fin.ext
  match a with
  | ⟨0, _⟩ => show win0_2.index t (0 : Fin 2) * 32 + 1 * r.val = 32 * (t.val / 2) + r.val; omega
  | ⟨1, _⟩ => show win0_2.index t (1 : Fin 2) * 1024 + 1 * q.val = 1024 * (t.val % 2) + q.val; omega

theorem read3 (c : Dev nD) (t : Fin cfg0.N) (r : Fin 32) (k : Fin 8) :
    iblk m c 3 t (ix2 r k) = V m c main_arg1 (ix2 (rowAt t r) k) := by
  obtain ⟨-, -, -, -, -, -, -, -, e0, e1, -⟩ := idx_moving t
  show V m c main_arg1 (((cfg0.win 3).blk t).view.emb (ix2 r k)) = V m c main_arg1 _
  refine congrArg _ ?_
  funext a; apply Fin.ext
  match a with
  | ⟨0, _⟩ => show win0_3.index t (0 : Fin 2) * 32 + 1 * r.val = 32 * (t.val / 2) + r.val; omega
  | ⟨1, _⟩ => show win0_3.index t (1 : Fin 2) * 8 + 1 * k.val = k.val; omega

theorem read4 (c : Dev nD) (t : Fin cfg0.N) (y : S74x256.Idx) : iblk m c 4 t y = V m c main_arg4 y := by
  obtain ⟨e0, e1, -, -, -, -, -, -, -, -, -, -, -, -, -⟩ := idx_fixed t
  show V m c main_arg4 (((cfg0.win 4).blk t).view.emb y) = V m c main_arg4 y
  refine congrArg _ ?_
  funext a; apply Fin.ext
  match a with
  | ⟨0, _⟩ => show win0_4.index t (0 : Fin 2) * 74 + 1 * (y 0).val = (y 0).val; omega
  | ⟨1, _⟩ => show win0_4.index t (1 : Fin 2) * 256 + 1 * (y 1).val = (y 1).val; omega

theorem read5 (c : Dev nD) (t : Fin cfg0.N) (y : S256.Idx) : iblk m c 5 t y = V m c main_arg5 y := by
  obtain ⟨-, -, e0, -, -, -, -, -, -, -, -, -, -, -, -⟩ := idx_fixed t
  show V m c main_arg5 (((cfg0.win 5).blk t).view.emb y) = V m c main_arg5 y
  refine congrArg _ ?_
  funext a; apply Fin.ext
  match a with
  | ⟨0, _⟩ => show win0_5.index t (0 : Fin 1) * 256 + 1 * (y 0).val = (y 0).val; omega

theorem read6 (c : Dev nD) (t : Fin cfg0.N) (y : S1x256.Idx) : iblk m c 6 t y = V m c main_arg6 y := by
  obtain ⟨-, -, -, e0, e1, -, -, -, -, -, -, -, -, -, -⟩ := idx_fixed t
  show V m c main_arg6 (((cfg0.win 6).blk t).view.emb y) = V m c main_arg6 y
  refine congrArg _ ?_
  funext a; apply Fin.ext
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem read7 (c : Dev nD) (t : Fin cfg0.N) (y : S256.Idx) : iblk m c 7 t y = V m c main_arg7 y := by
  obtain ⟨-, -, -, -, -, e0, -, -, -, -, -, -, -, -, -⟩ := idx_fixed t
  show V m c main_arg7 (((cfg0.win 7).blk t).view.emb y) = V m c main_arg7 y
  refine congrArg _ ?_
  funext a; apply Fin.ext
  match a with
  | ⟨0, _⟩ => show win0_7.index t (0 : Fin 1) * 256 + 1 * (y 0).val = (y 0).val; omega

theorem read8 (c : Dev nD) (t : Fin cfg0.N) (y : S8x8.Idx) : iblk m c 8 t y = V m c main_arg8 y := by
  obtain ⟨-, -, -, -, -, -, e0, e1, -, -, -, -, -, -, -⟩ := idx_fixed t
  show V m c main_arg8 (((cfg0.win 8).blk t).view.emb y) = V m c main_arg8 y
  refine congrArg _ ?_
  funext a; apply Fin.ext
  match a with
  | ⟨0, _⟩ => show win0_8.index t (0 : Fin 2) * 8 + 1 * (y 0).val = (y 0).val; omega
  | ⟨1, _⟩ => show win0_8.index t (1 : Fin 2) * 8 + 1 * (y 1).val = (y 1).val; omega

theorem read9 (c : Dev nD) (t : Fin cfg0.N) (y : S8.Idx) : iblk m c 9 t y = V m c main_arg9 y := by
  obtain ⟨-, -, -, -, -, -, -, -, e0, -, -, -, -, -, -⟩ := idx_fixed t
  show V m c main_arg9 (((cfg0.win 9).blk t).view.emb y) = V m c main_arg9 y
  refine congrArg _ ?_
  funext a; apply Fin.ext
  match a with
  | ⟨0, _⟩ => show win0_9.index t (0 : Fin 1) * 8 + 1 * (y 0).val = (y 0).val; omega

theorem read10 (c : Dev nD) (t : Fin cfg0.N) (y : S264x264.Idx) : iblk m c 10 t y = V m c main_arg10 y := by
  obtain ⟨-, -, -, -, -, -, -, -, -, e0, e1, -, -, -, -⟩ := idx_fixed t
  show V m c main_arg10 (((cfg0.win 10).blk t).view.emb y) = V m c main_arg10 y
  refine congrArg _ ?_
  funext a; apply Fin.ext
  match a with
  | ⟨0, _⟩ => show win0_10.index t (0 : Fin 2) * 264 + 1 * (y 0).val = (y 0).val; omega
  | ⟨1, _⟩ => show win0_10.index t (1 : Fin 2) * 264 + 1 * (y 1).val = (y 1).val; omega

theorem read11 (c : Dev nD) (t : Fin cfg0.N) (y : S264.Idx) : iblk m c 11 t y = V m c main_arg11 y := by
  obtain ⟨-, -, -, -, -, -, -, -, -, -, -, e0, -, -, -⟩ := idx_fixed t
  show V m c main_arg11 (((cfg0.win 11).blk t).view.emb y) = V m c main_arg11 y
  refine congrArg _ ?_
  funext a; apply Fin.ext
  match a with
  | ⟨0, _⟩ => show win0_11.index t (0 : Fin 1) * 264 + 1 * (y 0).val = (y 0).val; omega

theorem read12 (c : Dev nD) (t : Fin cfg0.N) (y : S264x2.Idx) : iblk m c 12 t y = V m c main_arg12 y := by
  obtain ⟨-, -, -, -, -, -, -, -, -, -, -, -, e0, e1, -⟩ := idx_fixed t
  show V m c main_arg12 (((cfg0.win 12).blk t).view.emb y) = V m c main_arg12 y
  refine congrArg _ ?_
  funext a; apply Fin.ext
  match a with
  | ⟨0, _⟩ => show win0_12.index t (0 : Fin 2) * 264 + 1 * (y 0).val = (y 0).val; omega
  | ⟨1, _⟩ => show win0_12.index t (1 : Fin 2) * 2 + 1 * (y 1).val = (y 1).val; omega

theorem read13 (c : Dev nD) (t : Fin cfg0.N) (y : S2.Idx) : iblk m c 13 t y = V m c main_arg13 y := by
  obtain ⟨-, -, -, -, -, -, -, -, -, -, -, -, -, -, e0⟩ := idx_fixed t
  show V m c main_arg13 (((cfg0.win 13).blk t).view.emb y) = V m c main_arg13 y
  refine congrArg _ ?_
  funext a; apply Fin.ext
  match a with
  | ⟨0, _⟩ => show win0_13.index t (0 : Fin 1) * 2 + 1 * (y 0).val = (y 0).val; omega

end Cert.KernelIdeal.Out

end
-- ==== Proof.LibFinite.lean ====
/-
  General facts on the extended reals and on arrays of extended reals: which
  operations keep a value finite (a real number), and the distributive law of a
  product over a sum inside a finite sum, which holds for finite terms.
-/
import Idealize.ShloMosaic.PureOps.Ideal
import Idealize.ShloMosaic.PureOps.Ideal.Laws
import Idealize.ShloMosaic.Lib.ValueIdx

noncomputable section

namespace Cert.Fin

open Idealize.ShloMosaic
open scoped BigOperators

/-- An extended real is finite when it is (the image of) a real number. -/
def IsFin (x : EReal) : Prop := ∃ r : ℝ, x = (r : EReal)

/-- An array of extended reals is finite when every entry is. -/
def AllFin {ι : Type*} (v : ι → EReal) : Prop := ∀ i, IsFin (v i)

/-- A real number, read as an extended real, is finite. -/
theorem isFin_coe (r : ℝ) : IsFin (r : EReal) := ⟨r, rfl⟩

/-- Zero is finite. -/
theorem isFin_zero : IsFin 0 := ⟨0, rfl⟩

/-- One is finite. -/
theorem isFin_one : IsFin 1 := ⟨1, rfl⟩

/-- A finite value is neither infinity. -/
theorem IsFin.ne_top {x : EReal} (h : IsFin x) : x ≠ ⊤ := by
  obtain ⟨r, rfl⟩ := h; exact EReal.coe_ne_top r

/-- A finite value is neither infinity. -/
theorem IsFin.ne_bot {x : EReal} (h : IsFin x) : x ≠ ⊥ := by
  obtain ⟨r, rfl⟩ := h; exact EReal.coe_ne_bot r

/-- A value that is neither infinity is finite. -/
theorem isFin_of_ne {x : EReal} (ht : x ≠ ⊤) (hb : x ≠ ⊥) : IsFin x := by
  induction x using EReal.rec with
  | bot => exact absurd rfl hb
  | top => exact absurd rfl ht
  | coe r => exact ⟨r, rfl⟩

/-- Finite exactly when neither infinity. -/
theorem isFin_iff {x : EReal} : IsFin x ↔ x ≠ ⊤ ∧ x ≠ ⊥ :=
  ⟨fun h => ⟨h.ne_top, h.ne_bot⟩, fun h => isFin_of_ne h.1 h.2⟩

/-- The sum of two finite values is finite. -/
theorem IsFin.add {a b : EReal} (ha : IsFin a) (hb : IsFin b) : IsFin (a + b) := by
  obtain ⟨r, rfl⟩ := ha; obtain ⟨s, rfl⟩ := hb
  exact ⟨r + s, (EReal.coe_add r s).symm⟩

/-- The product of two finite values is finite. -/
theorem IsFin.mul {a b : EReal} (ha : IsFin a) (hb : IsFin b) : IsFin (a * b) := by
  obtain ⟨r, rfl⟩ := ha; obtain ⟨s, rfl⟩ := hb
  exact ⟨r * s, (EReal.coe_mul r s).symm⟩

/-- The negation of a finite value is finite. -/
theorem IsFin.neg {a : EReal} (ha : IsFin a) : IsFin (-a) := by
  obtain ⟨r, rfl⟩ := ha
  exact ⟨-r, (EReal.coe_neg r).symm⟩

/-- The difference of two finite values is finite. -/
theorem IsFin.sub {a b : EReal} (ha : IsFin a) (hb : IsFin b) : IsFin (a - b) := by
  obtain ⟨r, rfl⟩ := ha; obtain ⟨s, rfl⟩ := hb
  exact ⟨r - s, (EReal.coe_sub r s).symm⟩

/-- The maximum of two finite values is finite. -/
theorem IsFin.max {a b : EReal} (ha : IsFin a) (hb : IsFin b) : IsFin (max a b) := by
  rcases max_choice a b with h | h <;> rw [h] <;> assumption

/-- The minimum of two finite values is finite. -/
theorem IsFin.min {a b : EReal} (ha : IsFin a) (hb : IsFin b) : IsFin (min a b) := by
  rcases min_choice a b with h | h <;> rw [h] <;> assumption

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite array is the coercion of an array of reals. -/
theorem AllFin.exists_real {ι : Type*} {v : ι → EReal} (h : AllFin v) :
    ∃ r : ι → ℝ, ∀ i, v i = (r i : EReal) := by
  choose r hr using h
  exact ⟨r, hr⟩

/-- Inside a finite sum, a product distributes over a sum of two finite terms. -/
theorem sum_mul_add2 {K : ℕ} (x a b : Fin K → EReal) (hx : AllFin x) (ha : AllFin a) (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-- Inside a finite sum, a product distributes over a sum of three finite terms. -/
theorem sum_mul_add3 {K : ℕ} (x a b c : Fin K → EReal) (hx : AllFin x) (ha : AllFin a) (hb : AllFin b)
    (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The same distributive law over any finite index type. -/
theorem sum_mul_add3' {ι : Type*} [Fintype ι] (x a b c : ι → EReal) (hx : AllFin x) (ha : AllFin a)
    (hb : AllFin b) (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The two-term law over any finite index type. -/
theorem sum_mul_add2' {ι : Type*} [Fintype ι] (x a b : ι → EReal) (hx : AllFin x) (ha : AllFin a)
    (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-! ### The float literals -/

/-- The word of `+0.0` denotes zero. -/
theorem ofBits_zero : Ideal.ofBits .f32 0x00000000#32 = 0 := Ideal.ofBits_zero_f32

/-- The word of `1.0` denotes one. -/
theorem ofBits_one : Ideal.ofBits .f32 0x3F800000#32 = 1 := by
  simp [Ideal.ofBits, Ideal.ieee, -EReal.coe_mul]; norm_num

/-- The word of `64.0` denotes the real number sixty-four. -/
theorem ofBits_64 : Ideal.ofBits .f32 0x42800000#32 = ((64 : ℝ) : EReal) := by
  simp [Ideal.ofBits, Ideal.ieee, -EReal.coe_mul]; norm_num

/-- The word nearest `1e-5` denotes the dyadic rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- Zero's word denotes a finite value. -/
theorem isFin_ofBits_zero : IsFin (Ideal.ofBits .f32 0x00000000#32) := ofBits_zero ▸ isFin_zero

/-- One's word denotes a finite value. -/
theorem isFin_ofBits_one : IsFin (Ideal.ofBits .f32 0x3F800000#32) := ofBits_one ▸ isFin_one

/-- Sixty-four's word denotes a finite value. -/
theorem isFin_ofBits_64 : IsFin (Ideal.ofBits .f32 0x42800000#32) := ofBits_64 ▸ isFin_coe _

/-- The small positive constant's word denotes a finite value. -/
theorem isFin_ofBits_eps : IsFin (Ideal.ofBits .f32 0x3727C5AC#32) := ofBits_eps ▸ isFin_coe _

/-- Sixty-four is not zero. -/
theorem ofBits_64_ne_zero : Ideal.ofBits .f32 0x42800000#32 ≠ 0 := by
  rw [ofBits_64]; exact_mod_cast (by norm_num : (64 : ℝ) ≠ 0)

/-- Sixty-four is positive. -/
theorem ofBits_64_pos : 0 < Ideal.ofBits .f32 0x42800000#32 := by
  rw [ofBits_64]; exact_mod_cast (by norm_num : (0 : ℝ) < 64)

/-- One is not zero. -/
theorem ofBits_one_ne_zero : Ideal.ofBits .f32 0x3F800000#32 ≠ 0 := by
  rw [ofBits_one]; exact one_ne_zero

/-- The small constant is positive. -/
theorem ofBits_eps_pos : 0 < Ideal.ofBits .f32 0x3727C5AC#32 := by
  rw [ofBits_eps]; exact_mod_cast (by positivity : (0 : ℝ) < 10995116 / 2 ^ 40)

/-! ### Quotient and reciprocal square root -/

/-- The quotient of a real by a nonzero real, as extended reals, is the real quotient. -/
theorem div_coe_coe (r s : ℝ) (hs : s ≠ 0) : Ideal.div (r : EReal) (s : EReal) = ((r / s : ℝ) : EReal) := by
  rw [Ideal.div, if_neg (by exact_mod_cast hs), ← EReal.coe_inv, ← EReal.coe_mul, div_eq_mul_inv]

/-- The quotient of a finite value by a finite nonzero value is finite. -/
theorem IsFin.div {x y : EReal} (hx : IsFin x) (hy : IsFin y) (hy0 : y ≠ 0) : IsFin (Ideal.div x y) := by
  obtain ⟨r, rfl⟩ := hx; obtain ⟨s, rfl⟩ := hy
  have hs : s ≠ 0 := by exact_mod_cast hy0
  exact ⟨r / s, div_coe_coe r s hs⟩

/-- The reciprocal square root of a positive real is the real `1 / √r`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The reciprocal square root of a finite positive value is finite. -/
theorem IsFin.rsqrt {x : EReal} (hx : IsFin x) (hpos : 0 < x) : IsFin (Ideal.rsqrt x) := by
  obtain ⟨r, rfl⟩ := hx
  have hr : 0 < r := by exact_mod_cast hpos
  exact ⟨_, rsqrt_coe_pos r hr⟩

/-- The reciprocal square root of a finite positive value is positive. -/
theorem rsqrt_pos {x : EReal} (hx : IsFin x) (hpos : 0 < x) : 0 < Ideal.rsqrt x := by
  obtain ⟨r, rfl⟩ := hx
  have hr : 0 < r := by exact_mod_cast hpos
  rw [rsqrt_coe_pos r hr]
  exact_mod_cast inv_pos.mpr (Real.sqrt_pos.mpr hr)

/-- A finite value times itself is not negative. -/
theorem mul_self_nonneg' {x : EReal} (hx : IsFin x) : 0 ≤ x * x := by
  obtain ⟨r, rfl⟩ := hx
  rw [← EReal.coe_mul]; exact_mod_cast mul_self_nonneg r

/-- A finite sum of values that are not negative is not negative. -/
theorem sum_nonneg' {ι : Type*} (s : Finset ι) (f : ι → EReal) (h : ∀ i ∈ s, 0 ≤ f i) : 0 ≤ ∑ i ∈ s, f i :=
  Finset.sum_nonneg h

/-- A sum of squared deviations of finite values from a finite centre is not negative. -/
theorem sum_sq_nonneg {ι : Type*} (s : Finset ι) (h : ι → EReal) (μ : EReal) (hh : ∀ j ∈ s, IsFin (h j))
    (hμ : IsFin μ) : 0 ≤ ∑ j ∈ s, (h j - μ) * (h j - μ) :=
  Finset.sum_nonneg fun j hj => mul_self_nonneg' ((hh j hj).sub hμ)

/-- The quotient of a finite value that is not negative by a finite positive value is not negative. -/
theorem div_nonneg' {x y : EReal} (hx : IsFin x) (hx0 : 0 ≤ x) (hy : IsFin y) (hy0 : 0 < y) :
    0 ≤ Ideal.div x y := by
  obtain ⟨r, rfl⟩ := hx; obtain ⟨s, rfl⟩ := hy
  have hr : 0 ≤ r := by exact_mod_cast hx0
  have hs : 0 < s := by exact_mod_cast hy0
  rw [div_coe_coe r s hs.ne']
  exact_mod_cast div_nonneg hr hs.le

/-- A value that is not negative plus a positive value is positive. -/
theorem add_pos' {a b : EReal} (ha : 0 ≤ a) (hb : 0 < b) : 0 < a + b :=
  lt_of_lt_of_le hb (le_add_of_nonneg_left ha)

/-- The mean of squared deviations over sixty-four, plus the small constant, is positive (and finite). -/
theorem var_add_eps_pos {ι : Type*} (s : Finset ι) (h : ι → EReal) (μ : EReal) (hh : ∀ j ∈ s, IsFin (h j))
    (hμ : IsFin μ) :
    0 < Ideal.div (∑ j ∈ s, (h j - μ) * (h j - μ)) (Ideal.ofBits .f32 0x42800000#32)
        + Ideal.ofBits .f32 0x3727C5AC#32 :=
  add_pos' (div_nonneg' (isFin_sum s _ fun j hj => ((hh j hj).sub hμ).mul ((hh j hj).sub hμ))
    (sum_sq_nonneg s h μ hh hμ) isFin_ofBits_64 ofBits_64_pos) ofBits_eps_pos

/-- … and it is finite. -/
theorem var_add_eps_fin {ι : Type*} (s : Finset ι) (h : ι → EReal) (μ : EReal) (hh : ∀ j ∈ s, IsFin (h j))
    (hμ : IsFin μ) :
    IsFin (Ideal.div (∑ j ∈ s, (h j - μ) * (h j - μ)) (Ideal.ofBits .f32 0x42800000#32)
        + Ideal.ofBits .f32 0x3727C5AC#32) :=
  ((isFin_sum s _ fun j hj => ((hh j hj).sub hμ).mul ((hh j hj).sub hμ)).div isFin_ofBits_64
    ofBits_64_ne_zero).add isFin_ofBits_eps

/-! ### Array operations keep finiteness -/

section Arrays
variable {s t : Shape} {φ : FTy}

/-- The entrywise sum of two finite arrays is finite. -/
theorem allFin_addf {x y : FVec Ideal s φ} (hx : AllFin x) (hy : AllFin y) : AllFin (addf x y) :=
  fun i => (hx i).add (hy i)

/-- The entrywise difference of two finite arrays is finite. -/
theorem allFin_subf {x y : FVec Ideal s φ} (hx : AllFin x) (hy : AllFin y) : AllFin (subf x y) :=
  fun i => (hx i).sub (hy i)

/-- The entrywise product of two finite arrays is finite. -/
theorem allFin_mulf {x y : FVec Ideal s φ} (hx : AllFin x) (hy : AllFin y) : AllFin (mulf x y) :=
  fun i => (hx i).mul (hy i)

/-- The entrywise maximum of two finite arrays is finite. -/
theorem allFin_maximumf {x y : FVec Ideal s φ} (hx : AllFin x) (hy : AllFin y) : AllFin (maximumf x y) :=
  fun i => (hx i).max (hy i)

/-- The entrywise minimum of two finite arrays is finite. -/
theorem allFin_minimumf {x y : FVec Ideal s φ} (hx : AllFin x) (hy : AllFin y) : AllFin (minimumf x y) :=
  fun i => (hx i).min (hy i)

/-- The entrywise negation of a finite array is finite. -/
theorem allFin_negf {x : FVec Ideal s φ} (hx : AllFin x) : AllFin (negf x) :=
  fun i => (hx i).neg

/-- The entrywise quotient of a finite array by a finite, nowhere zero array is finite. -/
theorem allFin_divf {x y : FVec Ideal s φ} (hx : AllFin x) (hy : AllFin y) (hy0 : ∀ i, y i ≠ 0) :
    AllFin (divf x y) :=
  fun i => (hx i).div (hy i) (hy0 i)

/-- The same for the quotient as the reference program writes it. -/
theorem allFin_hostDivf {x y : FVec Ideal s φ} (hx : AllFin x) (hy : AllFin y) (hy0 : ∀ i, y i ≠ 0) :
    AllFin (Host.divf x y) :=
  fun i => (hx i).div (hy i) (hy0 i)

/-- The entrywise reciprocal square root of a finite, everywhere positive array is finite. -/
theorem allFin_rsqrt {x : FVec Ideal s φ} (hx : AllFin x) (hpos : ∀ i, 0 < x i) : AllFin (rsqrt x) :=
  fun i => (hx i).rsqrt (hpos i)

/-- The same for the reciprocal square root as the reference program writes it. -/
theorem allFin_hostRsqrt {x : FVec Ideal s φ} (hx : AllFin x) (hpos : ∀ i, 0 < x i) : AllFin (Host.rsqrt x) :=
  fun i => (hx i).rsqrt (hpos i)

/-- A change of format is the identity on extended reals, so it keeps finiteness. -/
theorem allFin_truncf {x : FVec Ideal s φ} (ψ : FTy) (h : ψ.bits < φ.bits) (hx : AllFin x) :
    AllFin (truncf ψ x h) :=
  fun i => hx i

/-- A change of format is the identity on extended reals, so it keeps finiteness. -/
theorem allFin_extf {x : FVec Ideal s φ} (ψ : FTy) (h : φ.bits < ψ.bits) (hx : AllFin x) :
    AllFin (extf ψ x h) :=
  fun i => hx i

/-- The array that repeats one finite value is finite. -/
theorem allFin_broadcast {x : EReal} (hx : IsFin x) : AllFin (broadcast t x) :=
  fun _ => hx

/-- Every entry of a broadcast array is an entry of its source. -/
theorem allFin_broadcastTo {x : s.Idx → EReal} (h : s.Broadcasts t) (hx : AllFin x) :
    AllFin (broadcastTo t x h) :=
  fun _ => hx _

/-- Every entry of a broadcast array is an entry of its source. -/
theorem allFin_broadcastInDim {x : s.Idx → EReal} (dims : Fin s.rank → Fin t.rank)
    (h : s.BroadcastsInDim t dims) (hx : AllFin x) : AllFin (broadcastInDim t dims h x) :=
  fun _ => hx _

/-- Every entry of a reshaped array is an entry of its source. -/
theorem allFin_shapeCast {x : s.Idx → EReal} (h : s.ShapeCasts t) (hx : AllFin x) :
    AllFin (shapeCast t x h) :=
  fun _ => hx _

/-- Every entry of a slice is an entry of its source. -/
theorem allFin_slice {x : s.Idx → EReal} (off : Fin s.rank → Nat) (h : s.Slices off t) (hx : AllFin x) :
    AllFin (extractStridedSlice t off x h) :=
  fun _ => hx _

/-- Every entry of a transposed array is an entry of its source. -/
theorem allFin_transpose {x : s.Idx → EReal} (perm : List (Fin s.rank)) (h : s.Transposes perm t)
    (hx : AllFin x) : AllFin (transpose t perm x h) :=
  fun _ => hx _

/-- The constant array of a word that denotes a finite value is finite. -/
theorem allFin_constant {b : BitVec φ.bits} (hb : IsFin (Ideal.ofBits φ b)) :
    AllFin (constant (F := Ideal) s φ b) :=
  fun _ => hb

/-- An entrywise choice between two finite arrays is finite. -/
theorem allFin_select {c : IVec s 1} {a b : s.Idx → EReal} (ha : AllFin a) (hb : AllFin b) :
    AllFin (select c a b) := by
  intro i
  show IsFin (Scalar.select (c i) (a i) (b i))
  unfold Scalar.select
  split
  · exact ha i
  · exact hb i

/-- Every entry of a gathered array is an entry of its source, whatever the indices. -/
theorem allFin_gather {si : Shape} {w : Nat} (d : GatherDims s si t) {x : s.Idx → EReal} (idx : IVec si w)
    (hx : AllFin x) : AllFin (Host.gather d x idx) :=
  fun _ => hx _

/-- An accumulating scatter gives, at each place, the operand's entry plus a finite sum of update
    entries: finite when the operand and the updates are. -/
theorem allFin_scatterAdd {si u : Shape} {w : Nat} (d : ScatterDims s si u) {x : FVec Ideal s φ}
    (idx : IVec si w) {upd : FVec Ideal u φ} (hx : AllFin x) (hu : AllFin upd) :
    AllFin (Host.scatterAdd d x idx upd) :=
  fun i => (hx i).add (isFin_sum _ _ fun j _ => hu j)

/-- A matrix product into a finite accumulator, of finite operands, is finite: each entry is the
    accumulator's plus a finite sum of products. -/
theorem allFin_matmul {sl sr so : Shape} {φ₁ φ₂ : FTy} (d : DotDims sl sr so) (prec : Option ContractPrecision)
    {lhs : FVec Ideal sl φ₁} {rhs : FVec Ideal sr φ₂} {acc : FVec Ideal so .f32} (hl : AllFin lhs)
    (hr : AllFin rhs) (ha : AllFin acc) : AllFin (matmul d prec lhs rhs acc) :=
  fun j => (ha j).add (isFin_sum _ _ fun k _ => (hl _).mul (hr _))

/-- The reference's matrix product of finite operands is finite: each entry is a finite sum of products. -/
theorem allFin_dotGeneral {sl sr so : Shape} {φ₁ φ₂ : FTy} (d : DotDims sl sr so)
    (prec : Option ContractPrecision) {lhs : FVec Ideal sl φ₁} {rhs : FVec Ideal sr φ₂} (hl : AllFin lhs)
    (hr : AllFin rhs) : AllFin (Host.dotGeneral d prec lhs rhs) :=
  fun j => isFin_zero.add (isFin_sum _ _ fun k _ => (hl _).mul (hr _))

/-- The reference's sum over axes, from a finite initial value, of a finite array is finite. -/
theorem allFin_reduceAdd {axes : List (Fin s.rank)} {u : Shape} {x : FVec Ideal s φ} {init : u.Idx → Ideal φ}
    (h : s.ReducesTo axes t) (hu : 0 < u.numel) (hx : AllFin x) (hi : AllFin init) :
    AllFin (Host.reduceAdd x init h hu) :=
  fun j => (hi _).add (isFin_sum _ _ fun i _ => hx i)

/-- The kernel's sum over axes of a finite array is finite. -/
theorem allFin_multiReduction_add {axes : List (Fin s.rank)} {x : FVec Ideal s φ} (acc : BitVec φ.bits)
    (h : s.Reduces axes t) (hφ : FKind.Formats φ) (hacc : acc = FKind.add.neutral φ hφ) (hx : AllFin x) :
    AllFin (multiReduction .add axes t x acc h hφ hacc) := by
  intro j
  show IsFin (Ideal.reduceAdd h x j)
  unfold Ideal.reduceAdd
  exact isFin_sum _ _ fun i _ => hx i

/-- Every entry of a concatenation is an entry of one of its parts. -/
theorem allFin_concatenate (a : Fin t.rank) (xs : List ((s : Shape) × (s.Idx → EReal)))
    (h : Shape.Concatenates (xs.map (·.1)) t a) (hxs : ∀ p ∈ xs, AllFin p.2) :
    AllFin (concatenate t a xs h) := by
  intro j
  unfold concatenate
  exact hxs _ (List.getElem_mem _) _

end Arrays

end Cert.Fin

end
-- ==== Proof.Spec.lean ====
/-
  The function both programs compute, index by index, on the extended reals.

  A time step of a batch row is VALID when one of its 74 features (37 sensor readings and their 37 presence flags)
  is not zero; `step` is the indicator of that. Over the valid steps the model averages an affine embedding of the
  step's features and of the step's time: `pooledR` embeds every step and then averages. The embedding being affine,
  the average of the embeddings is the embedding of the averaged features, plus the bias scaled by the fraction
  (number of valid steps) / (clipped number of valid steps), plus the averaged time times the time weights:
  `pooledK` averages first and embeds once. The two agree when every entry is finite (module Algebra). The head
  joins the pooled row with an affine image of the static features and maps it through one hidden layer with a
  rectifier; it is the same function of the pooled row on both sides.
-/
import Idealize.ShloMosaic.PureOps.Ideal
import Idealize.ShloMosaic.Lib.ValueIdx
import proofs.«402645_j23527830847742_3_alg».proof.Proof.LibFinite

noncomputable section

namespace Cert.Pool

open Idealize.ShloMosaic Idealize.ShloMosaic.ValueIdx Cert.Fin
open scoped BigOperators Classical

/-- The inputs, as functions of their coordinates: readings `x` and presence flags `mf` (already read as reals) by
    (row, sensor, step); times by (row, step); static features by (row, feature); then the weights and biases of the
    sensor embedding, the time embedding, the static map, the hidden layer and the classifier. -/
structure Inp where
  x : Fin 128 → Fin 37 → Fin 2048 → EReal
  mf : Fin 128 → Fin 37 → Fin 2048 → EReal
  tm : Fin 128 → Fin 2048 → EReal
  st : Fin 128 → Fin 8 → EReal
  ws : Fin 74 → Fin 256 → EReal
  bs : Fin 256 → EReal
  wt : Fin 256 → EReal
  bt : Fin 256 → EReal
  wst : Fin 8 → Fin 8 → EReal
  bst : Fin 8 → EReal
  wm : Fin 264 → Fin 264 → EReal
  bm : Fin 264 → EReal
  wc : Fin 264 → Fin 2 → EReal
  bc : Fin 2 → EReal

/-- What the algebra needs to be real numbers: everything that enters the pooled embedding. -/
structure Inp.Finite (I : Inp) : Prop where
  x : ∀ b s t, IsFin (I.x b s t)
  mf : ∀ b s t, IsFin (I.mf b s t)
  tm : ∀ b t, IsFin (I.tm b t)
  ws : ∀ f d, IsFin (I.ws f d)
  bs : ∀ d, IsFin (I.bs d)
  wt : ∀ d, IsFin (I.wt d)
  bt : ∀ d, IsFin (I.bt d)

variable (I : Inp)

/-- The 74 features of a step: the 37 readings, then the 37 flags. -/
def feat (b : Fin 128) (t : Fin 2048) (f : Fin 74) : EReal :=
  if h : f.val < 37 then I.x b ⟨f.val, h⟩ t else I.mf b ⟨f.val - 37, by omega⟩ t

/-- A step is valid when some sensor's reading or flag is not zero. -/
def valid (b : Fin 128) (t : Fin 2048) : Prop := ∃ s : Fin 37, I.x b s t ≠ 0 ∨ I.mf b s t ≠ 0

/-- The indicator of a valid step. -/
def step (b : Fin 128) (t : Fin 2048) : EReal := if valid I b t then 1 else 0

/-- The clip's lower bound: the binary float nearest 1e-9. -/
def eps : EReal := Ideal.ofBits .f32 0x3089705F#32

/-- The number of valid steps of a row. -/
def raw (b : Fin 128) : EReal := ∑ t, step I b t

/-- The divisor of the mean: the number of valid steps, clipped from below. -/
def den (b : Fin 128) : EReal := max eps (raw I b)

/-- The embedding of one step: features through the sensor weights, plus bias, plus time through the time weights, plus bias. -/
def emb (b : Fin 128) (t : Fin 2048) (d : Fin 256) : EReal :=
  (((∑ f, feat I b t f * I.ws f d) + I.bs d) + I.tm b t * I.wt d) + I.bt d

/-- Embed every step, then average over the valid ones. -/
def pooledR (b : Fin 128) (d : Fin 256) : EReal := Ideal.div (∑ t, emb I b t d * step I b t) (den I b)

/-- A feature summed over the valid steps. -/
def accF (b : Fin 128) (f : Fin 74) : EReal := ∑ t, feat I b t f * step I b t

/-- The time summed over the valid steps. -/
def accT (b : Fin 128) : EReal := ∑ t, I.tm b t * step I b t

/-- Average first, then embed once. -/
def pooledK (b : Fin 128) (d : Fin 256) : EReal :=
  (Ideal.div (∑ f, accF I b f * I.ws f d) (den I b) + Ideal.div (raw I b) (den I b) * (I.bs d + I.bt d))
    + Ideal.div (accT I b) (den I b) * I.wt d

/-- The affine image of the static features. -/
def se (b : Fin 128) (j : Fin 8) : EReal := (∑ k, I.st b k * I.wst k j) + I.bst j

/-- A pooled row joined with the static image. -/
def comb (p : Fin 128 → Fin 256 → EReal) (b : Fin 128) (i : Fin 264) : EReal :=
  if h : i.val < 256 then p b ⟨i.val, h⟩ else se I b ⟨i.val - 256, by omega⟩

/-- The hidden layer, rectified. -/
def hid (p : Fin 128 → Fin 256 → EReal) (b : Fin 128) (j : Fin 264) : EReal :=
  max ((∑ i, comb I p b i * I.wm i j) + I.bm j) 0

/-- The classifier on the hidden layer. -/
def head (p : Fin 128 → Fin 256 → EReal) (b : Fin 128) (c : Fin 2) : EReal :=
  (∑ j, hid I p b j * I.wc j c) + I.bc c

/-- The result when every step is embedded and the embeddings averaged. -/
def outR (b : Fin 128) (c : Fin 2) : EReal := head I (pooledR I) b c

/-- The result when the features are averaged and embedded once. -/
def outK (b : Fin 128) (c : Fin 2) : EReal := head I (pooledK I) b c

/-- The inputs read off the fourteen argument arrays (a flag, a 32-bit integer, read signed as a real). -/
def ofArrays (a0 : (⟨3, ![128, 37, 2048]⟩ : Shape).Idx → EReal) (a1 : (⟨2, ![128, 8]⟩ : Shape).Idx → EReal)
    (a2 : (⟨2, ![128, 2048]⟩ : Shape).Idx → EReal) (a3 : (⟨3, ![128, 37, 2048]⟩ : Shape).Idx → BitVec 32)
    (a4 : (⟨2, ![74, 256]⟩ : Shape).Idx → EReal) (a5 : (⟨1, ![256]⟩ : Shape).Idx → EReal)
    (a6 : (⟨2, ![1, 256]⟩ : Shape).Idx → EReal) (a7 : (⟨1, ![256]⟩ : Shape).Idx → EReal)
    (a8 : (⟨2, ![8, 8]⟩ : Shape).Idx → EReal) (a9 : (⟨1, ![8]⟩ : Shape).Idx → EReal)
    (a10 : (⟨2, ![264, 264]⟩ : Shape).Idx → EReal) (a11 : (⟨1, ![264]⟩ : Shape).Idx → EReal)
    (a12 : (⟨2, ![264, 2]⟩ : Shape).Idx → EReal) (a13 : (⟨1, ![2]⟩ : Shape).Idx → EReal) : Inp where
  x b s t := a0 (ix3 b s t)
  mf b s t := (((a3 (ix3 b s t)).toInt : ℝ) : EReal)
  tm b t := a2 (ix2 b t)
  st b k := a1 (ix2 b k)
  ws f d := a4 (ix2 f d)
  bs d := a5 (ix1 d)
  wt d := a6 (ix2 (0 : Fin 1) d)
  bt d := a7 (ix1 d)
  wst k j := a8 (ix2 k j)
  bst j := a9 (ix1 j)
  wm i j := a10 (ix2 i j)
  bm j := a11 (ix1 j)
  wc j c := a12 (ix2 j c)
  bc c := a13 (ix1 c)

end Cert.Pool

end
-- ==== Proof.KernelSums.lean ====
/-
  The four finished sums of one batch tile, read at an index, are the specification's sums over the valid steps.

  The mask of a time tile at (row, step) sums over the 37 sensors the indicator of "the reading or the flag is not
  zero", asks whether that sum is positive, and reads the one-bit answer as 0 or 1: a finite sum of zeros and ones is
  positive exactly when one of its terms is a one, so the mask is the indicator of a valid step. Each running sum adds
  to what it held the tile's values times the mask, summed over the tile's 1024 steps; the sums start from zero, so
  after the two time tiles each is (0 + the sum over the first tile's steps) + the sum over the second tile's steps,
  and a sum over the 2048 steps of a row splits into exactly these two.
-/
import proofs.«402645_j23527830847742_3_alg».proof.Proof.KernelBlock
import proofs.«402645_j23527830847742_3_alg».proof.Proof.Spec
import Idealize.ShloMosaic.PureOps.Ideal.Laws
import Idealize.ShloMosaic.Lib.Pipeline.Value
import Idealize.ShloMosaic.Lib.ValueLayout

noncomputable section

namespace Cert.KernelIdeal.Blk

open Idealize.ShloMosaic Idealize.ShloMosaic.ValueIdx Cert.KernelIdeal Cert.KernelIdeal.Gen
open scoped BigOperators

namespace Sums

/-! ### Words: one-bit answers read as 0 or 1 -/

/-- A one-bit "not zero" answer for either of two values, widened to 32 bits and read as a signed integer, is 1 when
    one of the two values is not zero and 0 otherwise. -/
theorem ind_word (a b : Ideal .f32) :
    FloatOps.sitofp (F := Ideal) .f32 (BitVec.setWidth 32
        (IntOp.ori (FloatOps.cmpf (F := Ideal) (φ := .f32) .one a 0) (FloatOps.cmpf (F := Ideal) (φ := .f32) .one b 0)))
      = if a ≠ 0 ∨ b ≠ 0 then 1 else 0 := by
  show (((BitVec.setWidth 32 (IntOp.ori (Ideal.cmp .one a 0) (Ideal.cmp .one b 0))).toInt : ℝ) : EReal) = _
  by_cases ha : a = 0 <;> by_cases hb : b = 0 <;> simp [Ideal.cmp, IntOp.ori, ha, hb] <;> decide

/-- A one-bit "greater than zero" answer, widened to 32 bits and read as a signed integer, is 1 when the value is
    positive and 0 otherwise. -/
theorem gt_word (a : Ideal .f32) :
    FloatOps.sitofp (F := Ideal) .f32 (BitVec.setWidth 32 (FloatOps.cmpf (F := Ideal) (φ := .f32) .ogt a 0))
      = if 0 < a then 1 else 0 := by
  show (((BitVec.setWidth 32 (Ideal.cmp .ogt a 0)).toInt : ℝ) : EReal) = _
  by_cases ha : 0 < a <;> simp [Ideal.cmp, ha] <;> decide

/-- A finite sum of zeros and ones is positive exactly when one of its terms is a one. -/
theorem sum_ind_pos {n : ℕ} (Q : Fin n → Prop) [DecidablePred Q] :
    (0 < ∑ s : Fin n, (if Q s then (1 : EReal) else 0)) ↔ ∃ s, Q s := by
  constructor
  · intro h
    by_contra hne
    have hz : ∑ s : Fin n, (if Q s then (1 : EReal) else 0) = 0 :=
      Finset.sum_eq_zero fun s _ => if_neg fun hs => hne ⟨s, hs⟩
    rw [hz] at h
    exact lt_irrefl _ h
  · rintro ⟨s, hs⟩
    have h1 : (if Q s then (1 : EReal) else 0) ≤ ∑ s : Fin n, (if Q s then (1 : EReal) else 0) :=
      Finset.single_le_sum (f := fun s => if Q s then (1 : EReal) else 0)
        (fun i _ => by split <;> simp) (Finset.mem_univ s)
    rw [if_pos hs] at h1
    exact lt_of_lt_of_le zero_lt_one h1

/-! ### Sums over one axis and re-layings, at explicit coordinates -/

/-- The sum over the sensor axis of a [32, 37, 1024] array, at (r, q). -/
theorem reduce_s (v : FVec Ideal S32x37x1024 .f32) (h : S32x37x1024.Reduces [1] S32x1024)
    (hφ : FKind.Formats .f32) (hacc : (0x00000000#32 : BitVec 32) = 0x00000000#32) (r : Fin 32) (q : Fin 1024) :
    multiReduction (F := Ideal) .add [1] S32x1024 v 0x00000000#32 h hφ hacc (ix2 r q) = ∑ s : Fin 37, v (ix3 r s q) := by
  refine (Ideal.multiReduction_add_single v 0x00000000#32 h hφ hacc (ix2 r q)).trans ?_
  show ∑ k : Fin 37, v (h.lift (ix2 r q) k) = _
  refine Finset.sum_congr rfl fun s _ => congrArg v ?_
  funext c
  refine Fin.ext ?_
  match c with
  | ⟨0, _⟩ => rfl
  | ⟨1, _⟩ => rfl
  | ⟨2, _⟩ => rfl

/-- The sum over the step axis of a [32, 37, 1024] array, at (r, s). -/
theorem reduce_q (v : FVec Ideal S32x37x1024 .f32) (h : S32x37x1024.Reduces [2] S32x37)
    (hφ : FKind.Formats .f32) (hacc : (0x00000000#32 : BitVec 32) = 0x00000000#32) (r : Fin 32) (s : Fin 37) :
    multiReduction (F := Ideal) .add [2] S32x37 v 0x00000000#32 h hφ hacc (ix2 r s) = ∑ q : Fin 1024, v (ix3 r s q) := by
  refine (Ideal.multiReduction_add_single v 0x00000000#32 h hφ hacc (ix2 r s)).trans ?_
  show ∑ k : Fin 1024, v (h.lift (ix2 r s) k) = _
  refine Finset.sum_congr rfl fun q _ => congrArg v ?_
  funext c
  refine Fin.ext ?_
  match c with
  | ⟨0, _⟩ => rfl
  | ⟨1, _⟩ => rfl
  | ⟨2, _⟩ => rfl

/-- The sum over the step axis of a [32, 1024] array, at r. -/
theorem reduce_q2 (v : FVec Ideal S32x1024 .f32) (h : S32x1024.Reduces [1] S32)
    (hφ : FKind.Formats .f32) (hacc : (0x00000000#32 : BitVec 32) = 0x00000000#32) (r : Fin 32) :
    multiReduction (F := Ideal) .add [1] S32 v 0x00000000#32 h hφ hacc (ix1 r) = ∑ q : Fin 1024, v (ix2 r q) := by
  refine (Ideal.multiReduction_add_single v 0x00000000#32 h hφ hacc (ix1 r)).trans ?_
  show ∑ k : Fin 1024, v (h.lift (ix1 r) k) = _
  refine Finset.sum_congr rfl fun q _ => congrArg v ?_
  funext c
  refine Fin.ext ?_
  match c with
  | ⟨0, _⟩ => rfl
  | ⟨1, _⟩ => rfl

/-- A [32] array re-laid as a [32, 1] column reads, at (r, 0), the array at r. -/
theorem col_cast {α : Type} (v : S32.Idx → α) (h : S32.ShapeCasts S32x1) (r : Fin 32) (u : Fin 1) :
    shapeCast S32x1 v h (ix2 r u) = v (ix1 r) :=
  shapeCast_apply v h _ (ix1 r) (by
    have hu : u.val = 0 := by omega
    rw [Shape.rowMajor_val_one, Shape.rowMajor_val_two]
    show r.val = r.val * 1 + u.val
    omega)

/-- A [32, 1024] array re-laid as [32, 1, 1024] and repeated along the sensor axis reads, at (r, s, q), the array at
    (r, q). -/
theorem mask_bcast {α : Type} (m : S32x1024.Idx → α) (h1 : S32x1024.ShapeCasts S32x1x1024)
    (h2 : S32x1x1024.Broadcasts S32x37x1024) (r : Fin 32) (s : Fin 37) (q : Fin 1024) :
    broadcastTo S32x37x1024 (shapeCast S32x1x1024 m h1) h2 (ix3 r s q) = m (ix2 r q) := by
  refine (broadcastTo_apply _ h2 (ix3 r s q) (ix3 r (0 : Fin 1) q) fun a => ?_).trans ?_
  · match a with
    | ⟨0, _⟩ => rfl
    | ⟨1, _⟩ => rfl
    | ⟨2, _⟩ => rfl
  · refine shapeCast_apply m h1 _ (ix2 r q) ?_
    rw [Shape.rowMajor_val_two, Shape.rowMajor_val_three]
    show r.val * 1024 + q.val = (r.val * 1 + 0) * 1024 + q.val
    omega

/-! ### The body's arithmetic terms at explicit coordinates -/

/-- The validity mask of a tile at (r, q): 1 when some sensor's reading or flag at that step is not zero, else 0. -/
theorem pay11_apply (x : Vec Ideal S32x37x1024 .f32) (mk : Vec Ideal S32x37x1024 .i32) (r : Fin 32) (q : Fin 1024)
    (P : Prop) [Decidable P]
    (hP : P ↔ ∃ s : Fin 37, x (ix3 r s q) ≠ 0 ∨ (((mk (ix3 r s q)).toInt : ℝ) : EReal) ≠ 0) :
    k0_pay11 (F := Ideal) x mk (ix2 r q) = if P then 1 else 0 := by
  unfold k0_pay11 k0_pay10
  simp only [sitofp_apply, extui_apply, cmpf_apply, broadcast_apply]
  rw [reduce_s]
  simp only [sitofp_apply, extui_apply, cmpf_apply, broadcast_apply, ori, Ideal.ofBits_def, Ideal.ofBits_zero_f32]
  refine (gt_word _).trans ?_
  simp only [ind_word]
  exact if_congr ((sum_ind_pos _).trans hP.symm) rfl rfl

/-- The running sum of the readings: the sum so far plus the tile's readings summed over its valid steps. -/
theorem pay13_apply (x : Vec Ideal S32x37x1024 .f32) (mk : Vec Ideal S32x37x1024 .i32) (acc : Vec Ideal S32x37 .f32)
    (r : Fin 32) (s : Fin 37) :
    k0_pay13 (F := Ideal) x mk acc (ix2 r s)
      = acc (ix2 r s) + ∑ q : Fin 1024, x (ix3 r s q) * k0_pay11 (F := Ideal) x mk (ix2 r q) := by
  unfold k0_pay13 k0_pay12
  simp only []
  rw [shapeCast_self]
  simp only [addf_apply]
  rw [reduce_q]
  simp only [mulf_apply, mask_bcast]

/-- The running sum of the flags: the sum so far plus the tile's flags, read as reals, summed over its valid steps. -/
theorem pay14_apply (x : Vec Ideal S32x37x1024 .f32) (mk : Vec Ideal S32x37x1024 .i32) (acc : Vec Ideal S32x37 .f32)
    (r : Fin 32) (s : Fin 37) :
    k0_pay14 (F := Ideal) x mk acc (ix2 r s)
      = acc (ix2 r s) + ∑ q : Fin 1024, (((mk (ix3 r s q)).toInt : ℝ) : EReal) * k0_pay11 (F := Ideal) x mk (ix2 r q) := by
  unfold k0_pay14 k0_pay12 k0_pay10
  simp only [addf_apply]
  rw [reduce_q]
  simp only [mulf_apply, mask_bcast, sitofp_apply]
  rfl

/-- A re-laying to the same shape changes nothing. -/
theorem pay1_eq (v : FVec Ideal S32x37 .f32) : k0_pay1 (F := Ideal) v = v := by
  unfold k0_pay1
  exact shapeCast_self _ _

/-- The running sum of the times: the sum so far plus the tile's times summed against a mask. -/
theorem pay2_apply (t : Vec Ideal S32x1024 .f32) (msk : FVec Ideal S32x1024 .f32) (acc : Vec Ideal S32x1 .f32) (r : Fin 32) :
    k0_pay2 (F := Ideal) t msk acc (ix2 r (0 : Fin 1))
      = acc (ix2 r (0 : Fin 1)) + ∑ q : Fin 1024, t (ix2 r q) * msk (ix2 r q) := by
  unfold k0_pay2
  simp only []
  rw [shapeCast_self]
  simp only [addf_apply]
  rw [col_cast, reduce_q2]
  simp only [mulf_apply]

/-- The running count: the count so far plus the mask summed over the tile's steps. -/
theorem pay3_apply (msk : FVec Ideal S32x1024 .f32) (acc : Vec Ideal S32x1 .f32) (r : Fin 32) :
    k0_pay3 (F := Ideal) msk acc (ix2 r (0 : Fin 1)) = acc (ix2 r (0 : Fin 1)) + ∑ q : Fin 1024, msk (ix2 r q) := by
  unfold k0_pay3
  simp only []
  rw [shapeCast_self]
  simp only [addf_apply]
  rw [col_cast, reduce_q2]

/-- The readings' running sum starts from zero. -/
theorem pay6_apply (j : S32x37.Idx) : k0_pay6 (F := Ideal) j = 0 := by
  unfold k0_pay6
  rw [shapeCast_self]
  exact Ideal.ofBits_zero_f32

/-- The flags' running sum starts from zero. -/
theorem pay7_apply (j : S32x37.Idx) : k0_pay7 (F := Ideal) j = 0 := by
  unfold k0_pay7
  rw [shapeCast_self]
  exact Ideal.ofBits_zero_f32

/-- The times' running sum starts from zero. -/
theorem pay8_apply (j : S32x1.Idx) : k0_pay8 (F := Ideal) j = 0 := by
  unfold k0_pay8
  rw [shapeCast_self]
  exact Ideal.ofBits_zero_f32

/-- The running count starts from zero. -/
theorem pay9_apply (j : S32x1.Idx) : k0_pay9 (F := Ideal) j = 0 := by
  unfold k0_pay9
  rw [shapeCast_self]
  exact Ideal.ofBits_zero_f32

/-! ### The specification's sums and the mask as the indicator of a valid step -/

/-- A reading summed over the valid steps of a row. -/
theorem accF_x (I : Cert.Pool.Inp) (b : Fin 128) (s : Fin 37) (h : s.val < 74) :
    Cert.Pool.accF I b ⟨s.val, h⟩ = ∑ t, I.x b s t * Cert.Pool.step I b t := by
  unfold Cert.Pool.accF Cert.Pool.feat
  refine Finset.sum_congr rfl fun t _ => ?_
  rw [dif_pos (show (⟨s.val, h⟩ : Fin 74).val < 37 from s.isLt)]

/-- A flag summed over the valid steps of a row. -/
theorem accF_m (I : Cert.Pool.Inp) (b : Fin 128) (s : Fin 37) (h : 37 + s.val < 74) :
    Cert.Pool.accF I b ⟨37 + s.val, h⟩ = ∑ t, I.mf b s t * Cert.Pool.step I b t := by
  unfold Cert.Pool.accF Cert.Pool.feat
  refine Finset.sum_congr rfl fun t _ => ?_
  rw [dif_neg (show ¬ (⟨37 + s.val, h⟩ : Fin 74).val < 37 from by simp)]
  have e : ∀ h', (⟨(⟨37 + s.val, h⟩ : Fin 74).val - 37, h'⟩ : Fin 37) = s :=
    fun _ => Fin.ext (Nat.add_sub_cancel_left _ _)
  rw [e]

/-- With a tile's blocks read off the inputs along an embedding of the tile's steps into the row's, the tile's mask
    is the indicator of a valid step. -/
theorem mask_step (I : Cert.Pool.Inp) (bi : Fin 4) (e : Fin 1024 → Fin 2048)
    (x : Vec Ideal S32x37x1024 .f32) (mk : Vec Ideal S32x37x1024 .i32)
    (hx : ∀ (r : Fin 32) (s : Fin 37) (q : Fin 1024), x (ix3 r s q) = I.x (row bi r) s (e q))
    (hm : ∀ (r : Fin 32) (s : Fin 37) (q : Fin 1024), (((mk (ix3 r s q)).toInt : ℝ) : EReal) = I.mf (row bi r) s (e q))
    (r : Fin 32) (q : Fin 1024) :
    k0_pay11 (F := Ideal) x mk (ix2 r q) = Cert.Pool.step I (row bi r) (e q) := by
  unfold Cert.Pool.step
  refine @pay11_apply x mk r q _ (Classical.propDecidable _) ?_
  unfold Cert.Pool.valid
  simp only [hx, hm]

end Sums

open Sums

/-! ### A row's steps are the first time tile's steps and then the second's -/

/-- A sum over the 2048 steps is the sum over the first tile's steps plus the sum over the second tile's. -/
theorem sum_lo_hi (f : Fin 2048 → EReal) :
    ∑ t, f t = (∑ q : Fin 1024, f (lo q)) + ∑ q : Fin 1024, f (hi q) :=
  Fin.sum_univ_add (a := 1024) (b := 1024) (f : Fin (1024 + 1024) → EReal)

/-! ### The four finished sums -/

section Finished

variable (I : Cert.Pool.Inp) (bi : Fin 4) (xA xB : Vec Ideal S32x37x1024 .f32) (mA mB : Vec Ideal S32x37x1024 .i32)
  (tA tB : Vec Ideal S32x1024 .f32)

/-- The finished count of a row of the tile is the number of valid steps of that row. -/
theorem sumN_apply
    (hxA : ∀ (r : Fin 32) (s : Fin 37) (q : Fin 1024), xA (ix3 r s q) = I.x (row bi r) s (lo q))
    (hxB : ∀ (r : Fin 32) (s : Fin 37) (q : Fin 1024), xB (ix3 r s q) = I.x (row bi r) s (hi q))
    (hmA : ∀ (r : Fin 32) (s : Fin 37) (q : Fin 1024), (((mA (ix3 r s q)).toInt : ℝ) : EReal) = I.mf (row bi r) s (lo q))
    (hmB : ∀ (r : Fin 32) (s : Fin 37) (q : Fin 1024), (((mB (ix3 r s q)).toInt : ℝ) : EReal) = I.mf (row bi r) s (hi q))
    (r : Fin 32) :
    sumN (F := Ideal) xA mA xB mB (ix2 r (0 : Fin 1)) = Cert.Pool.raw I (row bi r) := by
  unfold sumN
  rw [pay3_apply, pay3_apply, pay9_apply, zero_add]
  simp only [mask_step I bi lo xA mA hxA hmA, mask_step I bi hi xB mB hxB hmB]
  unfold Cert.Pool.raw
  exact (sum_lo_hi fun t => Cert.Pool.step I (row bi r) t).symm

/-- The finished sum of a sensor's readings is that reading summed over the row's valid steps. -/
theorem sumX_apply
    (hxA : ∀ (r : Fin 32) (s : Fin 37) (q : Fin 1024), xA (ix3 r s q) = I.x (row bi r) s (lo q))
    (hxB : ∀ (r : Fin 32) (s : Fin 37) (q : Fin 1024), xB (ix3 r s q) = I.x (row bi r) s (hi q))
    (hmA : ∀ (r : Fin 32) (s : Fin 37) (q : Fin 1024), (((mA (ix3 r s q)).toInt : ℝ) : EReal) = I.mf (row bi r) s (lo q))
    (hmB : ∀ (r : Fin 32) (s : Fin 37) (q : Fin 1024), (((mB (ix3 r s q)).toInt : ℝ) : EReal) = I.mf (row bi r) s (hi q))
    (r : Fin 32) (s : Fin 37) :
    sumX (F := Ideal) xA mA xB mB (ix2 r s) = Cert.Pool.accF I (row bi r) ⟨s.val, by have := s.isLt; omega⟩ := by
  unfold sumX
  rw [pay13_apply, pay13_apply, pay6_apply, zero_add]
  simp only [mask_step I bi lo xA mA hxA hmA, mask_step I bi hi xB mB hxB hmB, hxA, hxB]
  rw [accF_x]
  exact (sum_lo_hi fun t => I.x (row bi r) s t * Cert.Pool.step I (row bi r) t).symm

/-- The finished sum of a sensor's flags is that flag summed over the row's valid steps. -/
theorem sumM_apply
    (hxA : ∀ (r : Fin 32) (s : Fin 37) (q : Fin 1024), xA (ix3 r s q) = I.x (row bi r) s (lo q))
    (hxB : ∀ (r : Fin 32) (s : Fin 37) (q : Fin 1024), xB (ix3 r s q) = I.x (row bi r) s (hi q))
    (hmA : ∀ (r : Fin 32) (s : Fin 37) (q : Fin 1024), (((mA (ix3 r s q)).toInt : ℝ) : EReal) = I.mf (row bi r) s (lo q))
    (hmB : ∀ (r : Fin 32) (s : Fin 37) (q : Fin 1024), (((mB (ix3 r s q)).toInt : ℝ) : EReal) = I.mf (row bi r) s (hi q))
    (r : Fin 32) (s : Fin 37) :
    sumM (F := Ideal) xA mA xB mB (ix2 r s) = Cert.Pool.accF I (row bi r) ⟨37 + s.val, by have := s.isLt; omega⟩ := by
  unfold sumM
  rw [pay1_eq, pay14_apply, pay1_eq, pay14_apply, pay7_apply, zero_add]
  simp only [mask_step I bi lo xA mA hxA hmA, mask_step I bi hi xB mB hxB hmB, hmA, hmB]
  rw [accF_m]
  exact (sum_lo_hi fun t => I.mf (row bi r) s t * Cert.Pool.step I (row bi r) t).symm

/-- The finished sum of the times is the time summed over the row's valid steps. -/
theorem sumT_apply
    (hxA : ∀ (r : Fin 32) (s : Fin 37) (q : Fin 1024), xA (ix3 r s q) = I.x (row bi r) s (lo q))
    (hxB : ∀ (r : Fin 32) (s : Fin 37) (q : Fin 1024), xB (ix3 r s q) = I.x (row bi r) s (hi q))
    (hmA : ∀ (r : Fin 32) (s : Fin 37) (q : Fin 1024), (((mA (ix3 r s q)).toInt : ℝ) : EReal) = I.mf (row bi r) s (lo q))
    (hmB : ∀ (r : Fin 32) (s : Fin 37) (q : Fin 1024), (((mB (ix3 r s q)).toInt : ℝ) : EReal) = I.mf (row bi r) s (hi q))
    (htA : ∀ (r : Fin 32) (q : Fin 1024), tA (ix2 r q) = I.tm (row bi r) (lo q))
    (htB : ∀ (r : Fin 32) (q : Fin 1024), tB (ix2 r q) = I.tm (row bi r) (hi q))
    (r : Fin 32) :
    sumT (F := Ideal) xA mA tA xB mB tB (ix2 r (0 : Fin 1)) = Cert.Pool.accT I (row bi r) := by
  unfold sumT
  rw [pay2_apply, pay2_apply, pay8_apply, zero_add]
  simp only [mask_step I bi lo xA mA hxA hmA, mask_step I bi hi xB mB hxB hmB, htA, htB]
  unfold Cert.Pool.accT
  exact (sum_lo_hi fun t => I.tm (row bi r) t * Cert.Pool.step I (row bi r) t).symm

end Finished

end Cert.KernelIdeal.Blk

end
-- ==== Proof.KernelEpilogue.lean ====
/-
  The epilogue of one batch tile, read at an index.

  From the finished sums of a tile (the number of valid steps, the 74 feature sums, the time sum) the body divides by
  the clipped count, maps the averaged features through the sensor weights, adds the scaled biases and the averaged time
  through the time weights, joins the result with the affine image of the static features, and maps the joined row
  through one rectified hidden layer and the classifier. Read at row `r` and class `c` this is the specification's
  `outK` at the tile's row.
-/
import proofs.«402645_j23527830847742_3_alg».proof.Proof.KernelBlock
import proofs.«402645_j23527830847742_3_alg».proof.Proof.Spec
import Idealize.ShloMosaic.PureOps.Ideal.Laws
import Idealize.ShloMosaic.Lib.Pipeline.Value
import Idealize.ShloMosaic.Lib.ValueLayout

noncomputable section

namespace Cert.KernelIdeal.Blk

open Idealize.ShloMosaic Idealize.ShloMosaic.ValueIdx Cert.KernelIdeal Cert.KernelIdeal.Gen
open scoped BigOperators

/-! ## A column broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The four products into a zero accumulator, read at an index

Each product contracts the left operand's axis 1 with the right operand's axis 0. At output index `(r, j)` and
contraction position `k` the left operand is read at `(r, k)` and the right at `(k, j)`: four coordinate facts per
product, then the product at `(r, j)` as the sum over `k`. -/

theorem lhs_ws_0 (i : S32x256.Idx) (q : dot_S32x74_S74x256_S32x256_1_0_0_1_n_n.contr.Idx) :
    (dot_S32x74_S74x256_S32x256_1_0_0_1_n_n.lhsIdx i q 0).val = (i 0).val := by
  unfold DotDims.lhsIdx
  rw [dif_neg (show ¬(0 : Fin S32x74.rank) ∈ dot_S32x74_S74x256_S32x256_1_0_0_1_n_n.lhsBatch by decide), dif_pos (show (0 : Fin S32x74.rank) ∈ dot_S32x74_S74x256_S32x256_1_0_0_1_n_n.lhsNonContracting by decide)]
  rfl
theorem lhs_ws_1 (i : S32x256.Idx) (q : dot_S32x74_S74x256_S32x256_1_0_0_1_n_n.contr.Idx) :
    (dot_S32x74_S74x256_S32x256_1_0_0_1_n_n.lhsIdx i q 1).val = (q ⟨0, by decide⟩).val :=
  dot_S32x74_S74x256_S32x256_1_0_0_1_n_n.lhsIdx_val_of_single rfl i q
theorem rhs_ws_0 (i : S32x256.Idx) (q : dot_S32x74_S74x256_S32x256_1_0_0_1_n_n.contr.Idx) :
    (dot_S32x74_S74x256_S32x256_1_0_0_1_n_n.rhsIdx i q 0).val = (q ⟨0, by decide⟩).val :=
  dot_S32x74_S74x256_S32x256_1_0_0_1_n_n.rhsIdx_val_of_single rfl i q
theorem rhs_ws_1 (i : S32x256.Idx) (q : dot_S32x74_S74x256_S32x256_1_0_0_1_n_n.contr.Idx) :
    (dot_S32x74_S74x256_S32x256_1_0_0_1_n_n.rhsIdx i q 1).val = (i 1).val := by
  unfold DotDims.rhsIdx
  rw [dif_neg (show ¬(1 : Fin S74x256.rank) ∈ dot_S32x74_S74x256_S32x256_1_0_0_1_n_n.rhsBatch by decide), dif_pos (show (1 : Fin S74x256.rank) ∈ dot_S32x74_S74x256_S32x256_1_0_0_1_n_n.rhsNonContracting by decide)]
  rfl

/-- The joined feature sums times the sensor weights, into zero: at `(r, d)` the sum over the 74 features. -/
theorem matmul_ws_apply (x : FVec Ideal S32x74 .f32) (w : FVec Ideal S74x256 .f32) (r : Fin 32) (j : Fin 256) :
    matmul dot_S32x74_S74x256_S32x256_1_0_0_1_n_n (some .fp32) x w (constant (F := Ideal) S32x256 .f32 0x00000000#32) (ix2 r j)
      = ∑ k : Fin 74, x (ix2 r k) * w (ix2 k j) := by
  simp only [matmul]
  rw [Ideal.matmul_constant_zero_apply, ← Equiv.sum_comp (contrEquiv1 dot_S32x74_S74x256_S32x256_1_0_0_1_n_n 74 rfl rfl).symm]
  refine Finset.sum_congr rfl fun k _ => ?_
  have hk := contrEquiv1_symm_val dot_S32x74_S74x256_S32x256_1_0_0_1_n_n 74 rfl rfl k
  have el : dot_S32x74_S74x256_S32x256_1_0_0_1_n_n.lhsIdx (ix2 r j) ((contrEquiv1 dot_S32x74_S74x256_S32x256_1_0_0_1_n_n 74 rfl rfl).symm k) = ix2 r k := funext fun a => Fin.ext (by
    match a with
    | ⟨0, _⟩ => exact lhs_ws_0 _ _
    | ⟨1, _⟩ => exact (lhs_ws_1 _ _).trans hk)
  have er : dot_S32x74_S74x256_S32x256_1_0_0_1_n_n.rhsIdx (ix2 r j) ((contrEquiv1 dot_S32x74_S74x256_S32x256_1_0_0_1_n_n 74 rfl rfl).symm k) = ix2 k j := funext fun a => Fin.ext (by
    match a with
    | ⟨0, _⟩ => exact (rhs_ws_0 _ _).trans hk
    | ⟨1, _⟩ => exact rhs_ws_1 _ _)
  rw [el, er]

theorem lhs_st_0 (i : S32x8.Idx) (q : dot_S32x8_S8x8_S32x8_1_0_0_1_n_n.contr.Idx) :
    (dot_S32x8_S8x8_S32x8_1_0_0_1_n_n.lhsIdx i q 0).val = (i 0).val := by
  unfold DotDims.lhsIdx
  rw [dif_neg (show ¬(0 : Fin S32x8.rank) ∈ dot_S32x8_S8x8_S32x8_1_0_0_1_n_n.lhsBatch by decide), dif_pos (show (0 : Fin S32x8.rank) ∈ dot_S32x8_S8x8_S32x8_1_0_0_1_n_n.lhsNonContracting by decide)]
  rfl
theorem lhs_st_1 (i : S32x8.Idx) (q : dot_S32x8_S8x8_S32x8_1_0_0_1_n_n.contr.Idx) :
    (dot_S32x8_S8x8_S32x8_1_0_0_1_n_n.lhsIdx i q 1).val = (q ⟨0, by decide⟩).val :=
  dot_S32x8_S8x8_S32x8_1_0_0_1_n_n.lhsIdx_val_of_single rfl i q
theorem rhs_st_0 (i : S32x8.Idx) (q : dot_S32x8_S8x8_S32x8_1_0_0_1_n_n.contr.Idx) :
    (dot_S32x8_S8x8_S32x8_1_0_0_1_n_n.rhsIdx i q 0).val = (q ⟨0, by decide⟩).val :=
  dot_S32x8_S8x8_S32x8_1_0_0_1_n_n.rhsIdx_val_of_single rfl i q
theorem rhs_st_1 (i : S32x8.Idx) (q : dot_S32x8_S8x8_S32x8_1_0_0_1_n_n.contr.Idx) :
    (dot_S32x8_S8x8_S32x8_1_0_0_1_n_n.rhsIdx i q 1).val = (i 1).val := by
  unfold DotDims.rhsIdx
  rw [dif_neg (show ¬(1 : Fin S8x8.rank) ∈ dot_S32x8_S8x8_S32x8_1_0_0_1_n_n.rhsBatch by decide), dif_pos (show (1 : Fin S8x8.rank) ∈ dot_S32x8_S8x8_S32x8_1_0_0_1_n_n.rhsNonContracting by decide)]
  rfl

/-- The static block times the static weights, into zero: at `(r, j)` the sum over the 8 static features. -/
theorem matmul_st_apply (x : FVec Ideal S32x8 .f32) (w : FVec Ideal S8x8 .f32) (r : Fin 32) (j : Fin 8) :
    matmul dot_S32x8_S8x8_S32x8_1_0_0_1_n_n (some .fp32) x w (constant (F := Ideal) S32x8 .f32 0x00000000#32) (ix2 r j)
      = ∑ k : Fin 8, x (ix2 r k) * w (ix2 k j) := by
  simp only [matmul]
  rw [Ideal.matmul_constant_zero_apply, ← Equiv.sum_comp (contrEquiv1 dot_S32x8_S8x8_S32x8_1_0_0_1_n_n 8 rfl rfl).symm]
  refine Finset.sum_congr rfl fun k _ => ?_
  have hk := contrEquiv1_symm_val dot_S32x8_S8x8_S32x8_1_0_0_1_n_n 8 rfl rfl k
  have el : dot_S32x8_S8x8_S32x8_1_0_0_1_n_n.lhsIdx (ix2 r j) ((contrEquiv1 dot_S32x8_S8x8_S32x8_1_0_0_1_n_n 8 rfl rfl).symm k) = ix2 r k := funext fun a => Fin.ext (by
    match a with
    | ⟨0, _⟩ => exact lhs_st_0 _ _
    | ⟨1, _⟩ => exact (lhs_st_1 _ _).trans hk)
  have er : dot_S32x8_S8x8_S32x8_1_0_0_1_n_n.rhsIdx (ix2 r j) ((contrEquiv1 dot_S32x8_S8x8_S32x8_1_0_0_1_n_n 8 rfl rfl).symm k) = ix2 k j := funext fun a => Fin.ext (by
    match a with
    | ⟨0, _⟩ => exact (rhs_st_0 _ _).trans hk
    | ⟨1, _⟩ => exact rhs_st_1 _ _)
  rw [el, er]

theorem lhs_wm_0 (i : S32x264.Idx) (q : dot_S32x264_S264x264_S32x264_1_0_0_1_n_n.contr.Idx) :
    (dot_S32x264_S264x264_S32x264_1_0_0_1_n_n.lhsIdx i q 0).val = (i 0).val := by
  unfold DotDims.lhsIdx
  rw [dif_neg (show ¬(0 : Fin S32x264.rank) ∈ dot_S32x264_S264x264_S32x264_1_0_0_1_n_n.lhsBatch by decide), dif_pos (show (0 : Fin S32x264.rank) ∈ dot_S32x264_S264x264_S32x264_1_0_0_1_n_n.lhsNonContracting by decide)]
  rfl
theorem lhs_wm_1 (i : S32x264.Idx) (q : dot_S32x264_S264x264_S32x264_1_0_0_1_n_n.contr.Idx) :
    (dot_S32x264_S264x264_S32x264_1_0_0_1_n_n.lhsIdx i q 1).val = (q ⟨0, by decide⟩).val :=
  dot_S32x264_S264x264_S32x264_1_0_0_1_n_n.lhsIdx_val_of_single rfl i q
theorem rhs_wm_0 (i : S32x264.Idx) (q : dot_S32x264_S264x264_S32x264_1_0_0_1_n_n.contr.Idx) :
    (dot_S32x264_S264x264_S32x264_1_0_0_1_n_n.rhsIdx i q 0).val = (q ⟨0, by decide⟩).val :=
  dot_S32x264_S264x264_S32x264_1_0_0_1_n_n.rhsIdx_val_of_single rfl i q
theorem rhs_wm_1 (i : S32x264.Idx) (q : dot_S32x264_S264x264_S32x264_1_0_0_1_n_n.contr.Idx) :
    (dot_S32x264_S264x264_S32x264_1_0_0_1_n_n.rhsIdx i q 1).val = (i 1).val := by
  unfold DotDims.rhsIdx
  rw [dif_neg (show ¬(1 : Fin S264x264.rank) ∈ dot_S32x264_S264x264_S32x264_1_0_0_1_n_n.rhsBatch by decide), dif_pos (show (1 : Fin S264x264.rank) ∈ dot_S32x264_S264x264_S32x264_1_0_0_1_n_n.rhsNonContracting by decide)]
  rfl

/-- The joined row times the hidden weights, into zero: at `(r, j)` the sum over the 264 joined features. -/
theorem matmul_wm_apply (x : FVec Ideal S32x264 .f32) (w : FVec Ideal S264x264 .f32) (r : Fin 32) (j : Fin 264) :
    matmul dot_S32x264_S264x264_S32x264_1_0_0_1_n_n (some .fp32) x w (constant (F := Ideal) S32x264 .f32 0x00000000#32) (ix2 r j)
      = ∑ k : Fin 264, x (ix2 r k) * w (ix2 k j) := by
  simp only [matmul]
  rw [Ideal.matmul_constant_zero_apply, ← Equiv.sum_comp (contrEquiv1 dot_S32x264_S264x264_S32x264_1_0_0_1_n_n 264 rfl rfl).symm]
  refine Finset.sum_congr rfl fun k _ => ?_
  have hk := contrEquiv1_symm_val dot_S32x264_S264x264_S32x264_1_0_0_1_n_n 264 rfl rfl k
  have el : dot_S32x264_S264x264_S32x264_1_0_0_1_n_n.lhsIdx (ix2 r j) ((contrEquiv1 dot_S32x264_S264x264_S32x264_1_0_0_1_n_n 264 rfl rfl).symm k) = ix2 r k := funext fun a => Fin.ext (by
    match a with
    | ⟨0, _⟩ => exact lhs_wm_0 _ _
    | ⟨1, _⟩ => exact (lhs_wm_1 _ _).trans hk)
  have er : dot_S32x264_S264x264_S32x264_1_0_0_1_n_n.rhsIdx (ix2 r j) ((contrEquiv1 dot_S32x264_S264x264_S32x264_1_0_0_1_n_n 264 rfl rfl).symm k) = ix2 k j := funext fun a => Fin.ext (by
    match a with
    | ⟨0, _⟩ => exact (rhs_wm_0 _ _).trans hk
    | ⟨1, _⟩ => exact rhs_wm_1 _ _)
  rw [el, er]

theorem lhs_wc_0 (i : S32x2.Idx) (q : dot_S32x264_S264x2_S32x2_1_0_0_1_n_n.contr.Idx) :
    (dot_S32x264_S264x2_S32x2_1_0_0_1_n_n.lhsIdx i q 0).val = (i 0).val := by
  unfold DotDims.lhsIdx
  rw [dif_neg (show ¬(0 : Fin S32x264.rank) ∈ dot_S32x264_S264x2_S32x2_1_0_0_1_n_n.lhsBatch by decide), dif_pos (show (0 : Fin S32x264.rank) ∈ dot_S32x264_S264x2_S32x2_1_0_0_1_n_n.lhsNonContracting by decide)]
  rfl
theorem lhs_wc_1 (i : S32x2.Idx) (q : dot_S32x264_S264x2_S32x2_1_0_0_1_n_n.contr.Idx) :
    (dot_S32x264_S264x2_S32x2_1_0_0_1_n_n.lhsIdx i q 1).val = (q ⟨0, by decide⟩).val :=
  dot_S32x264_S264x2_S32x2_1_0_0_1_n_n.lhsIdx_val_of_single rfl i q
theorem rhs_wc_0 (i : S32x2.Idx) (q : dot_S32x264_S264x2_S32x2_1_0_0_1_n_n.contr.Idx) :
    (dot_S32x264_S264x2_S32x2_1_0_0_1_n_n.rhsIdx i q 0).val = (q ⟨0, by decide⟩).val :=
  dot_S32x264_S264x2_S32x2_1_0_0_1_n_n.rhsIdx_val_of_single rfl i q
theorem rhs_wc_1 (i : S32x2.Idx) (q : dot_S32x264_S264x2_S32x2_1_0_0_1_n_n.contr.Idx) :
    (dot_S32x264_S264x2_S32x2_1_0_0_1_n_n.rhsIdx i q 1).val = (i 1).val := by
  unfold DotDims.rhsIdx
  rw [dif_neg (show ¬(1 : Fin S264x2.rank) ∈ dot_S32x264_S264x2_S32x2_1_0_0_1_n_n.rhsBatch by decide), dif_pos (show (1 : Fin S264x2.rank) ∈ dot_S32x264_S264x2_S32x2_1_0_0_1_n_n.rhsNonContracting by decide)]
  rfl

/-- The hidden row times the classifier weights, into zero: at `(r, c)` the sum over the 264 hidden units. -/
theorem matmul_wc_apply (x : FVec Ideal S32x264 .f32) (w : FVec Ideal S264x2 .f32) (r : Fin 32) (j : Fin 2) :
    matmul dot_S32x264_S264x2_S32x2_1_0_0_1_n_n (some .fp32) x w (constant (F := Ideal) S32x2 .f32 0x00000000#32) (ix2 r j)
      = ∑ k : Fin 264, x (ix2 r k) * w (ix2 k j) := by
  simp only [matmul]
  rw [Ideal.matmul_constant_zero_apply, ← Equiv.sum_comp (contrEquiv1 dot_S32x264_S264x2_S32x2_1_0_0_1_n_n 264 rfl rfl).symm]
  refine Finset.sum_congr rfl fun k _ => ?_
  have hk := contrEquiv1_symm_val dot_S32x264_S264x2_S32x2_1_0_0_1_n_n 264 rfl rfl k
  have el : dot_S32x264_S264x2_S32x2_1_0_0_1_n_n.lhsIdx (ix2 r j) ((contrEquiv1 dot_S32x264_S264x2_S32x2_1_0_0_1_n_n 264 rfl rfl).symm k) = ix2 r k := funext fun a => Fin.ext (by
    match a with
    | ⟨0, _⟩ => exact lhs_wc_0 _ _
    | ⟨1, _⟩ => exact (lhs_wc_1 _ _).trans hk)
  have er : dot_S32x264_S264x2_S32x2_1_0_0_1_n_n.rhsIdx (ix2 r j) ((contrEquiv1 dot_S32x264_S264x2_S32x2_1_0_0_1_n_n 264 rfl rfl).symm k) = ix2 k j := funext fun a => Fin.ext (by
    match a with
    | ⟨0, _⟩ => exact (rhs_wc_0 _ _).trans hk
    | ⟨1, _⟩ => exact rhs_wc_1 _ _)
  rw [el, er]

/-! ## The two joins along the feature axis, read at an index -/

/-- The reading sums joined with the flag sums: a feature below 37 reads the reading sums. -/
theorem cat74_left (x₁ x₂ : FVec Ideal S32x37 .f32) (r : Fin 32) (f : Fin 74) (hf : f.val < 37) :
    concatenate S32x74 1 [⟨S32x37, x₁⟩, ⟨S32x37, x₂⟩] concatenates_S32x37_S32x37_S32x74_d1 (ix2 r f) = x₁ (ix2 r ⟨f.val, hf⟩) :=
  concatenate_pair_apply_left 1 x₁ x₂ _ (ix2 r f) rfl (ix2 r ⟨f.val, hf⟩) (fun b => match b with
    | ⟨0, _⟩ => rfl
    | ⟨1, _⟩ => rfl)

/-- … and a feature from 37 on reads the flag sums, 37 less. -/
theorem cat74_right (x₁ x₂ : FVec Ideal S32x37 .f32) (r : Fin 32) (f : Fin 74) (hf : ¬ f.val < 37) :
    concatenate S32x74 1 [⟨S32x37, x₁⟩, ⟨S32x37, x₂⟩] concatenates_S32x37_S32x37_S32x74_d1 (ix2 r f)
      = x₂ (ix2 r ⟨f.val - 37, by have := f.isLt; omega⟩) :=
  concatenate_pair_apply_right 1 x₁ x₂ _ (ix2 r f) rfl rfl (ix2 r ⟨f.val - 37, by have := f.isLt; omega⟩) (fun b hb => match b, hb with
    | ⟨0, _⟩, _ => rfl
    | ⟨1, _⟩, hb => absurd rfl hb) (by show f.val - 37 + 37 = f.val; omega)

/-- The pooled row joined with the static image: a column below 256 reads the pooled row. -/
theorem cat264_left (x₁ : FVec Ideal S32x256 .f32) (x₂ : FVec Ideal S32x8 .f32) (r : Fin 32) (i : Fin 264) (hi : i.val < 256) :
    concatenate S32x264 1 [⟨S32x256, x₁⟩, ⟨S32x8, x₂⟩] concatenates_S32x256_S32x8_S32x264_d1 (ix2 r i) = x₁ (ix2 r ⟨i.val, hi⟩) :=
  concatenate_pair_apply_left 1 x₁ x₂ _ (ix2 r i) rfl (ix2 r ⟨i.val, hi⟩) (fun b => match b with
    | ⟨0, _⟩ => rfl
    | ⟨1, _⟩ => rfl)

/-- … and a column from 256 on reads the static image, 256 less. -/
theorem cat264_right (x₁ : FVec Ideal S32x256 .f32) (x₂ : FVec Ideal S32x8 .f32) (r : Fin 32) (i : Fin 264) (hi : ¬ i.val < 256) :
    concatenate S32x264 1 [⟨S32x256, x₁⟩, ⟨S32x8, x₂⟩] concatenates_S32x256_S32x8_S32x264_d1 (ix2 r i)
      = x₂ (ix2 r ⟨i.val - 256, by have := i.isLt; omega⟩) :=
  concatenate_pair_apply_right 1 x₁ x₂ _ (ix2 r i) rfl rfl (ix2 r ⟨i.val - 256, by have := i.isLt; omega⟩) (fun b hb => match b, hb with
    | ⟨0, _⟩, _ => rfl
    | ⟨1, _⟩, hb => absurd rfl hb) (by show i.val - 256 + 256 = i.val; omega)

/-! ## The joined row: the pooled embedding and the static image -/

/-- A column below 256 of the joined row: the averaged features through the sensor weights, plus the biases scaled by
    the fraction of valid steps, plus the averaged time through the time weights; every average over the clipped count. -/
theorem pay5_left (vN : Vec Ideal S32x1 .f32) (vX vM : Vec Ideal S32x37 .f32) (vT : Vec Ideal S32x1 .f32)
    (ws : Vec Ideal S74x256 .f32) (wt : Vec Ideal S1x256 .f32) (bs bt : Vec Ideal S256 .f32)
    (st : Vec Ideal S32x8 .f32) (wst : Vec Ideal S8x8 .f32) (bst : Vec Ideal S8 .f32) (r : Fin 32) (i : Fin 264) (hi : i.val < 256) :
    k0_pay5 (F := Ideal) vN vX vM vT ws wt bs bt st wst bst (ix2 r i)
      = (Ideal.div (∑ f : Fin 74, concatenate S32x74 1 [⟨S32x37, vX⟩, ⟨S32x37, vM⟩] concatenates_S32x37_S32x37_S32x74_d1 (ix2 r f) * ws (ix2 f ⟨i.val, hi⟩))
            (max (Ideal.ofBits .f32 0x3089705F#32) (vN (ix2 r (0 : Fin 1))))
          + Ideal.div (vN (ix2 r (0 : Fin 1))) (max (Ideal.ofBits .f32 0x3089705F#32) (vN (ix2 r (0 : Fin 1))))
              * (bs (ix1 ⟨i.val, hi⟩) + bt (ix1 ⟨i.val, hi⟩)))
        + Ideal.div (vT (ix2 r (0 : Fin 1))) (max (Ideal.ofBits .f32 0x3089705F#32) (vN (ix2 r (0 : Fin 1))))
            * wt (ix2 (0 : Fin 1) ⟨i.val, hi⟩) := by
  unfold k0_pay5
  refine (cat264_left _ _ r i hi).trans ?_
  simp only [addf_apply, mulf_apply, divf_apply, maximumf_apply, broadcast_apply, matmul_ws_apply, broadcastTo_a1_ab_apply,
    broadcastTo_1b_ab_apply, shapeCast_a_1a_apply, shapeCast_1a_a_apply]
  rfl

/-- A column from 256 on of the joined row: the static features through the static weights, plus the static bias. -/
theorem pay5_right (vN : Vec Ideal S32x1 .f32) (vX vM : Vec Ideal S32x37 .f32) (vT : Vec Ideal S32x1 .f32)
    (ws : Vec Ideal S74x256 .f32) (wt : Vec Ideal S1x256 .f32) (bs bt : Vec Ideal S256 .f32)
    (st : Vec Ideal S32x8 .f32) (wst : Vec Ideal S8x8 .f32) (bst : Vec Ideal S8 .f32) (r : Fin 32) (i : Fin 264) (hi : ¬ i.val < 256) :
    k0_pay5 (F := Ideal) vN vX vM vT ws wt bs bt st wst bst (ix2 r i)
      = (∑ k : Fin 8, st (ix2 r k) * wst (ix2 k ⟨i.val - 256, by have := i.isLt; omega⟩))
        + bst (ix1 ⟨i.val - 256, by have := i.isLt; omega⟩) := by
  unfold k0_pay5
  refine (cat264_right _ _ r i hi).trans ?_
  simp only [addf_apply, matmul_st_apply, broadcastTo_1b_ab_apply, shapeCast_a_1a_apply]

/-- On the finished sums of a tile, the joined row is the specification's: the pooled embedding (averaged first, embedded
    once), then the static image. -/
theorem pay5_spec (I : Cert.Pool.Inp) (bi : Fin 4)
    (vN : Vec Ideal S32x1 .f32) (vX vM : Vec Ideal S32x37 .f32) (vT : Vec Ideal S32x1 .f32)
    (st : Vec Ideal S32x8 .f32) (ws : Vec Ideal S74x256 .f32) (bs : Vec Ideal S256 .f32) (wt : Vec Ideal S1x256 .f32) (bt : Vec Ideal S256 .f32)
    (wst : Vec Ideal S8x8 .f32) (bst : Vec Ideal S8 .f32)
    (hN : ∀ r : Fin 32, vN (ix2 r (0 : Fin 1)) = Cert.Pool.raw I (row bi r))
    (hX : ∀ (r : Fin 32) (s : Fin 37), vX (ix2 r s) = Cert.Pool.accF I (row bi r) ⟨s.val, by have := s.isLt; omega⟩)
    (hM : ∀ (r : Fin 32) (s : Fin 37), vM (ix2 r s) = Cert.Pool.accF I (row bi r) ⟨37 + s.val, by have := s.isLt; omega⟩)
    (hT : ∀ r : Fin 32, vT (ix2 r (0 : Fin 1)) = Cert.Pool.accT I (row bi r))
    (hst : ∀ (r : Fin 32) (k : Fin 8), st (ix2 r k) = I.st (row bi r) k)
    (hws : ∀ (f : Fin 74) (d : Fin 256), ws (ix2 f d) = I.ws f d) (hbs : ∀ d : Fin 256, bs (ix1 d) = I.bs d)
    (hwt : ∀ d : Fin 256, wt (ix2 (0 : Fin 1) d) = I.wt d) (hbt : ∀ d : Fin 256, bt (ix1 d) = I.bt d)
    (hwst : ∀ k j : Fin 8, wst (ix2 k j) = I.wst k j) (hbst : ∀ j : Fin 8, bst (ix1 j) = I.bst j)
    (r : Fin 32) (i : Fin 264) :
    k0_pay5 (F := Ideal) vN vX vM vT ws wt bs bt st wst bst (ix2 r i) = Cert.Pool.comb I (Cert.Pool.pooledK I) (row bi r) i := by
  have hcat : ∀ f : Fin 74, concatenate S32x74 1 [⟨S32x37, vX⟩, ⟨S32x37, vM⟩] concatenates_S32x37_S32x37_S32x74_d1 (ix2 r f)
      = Cert.Pool.accF I (row bi r) f := by
    intro f
    by_cases hf : f.val < 37
    · rw [cat74_left vX vM r f hf, hX r ⟨f.val, hf⟩]
    · rw [cat74_right vX vM r f hf, hM r ⟨f.val - 37, by have := f.isLt; omega⟩]
      exact congrArg (Cert.Pool.accF I (row bi r)) (Fin.ext (by show 37 + (f.val - 37) = f.val; omega))
  unfold Cert.Pool.comb
  by_cases hi : i.val < 256
  · rw [dif_pos hi, pay5_left vN vX vM vT ws wt bs bt st wst bst r i hi]
    unfold Cert.Pool.pooledK Cert.Pool.den Cert.Pool.eps
    simp only [hcat, hN r, hT r, hws, hbs, hbt, hwt]
  · rw [dif_neg hi, pay5_right vN vX vM vT ws wt bs bt st wst bst r i hi]
    unfold Cert.Pool.se
    simp only [hst, hwst, hbst]

/-! ## The head: one rectified hidden layer and the classifier -/

/-- The head on any joined row: at `(r, c)` the classifier's sum over the rectified hidden units, plus its bias. -/
theorem pay4_apply (v89 : FVec Ideal S32x264 .f32) (wm : Vec Ideal S264x264 .f32) (bm : Vec Ideal S264 .f32)
    (wc : Vec Ideal S264x2 .f32) (bc : Vec Ideal S2 .f32) (r : Fin 32) (c : Fin 2) :
    k0_pay4 (F := Ideal) v89 wm bm wc bc (ix2 r c)
      = (∑ j : Fin 264, max ((∑ i : Fin 264, v89 (ix2 r i) * wm (ix2 i j)) + bm (ix1 j)) 0 * wc (ix2 j c)) + bc (ix1 c) := by
  unfold k0_pay4
  simp only [addf_apply, maximumf_apply, broadcast_apply, matmul_wc_apply, matmul_wm_apply, broadcastTo_1b_ab_apply,
    shapeCast_a_1a_apply, Ideal.ofBits_def, Ideal.ofBits_zero_f32]

/-! ## The output block of a tile -/

/-- THE EPILOGUE AT AN INDEX: on the finished sums of batch tile `bi`, the body's output at row `r` and class `c` is the
    specification's `outK` at the tile's row. -/
theorem epilogue_apply (I : Cert.Pool.Inp) (bi : Fin 4)
    (vN : Vec Ideal S32x1 .f32) (vX vM : Vec Ideal S32x37 .f32) (vT : Vec Ideal S32x1 .f32)
    (st : Vec Ideal S32x8 .f32) (ws : Vec Ideal S74x256 .f32) (bs : Vec Ideal S256 .f32) (wt : Vec Ideal S1x256 .f32) (bt : Vec Ideal S256 .f32)
    (wst : Vec Ideal S8x8 .f32) (bst : Vec Ideal S8 .f32) (wm : Vec Ideal S264x264 .f32) (bm : Vec Ideal S264 .f32) (wc : Vec Ideal S264x2 .f32) (bc : Vec Ideal S2 .f32)
    (hN : ∀ r : Fin 32, vN (ix2 r (0 : Fin 1)) = Cert.Pool.raw I (row bi r))
    (hX : ∀ (r : Fin 32) (s : Fin 37), vX (ix2 r s) = Cert.Pool.accF I (row bi r) ⟨s.val, by have := s.isLt; omega⟩)
    (hM : ∀ (r : Fin 32) (s : Fin 37), vM (ix2 r s) = Cert.Pool.accF I (row bi r) ⟨37 + s.val, by have := s.isLt; omega⟩)
    (hT : ∀ r : Fin 32, vT (ix2 r (0 : Fin 1)) = Cert.Pool.accT I (row bi r))
    (hst : ∀ (r : Fin 32) (k : Fin 8), st (ix2 r k) = I.st (row bi r) k)
    (hws : ∀ (f : Fin 74) (d : Fin 256), ws (ix2 f d) = I.ws f d) (hbs : ∀ d : Fin 256, bs (ix1 d) = I.bs d)
    (hwt : ∀ d : Fin 256, wt (ix2 (0 : Fin 1) d) = I.wt d) (hbt : ∀ d : Fin 256, bt (ix1 d) = I.bt d)
    (hwst : ∀ k j : Fin 8, wst (ix2 k j) = I.wst k j) (hbst : ∀ j : Fin 8, bst (ix1 j) = I.bst j)
    (hwm : ∀ i j : Fin 264, wm (ix2 i j) = I.wm i j) (hbm : ∀ j : Fin 264, bm (ix1 j) = I.bm j)
    (hwc : ∀ (j : Fin 264) (c : Fin 2), wc (ix2 j c) = I.wc j c) (hbc : ∀ c : Fin 2, bc (ix1 c) = I.bc c)
    (r : Fin 32) (c : Fin 2) :
    k0_pay4 (F := Ideal) (k0_pay5 (F := Ideal) vN vX vM vT ws wt bs bt st wst bst) wm bm wc bc (ix2 r c) = Cert.Pool.outK I (row bi r) c := by
  rw [pay4_apply]
  unfold Cert.Pool.outK Cert.Pool.head Cert.Pool.hid
  simp only [pay5_spec I bi vN vX vM vT st ws bs wt bt wst bst hN hX hM hT hst hws hbs hwt hbt hwst hbst r, hwm, hbm, hwc, hbc]

end Cert.KernelIdeal.Blk

end
-- ==== Proof.KernelBlockValue.lean ====
/-
  The output block at (row in tile, class) is `outK` at (row, class), when the blocks read are the batch tile's
  slices of the argument arrays: the four masked sums are the specification's sums over all 2048 steps (first time
  tile plus second), and the epilogue maps them as the specification's head maps the pooled row.
-/
import proofs.«402645_j23527830847742_3_alg».proof.Proof.KernelSums
import proofs.«402645_j23527830847742_3_alg».proof.Proof.KernelEpilogue

noncomputable section

namespace Cert.KernelIdeal.Blk

open Idealize.ShloMosaic Idealize.ShloMosaic.ValueIdx Cert.KernelIdeal Cert.KernelIdeal.Gen

theorem blockOut_apply (I : Cert.Pool.Inp) (bi : Fin 4)
    (xA : Vec Ideal S32x37x1024 .f32) (mA : Vec Ideal S32x37x1024 .i32) (tA : Vec Ideal S32x1024 .f32)
    (xB : Vec Ideal S32x37x1024 .f32) (mB : Vec Ideal S32x37x1024 .i32) (tB : Vec Ideal S32x1024 .f32)
    (st : Vec Ideal S32x8 .f32) (ws : Vec Ideal S74x256 .f32) (bs : Vec Ideal S256 .f32) (wt : Vec Ideal S1x256 .f32) (bt : Vec Ideal S256 .f32)
    (wst : Vec Ideal S8x8 .f32) (bst : Vec Ideal S8 .f32) (wm : Vec Ideal S264x264 .f32) (bm : Vec Ideal S264 .f32)
    (wc : Vec Ideal S264x2 .f32) (bc : Vec Ideal S2 .f32)
    (hxA : ∀ (r : Fin 32) (s : Fin 37) (q : Fin 1024), xA (ix3 r s q) = I.x (row bi r) s (lo q))
    (hxB : ∀ (r : Fin 32) (s : Fin 37) (q : Fin 1024), xB (ix3 r s q) = I.x (row bi r) s (hi q))
    (hmA : ∀ (r : Fin 32) (s : Fin 37) (q : Fin 1024), (((mA (ix3 r s q)).toInt : ℝ) : EReal) = I.mf (row bi r) s (lo q))
    (hmB : ∀ (r : Fin 32) (s : Fin 37) (q : Fin 1024), (((mB (ix3 r s q)).toInt : ℝ) : EReal) = I.mf (row bi r) s (hi q))
    (htA : ∀ (r : Fin 32) (q : Fin 1024), tA (ix2 r q) = I.tm (row bi r) (lo q))
    (htB : ∀ (r : Fin 32) (q : Fin 1024), tB (ix2 r q) = I.tm (row bi r) (hi q))
    (hst : ∀ (r : Fin 32) (k : Fin 8), st (ix2 r k) = I.st (row bi r) k)
    (hws : ∀ (f : Fin 74) (d : Fin 256), ws (ix2 f d) = I.ws f d) (hbs : ∀ d : Fin 256, bs (ix1 d) = I.bs d)
    (hwt : ∀ d : Fin 256, wt (ix2 (0 : Fin 1) d) = I.wt d) (hbt : ∀ d : Fin 256, bt (ix1 d) = I.bt d)
    (hwst : ∀ k j : Fin 8, wst (ix2 k j) = I.wst k j) (hbst : ∀ j : Fin 8, bst (ix1 j) = I.bst j)
    (hwm : ∀ i j : Fin 264, wm (ix2 i j) = I.wm i j) (hbm : ∀ j : Fin 264, bm (ix1 j) = I.bm j)
    (hwc : ∀ (j : Fin 264) (c : Fin 2), wc (ix2 j c) = I.wc j c) (hbc : ∀ c : Fin 2, bc (ix1 c) = I.bc c)
    (r : Fin 32) (c : Fin 2) :
    blockOut (F := Ideal) xA mA tA xB mB tB st ws bs wt bt wst bst wm bm wc bc (ix2 r c) = Cert.Pool.outK I (row bi r) c := by
  unfold blockOut
  exact epilogue_apply I bi (sumN xA mA xB mB) (sumX xA mA xB mB) (sumM xA mA xB mB) (sumT xA mA tA xB mB tB)
    st ws bs wt bt wst bst wm bm wc bc
    (fun r => sumN_apply I bi xA xB mA mB hxA hxB hmA hmB r)
    (fun r s => sumX_apply I bi xA xB mA mB hxA hxB hmA hmB r s)
    (fun r s => sumM_apply I bi xA xB mA mB hxA hxB hmA hmB r s)
    (fun r => sumT_apply I bi xA xB mA mB tA tB hxA hxB hmA hmB htA htB r)
    hst hws hbs hwt hbt hwst hbst hwm hbm hwc hbc r c

end Cert.KernelIdeal.Blk

end
-- ==== Proof.KernelFinal.lean ====
/-
  The output array after the run: at every index, the function `outK` of the launched argument arrays.

  Only a batch tile's second time tile writes its output block back; those four blocks (rows 32·b … 32·b + 31, both
  classes) tile the [128, 2] array, and each holds the epilogue's value on the sums over both time tiles, which is
  `outK` at the block's rows.
-/
import proofs.«402645_j23527830847742_3_alg».proof.Proof.KernelFlushed
import proofs.«402645_j23527830847742_3_alg».proof.Proof.KernelReads
import proofs.«402645_j23527830847742_3_alg».proof.Proof.KernelBlockValue
import Idealize.ShloMosaic.Lib.Pipeline.Value

noncomputable section

namespace Cert.KernelIdeal.Out

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The inputs of the specification, read off the launched memory. -/
def inp (c : Dev nD) : Cert.Pool.Inp :=
  Cert.Pool.ofArrays (V m c main_arg0) (V m c main_arg1) (V m c main_arg2) (V m c main_arg3) (V m c main_arg4) (V m c main_arg5)
    (V m c main_arg6) (V m c main_arg7) (V m c main_arg8) (V m c main_arg9) (V m c main_arg10) (V m c main_arg11)
    (V m c main_arg12) (V m c main_arg13)

/-- The output array: `outK` of those inputs at (row, class). -/
def G (c : Dev nD) : S128x2.Idx → EReal := fun i => Cert.Pool.outK (inp m c) (i 0) (i 1)

/-- A batch tile's block value at (row in tile, class) is `outK` at (row, class). -/
theorem blockAt_apply (c : Dev nD) (t : Fin cfg0.N) (h1 : t.val % 2 = 1) (r : Fin 32) (k : Fin 2) :
    blockAt m c t (ix2 r k) = Cert.Pool.outK (inp m c) (rowAt t r) k := by
  have hN : t.val < 8 := lt_of_lt_of_eq t.isLt (show cfg0.N = 8 from N_0)
  have hrow : ∀ r' : Fin 32, rowAt t r' = Blk.row ⟨t.val / 2, tdiv_lt t⟩ r' := fun _ => rfl
  have hrowp : ∀ r' : Fin 32, rowAt (prev t) r' = Blk.row ⟨t.val / 2, tdiv_lt t⟩ r' := fun r' =>
    Fin.ext (by show 32 * ((t.val - 1) / 2) + r'.val = 32 * (t.val / 2) + r'.val; omega)
  have hlo : ∀ q : Fin 1024, stepAt (prev t) q = Blk.lo q := fun q =>
    Fin.ext (by show 1024 * ((t.val - 1) % 2) + q.val = q.val; omega)
  have hhi : ∀ q : Fin 1024, stepAt t q = Blk.hi q := fun q =>
    Fin.ext (by show 1024 * (t.val % 2) + q.val = 1024 + q.val; omega)
  rw [hrow]
  unfold blockAt
  exact Blk.blockOut_apply (inp m c) ⟨t.val / 2, tdiv_lt t⟩
    (iblk m c 0 (prev t)) (iblk m c 1 (prev t)) (iblk m c 2 (prev t)) (iblk m c 0 t) (iblk m c 1 t) (iblk m c 2 t)
    (iblk m c 3 t) (iblk m c 4 t) (iblk m c 5 t) (iblk m c 6 t) (iblk m c 7 t) (iblk m c 8 t) (iblk m c 9 t)
    (iblk m c 10 t) (iblk m c 11 t) (iblk m c 12 t) (iblk m c 13 t)
    (fun r' s q => by rw [read0 m c (prev t) r' s q, hrowp, hlo]; rfl)
    (fun r' s q => by rw [read0 m c t r' s q, hrow, hhi]; rfl)
    (fun r' s q => by rw [read1 m c (prev t) r' s q, hrowp, hlo]; rfl)
    (fun r' s q => by rw [read1 m c t r' s q, hrow, hhi]; rfl)
    (fun r' q => by rw [read2 m c (prev t) r' q, hrowp, hlo]; rfl)
    (fun r' q => by rw [read2 m c t r' q, hrow, hhi]; rfl)
    (fun r' k' => by rw [read3 m c t r' k', hrow]; rfl)
    (fun f d => by rw [read4 m c t (ix2 f d)]; rfl)
    (fun d => by rw [read5 m c t (ix1 d)]; rfl)
    (fun d => by rw [read6 m c t (ix2 (0 : Fin 1) d)]; rfl)
    (fun d => by rw [read7 m c t (ix1 d)]; rfl)
    (fun k' j => by rw [read8 m c t (ix2 k' j)]; rfl)
    (fun j => by rw [read9 m c t (ix1 j)]; rfl)
    (fun i j => by rw [read10 m c t (ix2 i j)]; rfl)
    (fun j => by rw [read11 m c t (ix1 j)]; rfl)
    (fun j c' => by rw [read12 m c t (ix2 j c')]; rfl)
    (fun c' => by rw [read13 m c t (ix1 c')]; rfl)
    r k

theorem hz2' : (![0, 0] : Fin 2 → Nat) = fun _ => 0 := funext fun a => by fin_cases a <;> rfl

/-- WHAT A SECOND TIME TILE WRITES BACK is its block of `G`. -/
theorem flushed_eq (c : Dev nD) (t : Fin cfg0.N) (h1 : t.val % 2 = 1) :
    (dats m 0 c).flushed 14 t = ((cfg0.win 14).blk t).view.read (Elt Ideal) (G m c) := by
  rw [flushed_odd m c t h1]
  obtain ⟨-, -, -, -, -, -, -, -, -, -, e0, e1⟩ := idx_moving t
  funext j
  obtain ⟨r, k, rfl⟩ : ∃ (r : Fin 32) (k : Fin 2), j = ix2 r k := ⟨j 0, j 1, eq_ix2 j⟩
  show blockAt m c t (ix2 r k) = G m c (((cfg0.win 14).blk t).view.emb (ix2 r k))
  rw [blockAt_apply m c t h1 r k]
  unfold G
  have hr : (((cfg0.win 14).blk t).view.emb (ix2 r k)) 0 = rowAt t r := by
    apply Fin.ext
    show win0_14.index t (0 : Fin 2) * 32 + 1 * r.val = 32 * (t.val / 2) + r.val
    omega
  have hk : (((cfg0.win 14).blk t).view.emb (ix2 r k)) 1 = k := by
    apply Fin.ext
    show win0_14.index t (1 : Fin 2) * 2 + 1 * k.val = k.val
    omega
  rw [hr, hk]

/-- An index of the array is in point `t`'s block iff each coordinate is in the block's range on its axis. -/
theorem mem_blk14 (t : Fin cfg0.N) (i : S128x2.Idx) :
    i ∈ ((cfg0.win 14).blk t).view.set ↔ ∀ a : Fin 2, win0_14.index t a * S32x2.size a ≤ (i a).val ∧ (i a).val < win0_14.index t a * S32x2.size a + S32x2.size a := by
  show i ∈ ((View.whole main_v0).slice (win0_14.rect t)).set ↔ _
  rw [View.set_slice_whole, Rect.mem_set_unit]
  exact Iff.rfl

/-- Every index is in the block of its batch tile's second time tile, which writes back. -/
theorem cover (i : S128x2.Idx) :
    ∃ t : Fin cfg0.N, (cfg0.win 14).flush t = true ∧ i ∈ ((cfg0.win 14).blk t).view.set := by
  have hi0 : (i 0).val < 128 := (i 0).isLt
  have hi1 : (i 1).val < 2 := (i 1).isLt
  have hN : cfg0.N = 8 := N_0
  let t : Fin cfg0.N := ⟨2 * ((i 0).val / 32) + 1, by rw [hN]; omega⟩
  have htv : t.val = 2 * ((i 0).val / 32) + 1 := rfl
  obtain ⟨-, -, -, -, -, -, -, -, -, -, e0, e1⟩ := idx_moving t
  refine ⟨t, (flush0_14 t).mpr (by rw [htv]; omega), ?_⟩
  rw [mem_blk14]
  intro a
  match a with
  | ⟨0, _⟩ => show win0_14.index t (0 : Fin 2) * 32 ≤ (i 0).val ∧ (i 0).val < win0_14.index t (0 : Fin 2) * 32 + 32; omega
  | ⟨1, _⟩ => show win0_14.index t (1 : Fin 2) * 2 ≤ (i 1).val ∧ (i 1).val < win0_14.index t (1 : Fin 2) * 2 + 2; omega

/-- THE ARRAY after the run. -/
theorem final (c : Dev nD) : (dats m 0 c).arrAt 14 cfg0.N = G m c :=
  (dats m 0 c).arrAt_eq_of_cover 14 (G m c) (fun t hf => flushed_eq m c t ((flush0_14 t).mp hf)) (cover)

/-- The kernel's run with its result array named as `G`, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Out

end
-- ==== Proof.RefMask.lean ====
/-
  The reference's features and its validity mask, read index by index.

  The feature array joins, along its last axis, the readings with the axes (sensor, step) exchanged and the
  presence flags, exchanged likewise and read as reals: at (row, step, f) it is the reading of sensor f when
  f < 37 and the flag of sensor f - 37 otherwise (`ref_feat`). The mask compares every feature with zero,
  widens the one-bit answers to words that are 0 or 1, adds the 74 words of a step, asks whether the sum is
  positive, and reads the one-bit answer as a real. A sum of at most 74 words that are 0 or 1 does not wrap, so
  it is the NUMBER of features that are not zero, and it is positive exactly when some feature is not zero: when
  some sensor's reading or flag is not zero. So the mask at (row, step) is the indicator of a valid step
  (`ref_step`).
-/
import proofs.«402645_j23527830847742_3_alg».proof.Proof.RefRead
import proofs.«402645_j23527830847742_3_alg».proof.Proof.Spec
import Idealize.ShloMosaic.Lib.Pipeline.Value
import Idealize.ShloMosaic.Lib.StableHlo.Predicate
import Idealize.ShloMosaic.Lib.ValueIdx
import Idealize.ShloMosaic.PureOps.Reduce
import Idealize.ShloMosaic.PureOps.Ideal.Laws

noncomputable section

namespace Cert.ReferenceIdeal.Ref

open Cert.ReferenceIdeal Cert.ReferenceIdeal.Gen Idealize.ShloMosaic Idealize.ShloMosaic.ValueIdx Idealize.ShloMosaic.StableHlo
open scoped BigOperators

/-! ## Counting the set bits of a step's 74 answers -/

/-- The shape relation of the sum over the last axis, in the form that names the index over a result index. -/
theorem red_feat : S128x2048x74.Reduces [2] S128x2048 := by decide

/-- The index over (row, step) whose last coordinate is `k` is (row, step, k). -/
theorem lift_feat (b : Fin 128) (t : Fin 2048) (k : Fin 74) : red_feat.lift (ix2 b t) k = ix3 b t k := by
  funext c
  apply Fin.ext
  match c with
  | ⟨0, _⟩ => rfl
  | ⟨1, _⟩ => rfl
  | ⟨2, _⟩ => rfl

/-- Words that are the widened bits `g k`, added over the last axis from zero, give at (row, step) the number of
    `k` whose bit is set: 74 words that are 0 or 1 do not wrap. -/
theorem count_reduce (h' : S128x2048x74.ReducesTo [2] S128x2048) {u : Shape} (hu : 0 < u.numel)
    (y : S128x2048x74.Idx → BitVec 32) (init : u.Idx → BitVec 32) (hinit : ∀ i, init i = 0#32) (b : Fin 128) (t : Fin 2048)
    (g : Fin 74 → BitVec 1) (hy : ∀ k, y (ix3 b t k) = (g k).setWidth 32) :
    (Host.reduce IntOp.addi y init h' hu (ix2 b t)).toNat = (Finset.univ.filter fun k : Fin 74 => g k = 1#1).card := by
  classical
  rw [Host.reduce_eq_fold_single IntOp.addi y init h' red_feat hu (ix2 b t), hinit]
  show (Finset.fold IntOp.addi 0#32 (fun k : Fin 74 => y (red_feat.lift (ix2 b t) k)) Finset.univ).toNat = _
  have hval : ∀ k : Fin 74, (y (red_feat.lift (ix2 b t) k)).toNat = if g k = 1#1 then 1 else 0 := fun k => by
    rw [lift_feat, hy, Predicate.toNat_setWidth_bit]
  have hsum : ∑ k : Fin 74, (y (red_feat.lift (ix2 b t) k)).toNat = (Finset.univ.filter fun k : Fin 74 => g k = 1#1).card := by
    rw [Finset.card_filter]
    exact Finset.sum_congr rfl fun k _ => hval k
  rw [Predicate.toNat_fold_addi _ _ (by rw [hsum]; exact lt_of_le_of_lt (Finset.card_le_univ _) (by simp)), hsum]

/-! ## The features -/

/-- Exchanging the last two axes: (row, step, sensor) reads (row, sensor, step), for the readings … -/
theorem idx0_eq (b : Fin 128) (t : Fin 2048) (s : Fin 37) : ReadP.idx_main_v0 (ix3 b t s) = ix3 b s t := by
  funext a
  apply Fin.ext
  match a with
  | ⟨0, _⟩ => rfl
  | ⟨1, _⟩ => rfl
  | ⟨2, _⟩ => rfl

/-- … and for the flags. -/
theorem idx1_eq (b : Fin 128) (t : Fin 2048) (s : Fin 37) : ReadP.idx_main_v1 (ix3 b t s) = ix3 b s t := by
  funext a
  apply Fin.ext
  match a with
  | ⟨0, _⟩ => rfl
  | ⟨1, _⟩ => rfl
  | ⟨2, _⟩ => rfl

/-- The feature array at (row, step, f): the reading of sensor f below 37, the flag of sensor f - 37 from 37 on. -/
theorem ref_feat (x0 : (⟨S128x37x2048, .f32⟩ : BufTy).Contents (Elt Ideal)) (x3 : (⟨S128x37x2048, .i32⟩ : BufTy).Contents (Elt Ideal))
    (I : Cert.Pool.Inp)
    (hx : ∀ (b : Fin 128) (s : Fin 37) (t : Fin 2048), x0 (ix3 b s t) = I.x b s t)
    (hm : ∀ (b : Fin 128) (s : Fin 37) (t : Fin 2048), (((x3 (ix3 b s t)).toInt : ℝ) : EReal) = I.mf b s t)
    (b : Fin 128) (t : Fin 2048) (f : Fin 74) :
    ReadP.val_main_v3 (F := Ideal) x0 x3 (ix3 b t f) = Cert.Pool.feat I b t f := by
  unfold ReadP.val_main_v3 Cert.Pool.feat
  by_cases h : f.val < 37
  · rw [dif_pos h]
    refine (concatenate_pair_apply_left (t := S128x2048x74) (s₁ := S128x2048x37) (s₂ := S128x2048x37) _ _ _ _ (ix3 b t f) rfl (ix3 b t (⟨f.val, h⟩ : Fin 37)) (fun a => by
      match a with
      | ⟨0, _⟩ => rfl
      | ⟨1, _⟩ => rfl
      | ⟨2, _⟩ => rfl)).trans ?_
    rw [ReadP.val_main_v0_apply, idx0_eq]
    exact hx b ⟨f.val, h⟩ t
  · rw [dif_neg h]
    have h2 : f.val - 37 < 37 := by have := f.isLt; omega
    refine (concatenate_pair_apply_right (t := S128x2048x74) (s₁ := S128x2048x37) (s₂ := S128x2048x37) _ _ _ _ (ix3 b t f) rfl rfl (ix3 b t (⟨f.val - 37, h2⟩ : Fin 37)) (fun a ha => by
      match a, ha with
      | ⟨0, _⟩, _ => rfl
      | ⟨1, _⟩, _ => rfl
      | ⟨2, _⟩, ha => exact absurd rfl ha) (by show f.val - 37 + 37 = f.val; omega)).trans ?_
    rw [ReadP.val_main_v2_apply, ReadP.val_main_v1_apply, idx1_eq]
    exact hm b ⟨f.val - 37, h2⟩ t

/-! ## The mask -/

/-- Some sensor's reading or flag is not zero exactly when some feature is not zero. -/
theorem valid_iff (I : Cert.Pool.Inp) (b : Fin 128) (t : Fin 2048) :
    Cert.Pool.valid I b t ↔ ∃ f : Fin 74, Cert.Pool.feat I b t f ≠ 0 := by
  unfold Cert.Pool.valid Cert.Pool.feat
  constructor
  · rintro ⟨s, hs | hs⟩
    · have h : s.val < 37 := s.isLt
      exact ⟨⟨s.val, by omega⟩, by rw [dif_pos (show s.val < 37 from h)]; exact hs⟩
    · have h : s.val < 37 := s.isLt
      refine ⟨⟨s.val + 37, by omega⟩, ?_⟩
      rw [dif_neg (show ¬ s.val + 37 < 37 by omega)]
      have e : (⟨s.val + 37 - 37, by omega⟩ : Fin 37) = s := Fin.ext (by show s.val + 37 - 37 = s.val; omega)
      rw [e]; exact hs
  · rintro ⟨f, hf⟩
    by_cases h : f.val < 37
    · rw [dif_pos h] at hf
      exact ⟨⟨f.val, h⟩, Or.inl hf⟩
    · rw [dif_neg h] at hf
      exact ⟨⟨f.val - 37, by have := f.isLt; omega⟩, Or.inr hf⟩

/-- The mask at (row, step): one when the step is valid, zero otherwise. -/
theorem ref_step (x0 : (⟨S128x37x2048, .f32⟩ : BufTy).Contents (Elt Ideal)) (x3 : (⟨S128x37x2048, .i32⟩ : BufTy).Contents (Elt Ideal))
    (I : Cert.Pool.Inp)
    (hx : ∀ (b : Fin 128) (s : Fin 37) (t : Fin 2048), x0 (ix3 b s t) = I.x b s t)
    (hm : ∀ (b : Fin 128) (s : Fin 37) (t : Fin 2048), (((x3 (ix3 b s t)).toInt : ℝ) : EReal) = I.mf b s t)
    (b : Fin 128) (t : Fin 2048) :
    ReadP.val_main_v10 (F := Ideal) x0 x3 (ix2 b t) = Cert.Pool.step I b t := by
  -- the comparison's second operand is zero everywhere
  have hv4 : ∀ i, ReadP.val_main_v4 (F := Ideal) i = 0 := fun i => by
    rw [ReadP.val_main_v4_apply, ReadP.val_main_cst_apply]
    exact Ideal.ofBits_zero_f32
  -- a feature's answer is set exactly when the feature is not zero
  have hv5 : ∀ k : Fin 74, ReadP.val_main_v5 (F := Ideal) x0 x3 (ix3 b t k) = 1#1 ↔ Cert.Pool.feat I b t k ≠ 0 := fun k => by
    rw [ReadP.val_main_v5_apply, ref_feat x0 x3 I hx hm, hv4]
    show BitVec.ofBool (decide (Cert.Pool.feat I b t k ≠ 0)) = 1#1 ↔ _
    rw [Predicate.ofBool_eq_one_iff, decide_eq_true_eq]
  -- the sum of the widened answers is the number of features that are not zero
  have hcount : (ReadP.val_main_v7 (F := Ideal) x0 x3 (ix2 b t)).toNat
      = (Finset.univ.filter fun k : Fin 74 => ReadP.val_main_v5 (F := Ideal) x0 x3 (ix3 b t k) = 1#1).card :=
    count_reduce _ _ (ReadP.val_main_v6 (F := Ideal) x0 x3) (ReadP.val_main_c (F := Ideal)) (fun _ => rfl) b t
      (fun k => ReadP.val_main_v5 (F := Ideal) x0 x3 (ix3 b t k)) (fun _ => rfl)
  have hle : (ReadP.val_main_v7 (F := Ideal) x0 x3 (ix2 b t)).toNat < 2 ^ 31 := by
    rw [hcount]
    exact lt_of_le_of_lt (Finset.card_le_univ _) (by simp)
  have hsgt : IntOp.cmpi .sgt (ReadP.val_main_v7 (F := Ideal) x0 x3 (ix2 b t)) 0#32 = 1#1
      ↔ 0 < (ReadP.val_main_v7 (F := Ideal) x0 x3 (ix2 b t)).toNat :=
    Predicate.sgt_iff_toNat hle (by decide)
  rw [ReadP.val_main_v10_apply, ReadP.val_main_v9_apply, ReadP.val_main_v8_apply, ReadP.val_main_c_0_apply]
  unfold Cert.Pool.step
  by_cases hvalid : Cert.Pool.valid I b t
  · rw [if_pos hvalid]
    obtain ⟨f, hf⟩ := (valid_iff I b t).1 hvalid
    have hpos : 0 < (ReadP.val_main_v7 (F := Ideal) x0 x3 (ix2 b t)).toNat := by
      rw [hcount]
      exact Finset.card_pos.2 ⟨f, Finset.mem_filter.2 ⟨Finset.mem_univ _, (hv5 f).2 hf⟩⟩
    rw [hsgt.2 hpos]
    show (((1#1 : BitVec 1).toNat : ℝ) : EReal) = 1
    simp
  · rw [if_neg hvalid]
    have hzero : ¬ 0 < (ReadP.val_main_v7 (F := Ideal) x0 x3 (ix2 b t)).toNat := by
      rw [hcount, Finset.card_pos]
      rintro ⟨f, hf⟩
      exact hvalid ((valid_iff I b t).2 ⟨f, (hv5 f).1 (Finset.mem_filter.1 hf).2⟩)
    rw [eq_zero_of_ne_one (fun e => hzero (hsgt.1 e))]
    show (((0#1 : BitVec 1).toNat : ℝ) : EReal) = 0
    simp

end Cert.ReferenceIdeal.Ref

end
-- ==== Proof.RefOut.lean ====
/-
  The reference's result at one index. The reference embeds every step of a row (the step's 74 features through the
  sensor weights, plus the sensor bias, plus the step's time times the time weights, plus the time bias), multiplies
  each embedding by the step's validity indicator, sums over the 2048 steps and divides by the clipped number of valid
  steps; it joins that pooled row with the affine image of the row's static features, and maps the joined row through
  the hidden layer, the rectifier and the classifier. Read one element at a time, in program order, each of these
  arrays is the function of the same name in the specification, and the last one is its result outR.
-/
import proofs.«402645_j23527830847742_3_alg».proof.Proof.RefRead
import proofs.«402645_j23527830847742_3_alg».proof.Proof.Spec
import Idealize.ShloMosaic.Lib.Pipeline.Value
import Idealize.ShloMosaic.Lib.ValueIdx
import Idealize.ShloMosaic.PureOps.Ideal.Laws

noncomputable section

namespace Cert.ReferenceIdeal.Ref

open Cert.ReferenceIdeal Cert.ReferenceIdeal.Gen Cert.ReferenceIdeal.ReadP Idealize.ShloMosaic Idealize.ShloMosaic.ValueIdx
open scoped BigOperators

variable (x0 : (⟨S128x37x2048, .f32⟩ : BufTy).Contents (Elt Ideal))
  (x1 : (⟨S128x8, .f32⟩ : BufTy).Contents (Elt Ideal))
  (x2 : (⟨S128x2048, .f32⟩ : BufTy).Contents (Elt Ideal))
  (x3 : (⟨S128x37x2048, .i32⟩ : BufTy).Contents (Elt Ideal))
  (x4 : (⟨S74x256, .f32⟩ : BufTy).Contents (Elt Ideal))
  (x5 : (⟨S256, .f32⟩ : BufTy).Contents (Elt Ideal))
  (x6 : (⟨S1x256, .f32⟩ : BufTy).Contents (Elt Ideal))
  (x7 : (⟨S256, .f32⟩ : BufTy).Contents (Elt Ideal))
  (x8 : (⟨S8x8, .f32⟩ : BufTy).Contents (Elt Ideal))
  (x9 : (⟨S8, .f32⟩ : BufTy).Contents (Elt Ideal))
  (x10 : (⟨S264x264, .f32⟩ : BufTy).Contents (Elt Ideal))
  (x11 : (⟨S264, .f32⟩ : BufTy).Contents (Elt Ideal))
  (x12 : (⟨S264x2, .f32⟩ : BufTy).Contents (Elt Ideal))
  (x13 : (⟨S2, .f32⟩ : BufTy).Contents (Elt Ideal))

/-- The inputs read off the fourteen arrays. -/
local notation "II" => Cert.Pool.ofArrays x0 x1 x2 x3 x4 x5 x6 x7 x8 x9 x10 x11 x12 x13

/-! ## The embedding of one step -/

/-- The sensor bias, broadcast over rows and steps, at (b, t, d) is the bias at d. -/
theorem v13_at (b : Fin 128) (t : Fin 2048) (d : Fin 256) :
    val_main_v13 (F := Ideal) x5 (ix3 b t d) = x5 (ix1 d) :=
  (val_main_v13_apply x5 _).trans ((val_main_v12_apply x5 _).trans
    (congrArg x5 (funext fun a => by match a with | ⟨0, _⟩ => rfl)))

/-- The times, broadcast over the embedding axis, at (b, t, d) are the time of step t of row b. -/
theorem v18_at (b : Fin 128) (t : Fin 2048) (d : Fin 256) :
    val_main_v18 (F := Ideal) x2 (ix3 b t d) = x2 (ix2 b t) :=
  (val_main_v18_apply x2 _).trans ((val_main_v15_apply x2 _).trans
    (congrArg x2 (funext fun a => by match a with | ⟨0, _⟩ => rfl | ⟨1, _⟩ => rfl)))

/-- The time weights, reshaped to a vector and broadcast over rows and steps, at (b, t, d) are the weight at (0, d). -/
theorem v19_at (b : Fin 128) (t : Fin 2048) (d : Fin 256) :
    val_main_v19 (F := Ideal) x6 (ix3 b t d) = x6 (ix2 (0 : Fin 1) d) :=
  (val_main_v19_apply x6 _).trans ((val_main_v17_apply x6 _).trans ((val_main_v16_apply x6 _).trans
    (congrArg x6 (funext fun a => Fin.ext (by
      match a with
      | ⟨0, _⟩ => rfl
      | ⟨1, _⟩ => exact Nat.mod_eq_of_lt d.isLt)))))

/-- The time bias, broadcast over rows and steps, at (b, t, d) is the bias at d. -/
theorem v23_at (b : Fin 128) (t : Fin 2048) (d : Fin 256) :
    val_main_v23 (F := Ideal) x7 (ix3 b t d) = x7 (ix1 d) :=
  (val_main_v23_apply x7 _).trans ((val_main_v22_apply x7 _).trans
    (congrArg x7 (funext fun a => by match a with | ⟨0, _⟩ => rfl)))

/-- The features through the sensor weights, at (b, t, d): the sum over the 74 features. -/
theorem v11_at (b : Fin 128) (t : Fin 2048) (d : Fin 256) :
    val_main_v11 (F := Ideal) x0 x3 x4 (ix3 b t d)
      = ∑ f : Fin 74, val_main_v3 (F := Ideal) x0 x3 (ix3 b t f) * x4 (ix2 f d) :=
  (val_main_v11_apply x0 x3 x4 _).trans (Finset.sum_congr rfl fun f _ =>
    congrArg₂ (· * ·)
      (congrArg (val_main_v3 (F := Ideal) x0 x3)
        (funext fun a => by match a with | ⟨0, _⟩ => rfl | ⟨1, _⟩ => rfl | ⟨2, _⟩ => rfl))
      (congrArg x4 (funext fun a => by match a with | ⟨0, _⟩ => rfl | ⟨1, _⟩ => rfl)))

/-- The embedding array at (b, t, d), over the feature array. -/
theorem v24_at (b : Fin 128) (t : Fin 2048) (d : Fin 256) :
    val_main_v24 (F := Ideal) x0 x2 x3 x4 x5 x6 x7 (ix3 b t d)
      = (((∑ f : Fin 74, val_main_v3 (F := Ideal) x0 x3 (ix3 b t f) * x4 (ix2 f d)) + x5 (ix1 d))
          + x2 (ix2 b t) * x6 (ix2 (0 : Fin 1) d)) + x7 (ix1 d) := by
  rw [val_main_v24_apply, val_main_v21_apply, val_main_v14_apply, val_main_v20_apply, v11_at, v13_at, v18_at,
    v19_at, v23_at]
  simp only [Ideal.addf_def, Ideal.mulf_def]

/-- The embedding array at (b, t, d) is the specification's embedding of step t of row b. -/
theorem emb_at
    (hfeat : ∀ (b : Fin 128) (t : Fin 2048) (f : Fin 74),
      val_main_v3 (F := Ideal) x0 x3 (ix3 b t f) = Cert.Pool.feat II b t f)
    (b : Fin 128) (t : Fin 2048) (d : Fin 256) :
    val_main_v24 (F := Ideal) x0 x2 x3 x4 x5 x6 x7 (ix3 b t d) = Cert.Pool.emb II b t d := by
  rw [v24_at]
  simp only [hfeat]
  rfl

/-! ## The number of valid steps and the divisor -/

/-- The sum of the validity indicators of a row's steps (from zero) is the specification's number of valid steps. -/
theorem v25_at
    (hstep : ∀ (b : Fin 128) (t : Fin 2048), val_main_v10 (F := Ideal) x0 x3 (ix2 b t) = Cert.Pool.step II b t)
    (b : Fin 128) :
    val_main_v25 (F := Ideal) x0 x3 (ix1 b) = Cert.Pool.raw II b := by
  rw [val_main_v25_apply, val_main_cst_1_apply, Ideal.ofBits_def, Ideal.ofBits_zero_f32, zero_add]
  unfold Cert.Pool.raw
  refine Finset.sum_congr rfl fun t _ => ?_
  exact (congrArg (val_main_v10 (F := Ideal) x0 x3)
    (funext fun a => by match a with | ⟨0, _⟩ => rfl | ⟨1, _⟩ => rfl)).trans (hstep b t)

/-- The clipped count (the larger of the lower bound and the count) is the specification's divisor. -/
theorem v26_at
    (hstep : ∀ (b : Fin 128) (t : Fin 2048), val_main_v10 (F := Ideal) x0 x3 (ix2 b t) = Cert.Pool.step II b t)
    (b : Fin 128) :
    val_main_v26 (F := Ideal) x0 x3 (ix1 b) = Cert.Pool.den II b := by
  rw [val_main_v26_apply, val_main_call0_v1_apply, val_main_call0_v0_apply, val_main_cst_2_apply,
    v25_at x0 x1 x2 x3 x4 x5 x6 x7 x8 x9 x10 x11 x12 x13 hstep]
  unfold Cert.Pool.den Cert.Pool.eps
  simp only [Ideal.maximumf_def, Ideal.ofBits_def]

/-- The divisor, broadcast over the embedding axis, at (b, d) is the divisor of row b. -/
theorem v32_at (b : Fin 128) (d : Fin 256) :
    val_main_v32 (F := Ideal) x0 x3 (ix2 b d) = val_main_v26 (F := Ideal) x0 x3 (ix1 b) :=
  (val_main_v32_apply x0 x3 _).trans ((val_main_v27_apply x0 x3 _).trans
    (congrArg (val_main_v26 (F := Ideal) x0 x3) (funext fun a => by match a with | ⟨0, _⟩ => rfl)))

/-! ## The pooled row -/

/-- The validity indicators, broadcast over the embedding axis, at (b, t, d) are the indicator of step t of row b. -/
theorem v29_at (b : Fin 128) (t : Fin 2048) (d : Fin 256) :
    val_main_v29 (F := Ideal) x0 x3 (ix3 b t d) = val_main_v10 (F := Ideal) x0 x3 (ix2 b t) :=
  (val_main_v29_apply x0 x3 _).trans ((val_main_v28_apply x0 x3 _).trans
    (congrArg (val_main_v10 (F := Ideal) x0 x3) (funext fun a => by match a with | ⟨0, _⟩ => rfl | ⟨1, _⟩ => rfl)))

/-- The masked embeddings summed over the steps (from zero), at (b, d). -/
theorem v31_at
    (hfeat : ∀ (b : Fin 128) (t : Fin 2048) (f : Fin 74),
      val_main_v3 (F := Ideal) x0 x3 (ix3 b t f) = Cert.Pool.feat II b t f)
    (hstep : ∀ (b : Fin 128) (t : Fin 2048), val_main_v10 (F := Ideal) x0 x3 (ix2 b t) = Cert.Pool.step II b t)
    (b : Fin 128) (d : Fin 256) :
    val_main_v31 (F := Ideal) x0 x2 x3 x4 x5 x6 x7 (ix2 b d)
      = ∑ t : Fin 2048, Cert.Pool.emb II b t d * Cert.Pool.step II b t := by
  rw [val_main_v31_apply, val_main_cst_3_apply, Ideal.ofBits_def, Ideal.ofBits_zero_f32, zero_add]
  refine Finset.sum_congr rfl fun t _ => ?_
  have e : idx_main_v31 (ix2 b d) t = ix3 b t d :=
    funext fun a => by match a with | ⟨0, _⟩ => rfl | ⟨1, _⟩ => rfl | ⟨2, _⟩ => rfl
  rw [e, val_main_v30_apply, emb_at x0 x1 x2 x3 x4 x5 x6 x7 x8 x9 x10 x11 x12 x13 hfeat, v29_at, hstep, Ideal.mulf_def]

/-- The masked sum divided by the divisor is the specification's pooled row. -/
theorem v33_at
    (hfeat : ∀ (b : Fin 128) (t : Fin 2048) (f : Fin 74),
      val_main_v3 (F := Ideal) x0 x3 (ix3 b t f) = Cert.Pool.feat II b t f)
    (hstep : ∀ (b : Fin 128) (t : Fin 2048), val_main_v10 (F := Ideal) x0 x3 (ix2 b t) = Cert.Pool.step II b t)
    (b : Fin 128) (d : Fin 256) :
    val_main_v33 (F := Ideal) x0 x2 x3 x4 x5 x6 x7 (ix2 b d) = Cert.Pool.pooledR II b d := by
  rw [val_main_v33_apply, v31_at x0 x1 x2 x3 x4 x5 x6 x7 x8 x9 x10 x11 x12 x13 hfeat hstep, v32_at, v26_at x0 x1 x2 x3 x4 x5 x6 x7 x8 x9 x10 x11 x12 x13 hstep, Ideal.hostDivf_def]
  rfl

/-! ## The static image and the joined row -/

/-- The static features through the static weights, at (b, j): the sum over the 8 features. -/
theorem v34_at (b : Fin 128) (j : Fin 8) :
    val_main_v34 (F := Ideal) x1 x8 (ix2 b j) = ∑ k : Fin 8, x1 (ix2 b k) * x8 (ix2 k j) :=
  (val_main_v34_apply x1 x8 _).trans (Finset.sum_congr rfl fun k _ =>
    congrArg₂ (· * ·)
      (congrArg x1 (funext fun a => by match a with | ⟨0, _⟩ => rfl | ⟨1, _⟩ => rfl))
      (congrArg x8 (funext fun a => by match a with | ⟨0, _⟩ => rfl | ⟨1, _⟩ => rfl)))

/-- The static bias, broadcast over rows, at (b, j) is the bias at j. -/
theorem v36_at (b : Fin 128) (j : Fin 8) :
    val_main_v36 (F := Ideal) x9 (ix2 b j) = x9 (ix1 j) :=
  (val_main_v36_apply x9 _).trans ((val_main_v35_apply x9 _).trans
    (congrArg x9 (funext fun a => by match a with | ⟨0, _⟩ => rfl)))

/-- The static image at (b, j) is the specification's. -/
theorem v37_at (b : Fin 128) (j : Fin 8) :
    val_main_v37 (F := Ideal) x1 x8 x9 (ix2 b j) = Cert.Pool.se II b j := by
  rw [val_main_v37_apply, v34_at, v36_at, Ideal.addf_def]
  rfl

/-- The joined row at a position below 256 is the pooled row there. -/
theorem v38_left
    (hfeat : ∀ (b : Fin 128) (t : Fin 2048) (f : Fin 74),
      val_main_v3 (F := Ideal) x0 x3 (ix3 b t f) = Cert.Pool.feat II b t f)
    (hstep : ∀ (b : Fin 128) (t : Fin 2048), val_main_v10 (F := Ideal) x0 x3 (ix2 b t) = Cert.Pool.step II b t)
    (b : Fin 128) (i : Fin 264) (h : i.val < 256) :
    val_main_v38 (F := Ideal) x0 x1 x2 x3 x4 x5 x6 x7 x8 x9 (ix2 b i) = Cert.Pool.pooledR II b ⟨i.val, h⟩ := by
  unfold val_main_v38
  exact (concatenate_pair_apply_left (t := S128x264) (s₁ := S128x256) (s₂ := S128x8) 1 _ _ _ (ix2 b i) rfl
    (ix2 b (⟨i.val, h⟩ : Fin 256))
    (fun a => by match a with | ⟨0, _⟩ => rfl | ⟨1, _⟩ => rfl)).trans
    (v33_at x0 x1 x2 x3 x4 x5 x6 x7 x8 x9 x10 x11 x12 x13 hfeat hstep b ⟨i.val, h⟩)

/-- The joined row at a position from 256 on is the static image at that position less 256. -/
theorem v38_right (b : Fin 128) (i : Fin 264) (h : ¬ i.val < 256) :
    val_main_v38 (F := Ideal) x0 x1 x2 x3 x4 x5 x6 x7 x8 x9 (ix2 b i)
      = Cert.Pool.se II b ⟨i.val - 256, by have := i.isLt; omega⟩ := by
  unfold val_main_v38
  refine (concatenate_pair_apply_right (t := S128x264) (s₁ := S128x256) (s₂ := S128x8) 1 _ _ _ (ix2 b i) rfl rfl
    (ix2 b (⟨i.val - 256, by have := i.isLt; omega⟩ : Fin 8)) ?_ ?_).trans
    (v37_at x0 x1 x2 x3 x4 x5 x6 x7 x8 x9 x10 x11 x12 x13 b ⟨i.val - 256, by have := i.isLt; omega⟩)
  · intro a ha
    match a, ha with
    | ⟨0, _⟩, _ => rfl
    | ⟨1, _⟩, ha => exact absurd rfl ha
  · show (i.val - 256) + 256 = i.val
    omega

/-- The joined row at (b, i) is the specification's. -/
theorem v38_at
    (hfeat : ∀ (b : Fin 128) (t : Fin 2048) (f : Fin 74),
      val_main_v3 (F := Ideal) x0 x3 (ix3 b t f) = Cert.Pool.feat II b t f)
    (hstep : ∀ (b : Fin 128) (t : Fin 2048), val_main_v10 (F := Ideal) x0 x3 (ix2 b t) = Cert.Pool.step II b t)
    (b : Fin 128) (i : Fin 264) :
    val_main_v38 (F := Ideal) x0 x1 x2 x3 x4 x5 x6 x7 x8 x9 (ix2 b i)
      = Cert.Pool.comb II (Cert.Pool.pooledR II) b i := by
  unfold Cert.Pool.comb
  by_cases h : i.val < 256
  · rw [dif_pos h]
    exact v38_left x0 x1 x2 x3 x4 x5 x6 x7 x8 x9 x10 x11 x12 x13 hfeat hstep b i h
  · rw [dif_neg h]
    exact v38_right x0 x1 x2 x3 x4 x5 x6 x7 x8 x9 x10 x11 x12 x13 b i h

/-! ## The hidden layer and the classifier -/

/-- The joined row through the hidden weights, at (b, j): the sum over the 264 positions. -/
theorem v39_at (b : Fin 128) (j : Fin 264) :
    val_main_v39 (F := Ideal) x0 x1 x2 x3 x4 x5 x6 x7 x8 x9 x10 (ix2 b j)
      = ∑ i : Fin 264, val_main_v38 (F := Ideal) x0 x1 x2 x3 x4 x5 x6 x7 x8 x9 (ix2 b i) * x10 (ix2 i j) :=
  (val_main_v39_apply x0 x1 x2 x3 x4 x5 x6 x7 x8 x9 x10 _).trans (Finset.sum_congr rfl fun k _ =>
    congrArg₂ (· * ·)
      (congrArg (val_main_v38 (F := Ideal) x0 x1 x2 x3 x4 x5 x6 x7 x8 x9)
        (funext fun a => by match a with | ⟨0, _⟩ => rfl | ⟨1, _⟩ => rfl))
      (congrArg x10 (funext fun a => by match a with | ⟨0, _⟩ => rfl | ⟨1, _⟩ => rfl)))

/-- The hidden bias, broadcast over rows, at (b, j) is the bias at j. -/
theorem v41_at (b : Fin 128) (j : Fin 264) :
    val_main_v41 (F := Ideal) x11 (ix2 b j) = x11 (ix1 j) :=
  (val_main_v41_apply x11 _).trans ((val_main_v40_apply x11 _).trans
    (congrArg x11 (funext fun a => by match a with | ⟨0, _⟩ => rfl)))

/-- The rectified hidden layer at (b, j) is the specification's. -/
theorem v43_at
    (hfeat : ∀ (b : Fin 128) (t : Fin 2048) (f : Fin 74),
      val_main_v3 (F := Ideal) x0 x3 (ix3 b t f) = Cert.Pool.feat II b t f)
    (hstep : ∀ (b : Fin 128) (t : Fin 2048), val_main_v10 (F := Ideal) x0 x3 (ix2 b t) = Cert.Pool.step II b t)
    (b : Fin 128) (j : Fin 264) :
    val_main_v43 (F := Ideal) x0 x1 x2 x3 x4 x5 x6 x7 x8 x9 x10 x11 (ix2 b j)
      = Cert.Pool.hid II (Cert.Pool.pooledR II) b j := by
  rw [val_main_v43_apply, val_main_call1_v0_apply, val_main_call1_cst_apply, val_main_v42_apply, v39_at, v41_at,
    Ideal.ofBits_def, Ideal.ofBits_zero_f32, Ideal.maximumf_def, Ideal.addf_def]
  simp only [v38_at x0 x1 x2 x3 x4 x5 x6 x7 x8 x9 x10 x11 x12 x13 hfeat hstep]
  rfl

/-- The hidden layer through the classifier weights, at (b, c): the sum over the 264 units. -/
theorem v44_at (b : Fin 128) (c : Fin 2) :
    val_main_v44 (F := Ideal) x0 x1 x2 x3 x4 x5 x6 x7 x8 x9 x10 x11 x12 (ix2 b c)
      = ∑ j : Fin 264, val_main_v43 (F := Ideal) x0 x1 x2 x3 x4 x5 x6 x7 x8 x9 x10 x11 (ix2 b j) * x12 (ix2 j c) :=
  (val_main_v44_apply x0 x1 x2 x3 x4 x5 x6 x7 x8 x9 x10 x11 x12 _).trans (Finset.sum_congr rfl fun k _ =>
    congrArg₂ (· * ·)
      (congrArg (val_main_v43 (F := Ideal) x0 x1 x2 x3 x4 x5 x6 x7 x8 x9 x10 x11)
        (funext fun a => by match a with | ⟨0, _⟩ => rfl | ⟨1, _⟩ => rfl))
      (congrArg x12 (funext fun a => by match a with | ⟨0, _⟩ => rfl | ⟨1, _⟩ => rfl)))

/-- The classifier bias, broadcast over rows, at (b, c) is the bias at c. -/
theorem v46_at (b : Fin 128) (c : Fin 2) :
    val_main_v46 (F := Ideal) x13 (ix2 b c) = x13 (ix1 c) :=
  (val_main_v46_apply x13 _).trans ((val_main_v45_apply x13 _).trans
    (congrArg x13 (funext fun a => by match a with | ⟨0, _⟩ => rfl)))

/-- The reference's result at (b, c) is the specification's head on the pooled row. -/
theorem v47_at
    (hfeat : ∀ (b : Fin 128) (t : Fin 2048) (f : Fin 74),
      val_main_v3 (F := Ideal) x0 x3 (ix3 b t f) = Cert.Pool.feat II b t f)
    (hstep : ∀ (b : Fin 128) (t : Fin 2048), val_main_v10 (F := Ideal) x0 x3 (ix2 b t) = Cert.Pool.step II b t)
    (b : Fin 128) (c : Fin 2) :
    val_main_v47 (F := Ideal) x0 x1 x2 x3 x4 x5 x6 x7 x8 x9 x10 x11 x12 x13 (ix2 b c)
      = Cert.Pool.outR II b c := by
  rw [val_main_v47_apply, v44_at, v46_at, Ideal.addf_def]
  simp only [v43_at x0 x1 x2 x3 x4 x5 x6 x7 x8 x9 x10 x11 x12 x13 hfeat hstep]
  rfl

/-- THE REFERENCE IS THE SPECIFICATION: the reference's result at (b, c) is outR of the inputs read off the arrays,
    given that its feature array and its validity indicators are the specification's. -/
theorem ref_out (I : Cert.Pool.Inp) (hI : I = Cert.Pool.ofArrays x0 x1 x2 x3 x4 x5 x6 x7 x8 x9 x10 x11 x12 x13)
    (hfeat : ∀ (b : Fin 128) (t : Fin 2048) (f : Fin 74),
      ReadP.val_main_v3 (F := Ideal) x0 x3 (ix3 b t f) = Cert.Pool.feat I b t f)
    (hstep : ∀ (b : Fin 128) (t : Fin 2048), ReadP.val_main_v10 (F := Ideal) x0 x3 (ix2 b t) = Cert.Pool.step I b t)
    (b : Fin 128) (c : Fin 2) :
    ReadP.val_main_v47 (F := Ideal) x0 x1 x2 x3 x4 x5 x6 x7 x8 x9 x10 x11 x12 x13 (ix2 b c) = Cert.Pool.outR I b c := by
  subst hI
  exact v47_at x0 x1 x2 x3 x4 x5 x6 x7 x8 x9 x10 x11 x12 x13 hfeat hstep b c

end Cert.ReferenceIdeal.Ref

end
-- ==== Proof.RefResult.lean ====
/-
  The reference's result array, at every index, is the function `outR` of its launched argument arrays: the
  valid-step indicator and the feature array read off the program's first operations, then the rest of the program
  over them.
-/
import proofs.«402645_j23527830847742_3_alg».proof.Proof.RefMask
import proofs.«402645_j23527830847742_3_alg».proof.Proof.RefOut

noncomputable section

namespace Cert.ReferenceIdeal.Ref

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ)

/-- The inputs of the specification, read off the reference's launched memory. -/
def inpR (c : Dev nD) : Cert.Pool.Inp :=
  Cert.Pool.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

theorem ref_result (c : Dev nD) :
    Cert.ReferenceIdeal.ValueP.res_main_v47 m c = fun i => Cert.Pool.outR (inpR m c) (i 0) (i 1) := by
  rw [ReadP.val_main_v47_eq]
  funext i
  obtain ⟨b, k, rfl⟩ : ∃ (b : Fin 128) (k : Fin 2), i = ix2 b k := ⟨i 0, i 1, eq_ix2 i⟩
  exact ref_out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (inpR m c) rfl
    (ref_feat (m ((c.tc : Thread nD τ).loc main_arg0)) (m ((c.tc : Thread nD τ).loc main_arg3)) (inpR m c) (fun _ _ _ => rfl) (fun _ _ _ => rfl))
    (ref_step (m ((c.tc : Thread nD τ).loc main_arg0)) (m ((c.tc : Thread nD τ).loc main_arg3)) (inpR m c) (fun _ _ _ => rfl) (fun _ _ _ => rfl))
    b k

end Cert.ReferenceIdeal.Ref

end
-- ==== Proof.Algebra.lean ====
/-
  The algebra of the pooled embedding: on finite inputs, averaging the embeddings of the valid steps equals
  embedding the averaged features once.

  Every quantity involved is a real number. The divisor of the mean is the larger of a positive constant and a
  count, hence a nonzero real, and dividing by it is dividing real numbers. With the coercion of the reals pushed
  outward, the claim is an identity of real numbers: a sum over steps of (an inner sum over features, plus biases,
  plus a time term) times the step's indicator is regrouped by exchanging the two sums and collecting the common
  factors; dividing by the divisor then distributes over the three groups.
-/
import proofs.«402645_j23527830847742_3_alg».proof.Proof.Spec
import Mathlib.Algebra.BigOperators.Group.Finset.Basic
import Mathlib.Algebra.BigOperators.Group.Finset.Sigma
import Mathlib.Algebra.BigOperators.Ring.Finset
import Mathlib.Data.EReal.Basic
import Mathlib.Tactic.Ring
import Mathlib.Tactic.NormNum
import Mathlib.Tactic.Positivity

noncomputable section

namespace Cert.Pool

open Idealize.ShloMosaic Cert.Fin
open scoped BigOperators

/-! ### The clip's lower bound -/

/-- The clip's lower bound denotes the dyadic rational `9007199 / 2^53`: sign 0, exponent 97, mantissa 618591,
    that is `(2^23 + 618591) / 2^23 * 2^(97 - 127)`. -/
theorem eps_val : eps = ((9007199 / 2 ^ 53 : ℝ) : EReal) := by
  unfold eps
  simp [Ideal.ofBits, Ideal.ieee, -EReal.coe_mul]; norm_num

/-- The clip's lower bound is a positive real number. -/
theorem eps_eq : ∃ e : ℝ, 0 < e ∧ eps = (e : EReal) :=
  ⟨9007199 / 2 ^ 53, by positivity, eps_val⟩

/-- The clip's lower bound is finite. -/
theorem isFin_eps : IsFin eps := eps_val ▸ isFin_coe _

/-- The clip's lower bound is positive. -/
theorem eps_pos : 0 < eps := by
  rw [eps_val]; exact_mod_cast (by positivity : (0 : ℝ) < 9007199 / 2 ^ 53)

/-! ### The identity over the reals -/

section Real
variable {T F : Type*} [Fintype T] [Fintype F]

/-- One step's term, regrouped: the inner sum takes the indicator inside, the two biases join, the time term
    keeps its weight outside. -/
theorem real_term (feat : F → ℝ) (ws : F → ℝ) (s tm bs wt bt : ℝ) :
    ((((∑ f, feat f * ws f) + bs) + tm * wt) + bt) * s
      = ((∑ f, feat f * s * ws f) + s * (bs + bt)) + tm * s * wt := by
  have h : (∑ f, feat f * ws f) * s = ∑ f, feat f * s * ws f := by
    rw [Finset.sum_mul]
    exact Finset.sum_congr rfl fun f _ => by ring
  rw [← h]; ring

/-- The sum over the steps, regrouped: exchange the sum over steps with the sum over features, and take the
    common factors out of the other two sums. -/
theorem real_sum (feat : T → F → ℝ) (ws : F → ℝ) (s tm : T → ℝ) (bs wt bt : ℝ) :
    ∑ t, ((((∑ f, feat t f * ws f) + bs) + tm t * wt) + bt) * s t
      = ((∑ f, (∑ t, feat t f * s t) * ws f) + (∑ t, s t) * (bs + bt)) + (∑ t, tm t * s t) * wt := by
  have h1 : ∑ t, ∑ f, feat t f * s t * ws f = ∑ f, (∑ t, feat t f * s t) * ws f := by
    rw [Finset.sum_comm]
    exact Finset.sum_congr rfl fun f _ => (Finset.sum_mul _ _ _).symm
  simp only [real_term, Finset.sum_add_distrib]
  rw [h1, ← Finset.sum_mul, ← Finset.sum_mul]

/-- The mean, regrouped: the quotient by the divisor distributes over the three groups. -/
theorem real_pool (feat : T → F → ℝ) (ws : F → ℝ) (s tm : T → ℝ) (bs wt bt den : ℝ) :
    (∑ t, ((((∑ f, feat t f * ws f) + bs) + tm t * wt) + bt) * s t) / den
      = ((∑ f, (∑ t, feat t f * s t) * ws f) / den + (∑ t, s t) / den * (bs + bt))
          + (∑ t, tm t * s t) / den * wt := by
  rw [real_sum]; ring

end Real

/-! ### The identity over the extended reals, for finite entries -/

/-- The same identity for extended reals that are all finite, the divisor being moreover nonzero: each entry is
    the image of a real number, the images of sums, products and quotients are the sums, products and quotients
    of the images, and the real identity applies. -/
theorem ereal_pool {T F : Type*} [Fintype T] [Fintype F] (feat : T → F → EReal) (ws : F → EReal)
    (s tm : T → EReal) (bs wt bt den : EReal) (hfeat : ∀ t f, IsFin (feat t f)) (hws : ∀ f, IsFin (ws f))
    (hs : ∀ t, IsFin (s t)) (htm : ∀ t, IsFin (tm t)) (hbs : IsFin bs) (hwt : IsFin wt) (hbt : IsFin bt)
    (hden : IsFin den) (hden0 : den ≠ 0) :
    Ideal.div (∑ t, ((((∑ f, feat t f * ws f) + bs) + tm t * wt) + bt) * s t) den
      = (Ideal.div (∑ f, (∑ t, feat t f * s t) * ws f) den + Ideal.div (∑ t, s t) den * (bs + bt))
          + Ideal.div (∑ t, tm t * s t) den * wt := by
  choose featr hfeatr using hfeat
  choose wsr hwsr using hws
  choose sr hsr using hs
  choose tmr htmr using htm
  obtain ⟨bsr, rfl⟩ := hbs
  obtain ⟨wtr, rfl⟩ := hwt
  obtain ⟨btr, rfl⟩ := hbt
  obtain ⟨denr, rfl⟩ := hden
  have hd : denr ≠ 0 := by exact_mod_cast hden0
  simp only [hfeatr, hwsr, hsr, htmr, ← EReal.coe_add, ← EReal.coe_mul, ← coe_sum, div_coe_coe _ _ hd]
  exact congrArg _ (real_pool featr wsr sr tmr bsr wtr btr denr)

/-! ### The pooled embedding -/

variable (I : Inp)

/-- A feature of a step is a reading or a flag, finite either way. -/
theorem isFin_feat (h : I.Finite) (b : Fin 128) (t : Fin 2048) (f : Fin 74) : IsFin (feat I b t f) := by
  unfold feat
  split
  · exact h.x _ _ _
  · exact h.mf _ _ _

/-- The indicator of a valid step is zero or one, finite either way. -/
theorem isFin_step (b : Fin 128) (t : Fin 2048) : IsFin (step I b t) := by
  unfold step
  split
  · exact isFin_one
  · exact isFin_zero

/-- The number of valid steps is finite. -/
theorem isFin_raw (b : Fin 128) : IsFin (raw I b) :=
  isFin_sum _ _ fun t _ => isFin_step I b t

/-- The divisor of the mean is finite. -/
theorem isFin_den (b : Fin 128) : IsFin (den I b) := isFin_eps.max (isFin_raw I b)

/-- The divisor of the mean is positive, being at least the clip's lower bound. -/
theorem den_pos (b : Fin 128) : 0 < den I b := lt_max_of_lt_left eps_pos

/-- The divisor of the mean is not zero. -/
theorem den_ne_zero (b : Fin 128) : den I b ≠ 0 := (den_pos I b).ne'

/-- On finite inputs, averaging the embeddings equals embedding the averages. -/
theorem pooled_eq (h : I.Finite) (b : Fin 128) (d : Fin 256) : pooledR I b d = pooledK I b d := by
  unfold pooledR pooledK emb accF accT raw
  exact ereal_pool (feat I b) (fun f => I.ws f d) (step I b) (I.tm b) (I.bs d) (I.wt d) (I.bt d) (den I b)
    (isFin_feat I h b) (fun f => h.ws f d) (isFin_step I b) (h.tm b) (h.bs d) (h.wt d) (h.bt d)
    (isFin_den I b) (den_ne_zero I b)

/-- The head is the same function of the pooled row on both sides, so the results agree. -/
theorem out_eq (h : I.Finite) (b : Fin 128) (c : Fin 2) : outR I b c = outK I b c := by
  have hp : pooledR I = pooledK I := funext fun b => funext fun d => pooled_eq I h b d
  unfold outR outK
  rw [hp]

end Cert.Pool

end
-- ==== Proof.Finite.lean ====
/-
  From the printed precondition to the finiteness the algebra needs. The precondition is a conjunction, one
  conjunct per argument array, of "every entry's absolute value is below plus infinity". An extended real whose
  absolute value max x (-x) is below the top element is neither infinity, hence a real number. Read at the six
  arrays that enter the pooled embedding this gives the fields of `Inp.Finite`; the presence flags are integers
  read as reals, finite by construction.
-/
import proofs.«402645_j23527830847742_3_alg».proof.Proof.Spec
import proofs.«402645_j23527830847742_3_alg».proof.Pre_finite_inputs
import Idealize.ShloMosaic.Lib.ReduceAll

noncomputable section

namespace Cert.Pool

open Idealize.ShloMosaic Idealize.ShloMosaic.ValueIdx Cert.Fin

/-- The word of plus infinity denotes the top element. -/
theorem pre_ofBits_inf : Ideal.ofBits .f32 0x7F800000#32 = ⊤ := by
  simp [Ideal.ofBits, Ideal.ieee]

/-- An extended real whose absolute value is below the top element is a real number. -/
theorem pre_isFin_of_abs_lt_top {x : EReal} (h : max x (-x) < ⊤) : IsFin x := by
  refine isFin_of_ne ?_ ?_
  · rintro rfl
    simp at h
  · rintro rfl
    simp at h

/-- The rank-zero shape has one index. -/
theorem pre_subsingleton_idx0 : Subsingleton (⟨0, ![]⟩ : Shape).Idx :=
  ⟨fun a b => funext fun d => d.elim0⟩

/-- If the conjunction over all entries of "the absolute value of the entry is below the entry of `c`", with `c`
    everywhere the top element, is true, then every entry of `v` is a real number. -/
theorem pre_allFin_of_all {s t u : Shape} {axes : List (Fin s.rank)} [Subsingleton t.Idx]
    (v c : FVec Ideal s .f32) (hc : ∀ i, c i = ⊤) (init : u.Idx → BitVec 1) (h : s.ReducesTo axes t)
    (hu : 0 < u.numel) (j : t.Idx)
    (e : Host.reduce IntOp.andi (cmpf .olt (Host.absf v) c) init h hu j = 1#1) : AllFin v := by
  intro i
  have hi := Host.reduce_andi_all _ init h hu j e i
  have hlt : max (v i) (-(v i)) < c i := by
    by_contra hn
    have : cmpf .olt (Host.absf v) c i = 0#1 := by
      show BitVec.ofBool (decide (max (v i) (-(v i)) < c i)) = 0#1
      simp [hn]
    rw [this] at hi
    exact absurd hi (by decide)
  rw [hc i] at hlt
  exact pre_isFin_of_abs_lt_top hlt

open Cert.Pre_finite_inputs in
/-- The printed precondition, true at its one index, makes the inputs of the pooled embedding real numbers. -/
theorem finite_of_pre [Cert.Pre_finite_inputs.Facts]
    (a0 : FVec Ideal Cert.Pre_finite_inputs.S128x37x2048 .f32) (a1 : FVec Ideal Cert.Pre_finite_inputs.S128x8 .f32)
    (a2 : FVec Ideal Cert.Pre_finite_inputs.S128x2048 .f32) (a3 : IVec Cert.Pre_finite_inputs.S128x37x2048 32)
    (a4 : FVec Ideal Cert.Pre_finite_inputs.S74x256 .f32) (a5 : FVec Ideal Cert.Pre_finite_inputs.S256 .f32)
    (a6 : FVec Ideal Cert.Pre_finite_inputs.S1x256 .f32) (a7 : FVec Ideal Cert.Pre_finite_inputs.S256 .f32)
    (a8 : FVec Ideal Cert.Pre_finite_inputs.S8x8 .f32) (a9 : FVec Ideal Cert.Pre_finite_inputs.S8 .f32)
    (a10 : FVec Ideal Cert.Pre_finite_inputs.S264x264 .f32) (a11 : FVec Ideal Cert.Pre_finite_inputs.S264 .f32)
    (a12 : FVec Ideal Cert.Pre_finite_inputs.S264x2 .f32) (a13 : FVec Ideal Cert.Pre_finite_inputs.S2 .f32)
    (h : Cert.Pre_finite_inputs.fn (F := Ideal) a0 a1 a2 a3 a4 a5 a6 a7 a8 a9 a10 a11 a12 a13 = fun _ => 1#1) :
    (Cert.Pool.ofArrays a0 a1 a2 a3 a4 a5 a6 a7 a8 a9 a10 a11 a12 a13).Finite := by
  haveI : Subsingleton S_.Idx := pre_subsingleton_idx0
  have h0 := congrFun h ix0
  simp only [fn, fn_part1, fn_part2, fn_part3, andi, IntOp.andi_eq_one] at h0
  obtain ⟨⟨⟨⟨⟨⟨⟨⟨⟨⟨⟨⟨e0, _⟩, e2⟩, e4⟩, e5⟩, e6⟩, e7⟩, _⟩, _⟩, _⟩, _⟩, _⟩, _⟩ := h0
  have top : ∀ {s : Shape} (dims : Fin S_.rank → Fin s.rank) (hb : S_.BroadcastsInDim s dims) (i : s.Idx),
      broadcastInDim s dims hb (constant (F := Ideal) S_ .f32 0x7F800000#32) i = ⊤ := fun _ _ _ => pre_ofBits_inf
  have f0 := pre_allFin_of_all a0 _ (top _ _) _ _ _ _ e0
  have f2 := pre_allFin_of_all a2 _ (top _ _) _ _ _ _ e2
  have f4 := pre_allFin_of_all a4 _ (top _ _) _ _ _ _ e4
  have f5 := pre_allFin_of_all a5 _ (top _ _) _ _ _ _ e5
  have f6 := pre_allFin_of_all a6 _ (top _ _) _ _ _ _ e6
  have f7 := pre_allFin_of_all a7 _ (top _ _) _ _ _ _ e7
  exact
    { x := fun b s t => f0 (ix3 b s t)
      mf := fun b s t => isFin_coe _
      tm := fun b t => f2 (ix2 b t)
      ws := fun f d => f4 (ix2 f d)
      bs := fun d => f5 (ix1 d)
      wt := fun d => f6 (ix2 (0 : Fin 1) d)
      bt := fun d => f7 (ix1 d) }

end Cert.Pool

end
-- ==== Proof.lean ====
/-
  Two programs for a sensor-sequence classifier agree on the extended reals when their inputs are finite.

  The model embeds every time step (74 features through a weight matrix, the step's time through a weight row, two
  biases), averages the embeddings over the steps that have a nonzero feature (dividing by the clipped count of such
  steps), joins the average with an affine image of static features and applies a rectified hidden layer and a
  classifier. The reference does exactly that. The kernel sums the features, the time and the count over the valid
  steps first, tile by tile along time, and embeds the sums once: the embedding is affine, so for finite inputs the
  two orders give the same pooled row (module Algebra), and the head after it is the same function on both sides.
  The kernel's output array is read off its run block by block (modules KernelPieces … KernelFinal), the reference's
  off its run operation by operation (modules RefMask, RefOut, RefResult); finiteness of the inputs is the
  precondition (module Finite).
-/
import proofs.«402645_j23527830847742_3_alg».proof.Defs
import proofs.«402645_j23527830847742_3_alg».proof.Proof.Gen.Kernel
import proofs.«402645_j23527830847742_3_alg».proof.Proof.Gen.Kernel.Skeleton
import proofs.«402645_j23527830847742_3_alg».proof.Proof.Gen.Kernel.Launch
import proofs.«402645_j23527830847742_3_alg».proof.Proof.Gen.Kernel.Points
import proofs.«402645_j23527830847742_3_alg».proof.Proof.Gen.Kernel.Frame
import proofs.«402645_j23527830847742_3_alg».proof.Proof.Gen.KernelIdeal
import proofs.«402645_j23527830847742_3_alg».proof.Proof.Gen.KernelIdeal.Skeleton
import proofs.«402645_j23527830847742_3_alg».proof.Proof.Gen.KernelIdeal.Launch
import proofs.«402645_j23527830847742_3_alg».proof.Proof.Gen.KernelIdeal.Points
import proofs.«402645_j23527830847742_3_alg».proof.Proof.Gen.KernelIdeal.Frame
import proofs.«402645_j23527830847742_3_alg».proof.Proof.Gen.ReferenceIdeal
import proofs.«402645_j23527830847742_3_alg».proof.Proof.Gen.Pre_finite_inputs
import proofs.«402645_j23527830847742_3_alg».proof.Proof.Gen.KernelIdeal.Value
import proofs.«402645_j23527830847742_3_alg».proof.Proof.KernelFinal
import proofs.«402645_j23527830847742_3_alg».proof.Proof.RefResult
import proofs.«402645_j23527830847742_3_alg».proof.Proof.Algebra
import proofs.«402645_j23527830847742_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The inputs the kernel is launched with are finite where the algebra needs it: the precondition says so. -/
theorem finite_inp (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KernelIdeal.Out.inp m c).Finite :=
  Cert.Pool.finite_of_pre _ _ _ _ _ _ _ _ _ _ _ _ _ _ (hpre c)

/-- From memories that agree on the arguments, both programs end with the same result array: the kernel's is the
    pool-then-embed function of its arguments, the reference's the embed-then-pool function of the same arguments,
    and the two functions agree on finite inputs. -/
theorem algebraic : Cert.algebraic_KernelIdeal_ReferenceIdeal := by
  intro m ρ m' ρ' hpre hagree
  refine ⟨fun c => Cert.KernelIdeal.Out.G m c, Cert.KernelIdeal.Out.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Ref.ref_result m' c]
  have hI : Cert.ReferenceIdeal.Ref.inpR m' c = Cert.KernelIdeal.Out.inp m c := by
    obtain ⟨h0, h1, h2, h3, h4, h5, h6, h7, h8, h9, h10, h11, h12, h13⟩ := hagree c
    unfold Cert.ReferenceIdeal.Ref.inpR Cert.KernelIdeal.Out.inp
    rw [h0, h1, h2, h3, h4, h5, h6, h7, h8, h9, h10, h11, h12, h13]
  rw [hI]
  funext i
  exact Cert.Pool.out_eq (Cert.KernelIdeal.Out.inp m c) (finite_inp m hpre c) (i 0) (i 1)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
